-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S2x131072 : Shape := ⟨2, ![2, 131072]⟩
abbrev S131072 : Shape := ⟨1, ![131072]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S4096x128 .f32) (main_arg1 : IVec S2x131072 32) (main_arg2 : FVec F S131072 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  main_v8
-- ==== Kernel.lean ====
abbrev S4096x128 : Shape := ⟨2, ![4096, 128]⟩
abbrev S2x131072 : Shape := ⟨2, ![2, 131072]⟩
abbrev S131072 : Shape := ⟨1, ![131072]⟩
abbrev S1x131072 : Shape := ⟨2, ![1, 131072]⟩
abbrev S_ : Shape := ⟨0, ![]⟩
abbrev S4096x4096 : Shape := ⟨2, ![4096, 4096]⟩
abbrev S131072x1 : Shape := ⟨2, ![131072, 1]⟩
abbrev S131072x2 : Shape := ⟨2, ![131072, 2]⟩
abbrev S1024x1024 : Shape := ⟨2, ![1024, 1024]⟩
abbrev S512x1024 : Shape := ⟨2, ![512, 1024]⟩

abbrev nBuf : Space → Nat
  | .hbm => 52
  | .vmem => 24
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x1, .i32⟩
  | .hbm, ⟨45, _⟩ => ⟨S131072x2, .i32⟩
  | .hbm, ⟨46, _⟩ => ⟨S_, .f32⟩
  | .hbm, ⟨47, _⟩ => ⟨S131072, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S4096x4096 : S_.BroadcastsInDim S4096x4096 (![] : Fin 0 → Fin S4096x4096.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  scatter_S4096x4096_S131072x2_S131072_n_01_01_1_wf : ScatterDims.WF S4096x4096 S131072x2 S131072 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .f32 = 32 ∨ (Rect.block (s := S4096x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .f32 = 32 ∨ (Rect.block (s := S4096x4096) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x4096.size a
  hwx2_3 : ∀ i : grid2.Coords, EltTy.bits .f32 = 32 ∨ (Rect.block (s := S4096x4096) S512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S4096x4096.size a
  hwx2_4 : ∀ i : grid2.Coords, EltTy.bits .f32 = 32 ∨ (Rect.block (s := S4096x4096) S512x1024.size (cc2_transform_4 i) (hinb2_4 i)).WholeWords (EltTy.packing .f32)

variable [Facts₀]

def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v18) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v34) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x128 : Shape := ⟨2, ![4096, 128]⟩
abbrev S2x131072 : Shape := ⟨2, ![2, 131072]⟩
abbrev S131072 : Shape := ⟨1, ![131072]⟩
abbrev S1x131072 : Shape := ⟨2, ![1, 131072]⟩
abbrev S_ : Shape := ⟨0, ![]⟩
abbrev S4096x4096 : Shape := ⟨2, ![4096, 4096]⟩
abbrev S131072x1 : Shape := ⟨2, ![131072, 1]⟩
abbrev S131072x2 : Shape := ⟨2, ![131072, 2]⟩

abbrev nBuf : Space → Nat
  | .hbm => 78
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S2x131072, .i32⟩
  | .hbm, ⟨2, _⟩ => ⟨S131072, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S4096x4096, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S_, .i32⟩
  | .hbm, ⟨40, _⟩ => ⟨S131072, .i32⟩
  | .hbm, ⟨41, _⟩ => ⟨S131072, .i32⟩
  | .hbm, ⟨42, _⟩ => ⟨S131072, .i32⟩
  | .hbm, ⟨43, _⟩ => ⟨S131072x1, .i32⟩
  | .hbm, ⟨44, _⟩ => ⟨S131072x1, .i32⟩
  | .hbm, ⟨45, _⟩ => ⟨S131072x2, .i32⟩
  | .hbm, ⟨46, _⟩ => ⟨S_, .f32⟩
  | .hbm, ⟨47, _⟩ => ⟨S131072, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .i1⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .i1⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_call1_v0 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S4096x4096 : S_.BroadcastsInDim S4096x4096 (![] : Fin 0 → Fin S4096x4096.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  scatter_S4096x4096_S131072x2_S131072_n_01_01_1_wf : ScatterDims.WF S4096x4096 S131072x2 S131072 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S131072x2_S131072_n_01_01_1 : ScatterDims S4096x4096 S131072x2 S131072 where
  updateWindowDims := []
  insertedWindowDims := [0, 1]
  scatterDimsToOperandDims := [0, 1]
  indexVectorDim := 1
  wf := scatter_S4096x4096_S131072x2_S131072_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Data.lean ====
/-
  The proof data of the three pipelines of the idealized kernel program, at a PARAMETER `V`: the contents of the
  TensorCore's buffers when a region is entered.

  Regions 0 and 1 run one kernel on a 4 × 4 × 4 grid (row block i, column block j, contraction block k, k fastest):
  at k = 0 the scratch accumulator is reset to zero, at every k the product of the two input blocks is added to it,
  and at k = 3 the accumulator, thresholded, is stored into the output block, which the pipeline writes back there.
  So the scratch after point n holds the partial sum of the block products of the points n - n % 4 … n
  (`accAt0`, `accAt1`), it is carried from point to point in the region invariant (`Phi0`, `Phi1`), and the output
  window is idle at k < 3. Region 2 is pointwise: its output block is one payload of its four input blocks.
-/
import proofs.«156726_j25744033972455_1_alg».proof.Proof.Gen.KernelIdeal.Launch
import proofs.«156726_j25744033972455_1_alg».proof.Proof.Gen.KernelIdeal.Skeleton
import proofs.«156726_j25744033972455_1_alg».proof.Proof.Gen.KernelIdeal.Points
import Idealize.ShloMosaic.Lib.Pipeline.FrameBody
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: A · A, thresholded -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after point `n`: at a point with k = 0 the product of the two blocks added to zero,
    else added to what the point before left. -/
def accAt0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 4 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- The region invariant before point `n`: before the first point the core's scoped buffers that are no staging
    buffer of this pipeline, each at anything; afterwards the accumulator at what the point before left in it, and
    the others unopened. -/
def Phi0 (c : Dev nD) : (n : ℕ) → n ≤ cfg0.N → sProp 𝕄
  | 0, _ => Pipeline.scopedRest spec0 c
  | n + 1, hn => iprop(owns (c : Thread nD τ) (Memref.whole cc0_scratch0) fullShare (accAt0 V c n hn)
      ∗ Pipeline.scopedRestBut spec0 c [cc0_scratch0])

/-- The proof data of pipeline 0: the arrays as the region finds them; the inputs' buffers at their blocks; the
    output's at the thresholded accumulator (consulted only where k = 3: elsewhere the window is idle); the two input
    windows read ONE array, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := Phi0 V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

/-! ## Region 1: A · M2, thresholded -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

def Phi1 (c : Dev nD) : (n : ℕ) → n ≤ cfg1.N → sProp 𝕄
  | 0, _ => Pipeline.scopedRest spec1 c
  | n + 1, hn => iprop(owns (c : Thread nD τ) (Memref.whole cc1_scratch0) fullShare (accAt1 V c n hn)
      ∗ Pipeline.scopedRestBut spec1 c [cc1_scratch0])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := Phi1 V c t.val (Nat.le_of_lt_succ t.isLt)
  q _ := fullShare
  owed _ := 0

/-! ## Region 2: the weighted sum of the four matrices -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.scopedRest spec2 c
  q _ := fullShare
  owed _ := 0

end Cert.KernelIdeal.Hand

end
-- ==== Proof.Bound.lean ====
/-
  The contents of the TensorCore's unscoped buffers between the items of @main, and the family of proof data.

  @main is one stretch of host operations (the two scattered matrices A = `main_v18` and P = `main_v34`), then the
  three regions. Region 0 changes `main_v35` only (to M2, what its write-backs leave), region 1 `main_v36` only
  (M3), region 2 `main_v37` only (the result); every other buffer keeps what the host stretch left.
-/
import proofs.«156726_j25744033972455_1_alg».proof.Proof.Data
import proofs.«156726_j25744033972455_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch, and after the host stretch (region 0's entry). -/
abbrev W0 (c : Dev nD) : Valuation τ sig (Elt F) := Gen.V0 m c
abbrev W1 (c : Dev nD) : Valuation τ sig (Elt F) := Gen.V1 m c
/-- The same read at the TensorCore's references: what region 0's proof data take. -/
abbrev Vv1 : (c : Dev nD) → (b : Ref sig .tc) → Buf (Elt F) ((c : Thread nD τ).loc b) := fun c b => W1 m c b

/-- M2: what region 0's write-backs leave in `main_v35`. -/
def X35 (c : Dev nD) : Buf (Elt F) ((c : Thread nD τ).loc main_v35) := (dat0 (Vv1 m) c).arrAt 2 cfg0.N
/-- After region 0 (region 1's entry). -/
def W2 (c : Dev nD) : Valuation τ sig (Elt F) := Function.update (W1 m c) main_v35 (X35 m c)
abbrev Vv2 : (c : Dev nD) → (b : Ref sig .tc) → Buf (Elt F) ((c : Thread nD τ).loc b) := fun c b => W2 m c b

/-- M3: what region 1's write-backs leave in `main_v36`. -/
def X36 (c : Dev nD) : Buf (Elt F) ((c : Thread nD τ).loc main_v36) := (dat1 (Vv2 m) c).arrAt 2 cfg1.N
/-- After region 1 (region 2's entry). -/
def W3 (c : Dev nD) : Valuation τ sig (Elt F) := Function.update (W2 m c) main_v36 (X36 m c)
abbrev Vv3 : (c : Dev nD) → (b : Ref sig .tc) → Buf (Elt F) ((c : Thread nD τ).loc b) := fun c b => W3 m c b

/-- The result: what region 2's write-backs leave in `main_v37`. -/
def X37 (c : Dev nD) : Buf (Elt F) ((c : Thread nD τ).loc main_v37) := (dat2 (Vv3 m) c).arrAt 4 cfg2.N
/-- After region 2 (the end of @main). -/
def W4 (c : Dev nD) : Valuation τ sig (Elt F) := Function.update (W3 m c) main_v37 (X37 m c)

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (Vv1 m) c
  | ⟨1, _⟩ => fun c => dat1 (Vv2 m) c
  | ⟨2, _⟩ => fun c => dat2 (Vv3 m) c

/-- No core owes another anything; no level is assigned. -/
abbrev 𝒱₀ : Variants := Variants.none
abbrev L : GSem nD τ sig → Finset Unit := fun _ => ∅
abbrev lv : GSem nD τ sig → Unit → ℕ := fun _ _ => 0

/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)

/-- The thread state at boundary `W`: every unscoped buffer at `W c`, and `R c`. -/
abbrev T (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.Oblig0.lean ====
/-
  Region 0's body obligation.

  At a point of the 4 × 4 × 4 grid the body finds the two input windows' buffers at their blocks a and b (both are
  fetched at every point), the output window's buffer at what it held, and the accumulator: at anything before the
  first point (it is one of the core's scoped buffers), afterwards at the partial sum the point before left. By the
  contraction coordinate k (the point's number mod 4) the body does one of three things: k = 0, zero + a·b; k = 1 or
  2, acc + a·b; k = 3, acc + a·b and that, thresholded, stored into the output's buffer, which the pipeline writes back
  there and nowhere else (at k < 3 the output window is idle and its buffer is handed back untouched). Each of the
  three is proved once on any four whole buffers at named contents; the point's own buffers and blocks are then put
  in their places.
-/
import proofs.«156726_j25744033972455_1_alg».proof.Proof.Data
import Idealize.ShloMosaic.Lib.Tactic
import Idealize.ShloMosaic.Lib.Ring
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

namespace Oblig0

/-! ## The body's two conditions, in closed form over the grid -/

/-- The condition of the body's first branch (the reset of the accumulator), from the grid coordinates: the
    contraction coordinate is 0. -/
abbrev cond0_0 (i : grid0.Coords) : Prop :=
  (Scalar.cmpi .ne (Scalar.extui (Scalar.cmpi .eq (BitVec.ofNat 32 (i 2).val) 0#32)) 0#32) = 1#1

/-- It holds at the points ≡ 0 (mod 4): the contraction coordinate is the fastest. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second branch (the store of the thresholded accumulator: the contraction coordinate is 3)
    holds at the points ≡ 3 (mod 4). -/
theorem hcond0_1 : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## The body on any four whole buffers, one statement per control case

Every load and every store of the body is through the rectangle that is the whole 1024 × 1024 buffer at zero offsets:
a load through it reads the contents, a store through it, made last, leaves its payload whatever was stored before. -/

theorem hzero : (![0, 0] : Fin 2 → Nat) = fun _ => 0 := funext fun a => by fin_cases a <;> rfl

/-- The whole-buffer rectangle. -/
abbrev r0 : Rect S1024x1024 := Rect.unit (s := S1024x1024) ![0, 0] S1024x1024.size inb_S1024x1024_S1024x1024_0_0

/-- A list of stores whose last is through the whole-buffer rectangle covers the buffer. -/
theorem cover_cons (p : r0.shape.Idx → Elt F .f32) (L : List (View.Piece (Elt F) S1024x1024 .f32)) (y : S1024x1024.Idx) :
    ∃ pc ∈ ((⟨r0, p⟩ : View.Piece (Elt F) S1024x1024 .f32) :: L), y ∈ pc.1.set :=
  ⟨_, List.mem_cons_self, View.mem_set_unit_zero hzero inb_S1024x1024_S1024x1024_0_0 y⟩

set_option maxHeartbeats 1000000 in
/-- CONTRACTION COORDINATE 0. The input buffers hold `a` and `b`, the output's buffer `d`, the accumulator anything: the
    body stores zero into the accumulator, reads it back, and stores zero + a·b; the inputs and the output's buffer
    are handed back as they were. -/
theorem kern0_first (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond0_0 i) (hc1 : ¬ k0_cond2 i = 1#1)
    (a b d : Vec F S1024x1024 .f32) (K : PUnit → sProp 𝕄) :
    iprop(owns (c : Thread nD τ) arg3 fullShare a ∗ owns (c : Thread nD τ) arg4 fullShare b ∗ owns (c : Thread nD τ) arg5 fullShare d
        ∗ (∃ s, owns (c : Thread nD τ) arg6 fullShare s)
        ∗ (iprop(owns (c : Thread nD τ) arg3 fullShare a ∗ owns (c : Thread nD τ) arg4 fullShare b ∗ owns (c : Thread nD τ) arg5 fullShare d
            ∗ owns (c : Thread nD τ) arg6 fullShare (k0_pay2 (k0_pay1 (F := F)) a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%f5, %hf5, H5⟩, ⟨%s6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  sl_unfold_words
  rw [View.canon_cons_unit_zero (S := S1024x1024) hzero]
  simp only [View.readAt_eq_ld, harg3.read_unread, harg4.read_unread, View.ld_unit_zero (S := S1024x1024) hzero,
    View.readCov_unit_zero (S := S1024x1024) _ hzero]

set_option maxHeartbeats 1000000 in
/-- CONTRACTION COORDINATE 1 OR 2. The accumulator holds `acc`: the body stores acc + a·b into it; the inputs and
    the output's buffer are handed back as they were. -/
theorem kern0_mid (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond0_0 i) (hc1 : ¬ k0_cond2 i = 1#1)
    (acc a b d : Vec F S1024x1024 .f32) (K : PUnit → sProp 𝕄) :
    iprop(owns (c : Thread nD τ) arg3 fullShare a ∗ owns (c : Thread nD τ) arg4 fullShare b ∗ owns (c : Thread nD τ) arg5 fullShare d
        ∗ owns (c : Thread nD τ) arg6 fullShare acc
        ∗ (iprop(owns (c : Thread nD τ) arg3 fullShare a ∗ owns (c : Thread nD τ) arg4 fullShare b ∗ owns (c : Thread nD τ) arg5 fullShare d
            ∗ owns (c : Thread nD τ) arg6 fullShare (k0_pay2 acc a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

set_option maxHeartbeats 1000000 in
/-- CONTRACTION COORDINATE 3. The accumulator holds `acc`, the output's buffer anything: the body stores acc + a·b
    into the accumulator, reads it back, and stores it thresholded into the output's buffer. -/
theorem kern0_last (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond0_0 i) (hc1 : k0_cond2 i = 1#1)
    (acc a b : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare acc
        ∗ (iprop(owns (c : Thread nD τ) arg3 fullShare a ∗ owns (c : Thread nD τ) arg4 fullShare b ∗ owns (c : Thread nD τ) arg5 fullShare (k0_pay3 (k0_pay2 acc a b))
            ∗ owns (c : Thread nD τ) arg6 fullShare (k0_pay2 acc a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_cons _ _)]
    sl_unfold_words
    rw [View.canon_cons_unit_zero (S := S1024x1024) hzero]
    simp only [View.readAt_eq_ld, harg3.read_unread, harg4.read_unread, harg6.read_unread, View.ld_unit_zero (S := S1024x1024) hzero,
      View.readCov_unit_zero (S := S1024x1024) _ hzero]
  iexists _; isplitr
  swap; · iexact H6
  ipureintro
  sl_unfold_words
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

/-! ## Where the windows are live and where the output is idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The output window is idle exactly where the body does not store into it: off the contraction coordinate 3. -/
theorem idleAt0_2 : ∀ t : Fin cfg0.N, ¬ k0_cond2 (grid0.coords t) = 1#1 → cfg0.idle 2 (grid0.coords t) = true := by decide +kernel
theorem liveAt0_2 : ∀ t : Fin cfg0.N, k0_cond2 (grid0.coords t) = 1#1 → cfg0.idle 2 (grid0.coords t) = false := by decide +kernel
/-- Off the points ≡ 3 (mod 4) the output's block is not written back. -/
theorem noFlush0_2 (t : Fin cfg0.N) (h : ¬ t.val % 4 = 3) : (cfg0.win 2).flush t = false := by
  cases hf : (cfg0.win 2).flush t with
  | false => rfl
  | true => exact absurd ((flush0_2 t).mp hf) h

/-! ## The accumulator, point by point -/

/-- At a point ≡ 0 (mod 4) the accumulator ends at zero + a·b of the point's blocks. -/
theorem accAt0_first (c : Dev nD) (t : Fin cfg0.N) (h : t.val % 4 = 0) :
    accAt0 V c t.val t.isLt = k0_pay2 (k0_pay1 (F := F)) (iblk0 V c 0 t) (iblk0 V c 1 t) := by
  obtain ⟨n, hn⟩ := t
  cases n with
  | zero => rfl
  | succ n => exact if_pos h

/-- At any other point it ends at what the point before left, + a·b of the point's blocks. -/
theorem accAt0_next (c : Dev nD) (t : Fin cfg0.N) (h : ¬ t.val % 4 = 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## The invariant, point by point -/

/-- Before the first point: the scoped rest. -/
theorem Phi0_zero (c : Dev nD) (n : ℕ) (h : n ≤ cfg0.N) (hz : n = 0) : Phi0 V c n h = Pipeline.scopedRest spec0 c := by
  subst hz; rfl

/-- After point `n`: the accumulator at that point's partial sum, beside the other scoped buffers. -/
theorem Phi0_succ (c : Dev nD) (n : ℕ) (hn : n < cfg0.N) :
    Phi0 V c (n + 1) hn = iprop(owns (c : Thread nD τ) (Memref.whole cc0_scratch0) fullShare (accAt0 V c n hn)
      ∗ Pipeline.scopedRestBut spec0 c [cc0_scratch0]) := rfl

/-- Before a point that is not the first: the accumulator at what the point before left. -/
theorem Phi0_pos (c : Dev nD) (n : ℕ) (h : n ≤ cfg0.N) (hz : n ≠ 0) :
    Phi0 V c n h = iprop(owns (c : Thread nD τ) (Memref.whole cc0_scratch0) fullShare (accAt0 V c (n - 1) (by omega))
      ∗ Pipeline.scopedRestBut spec0 c [cc0_scratch0]) := by
  cases n with
  | zero => exact absurd rfl hz
  | succ n => rfl

/-- The scoped rest with the accumulator's buffer split out of it, as a whole memref owned at some contents. -/
theorem scopedRest0_split (c : Dev nD) :
    (Pipeline.scopedRest spec0 c : sProp 𝕄)
      = iprop((∃ s, owns (c : Thread nD τ) (Memref.whole cc0_scratch0) fullShare s) ∗ Pipeline.scopedRestBut spec0 c [cc0_scratch0]) := by
  rw [Pipeline.scopedRest_split_of_list spec0 c [cc0_scratch0] (by decide) (by decide)]
  simp only [bigSepL_singleton, owns_whole]
  rfl

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-! ## The proof data, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

/-- Each input window is fetched at every point, so its current buffer holds its block there. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- What the obligation asks of each window's buffer after the body: the inputs' at their blocks; the output's, at
    a point that stores into it, at the thresholded accumulator. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2_live (c : Dev nD) (t : Fin cfg0.N) (h : k0_cond2 (grid0.coords t) = 1#1) :
    (dat0 V c).leavesExact 2 t = owns (c : Thread nD τ) (st0_2 t) fullShare (k0_pay3 (accAt0 V c t.val t.isLt)) := by
  unfold Dat.leavesExact; rw [liveAt0_2 t h, after0_2]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the point's number mod 4 says which of the three
    cases it is in; the invariant hands over the accumulator (at anything at the first point, else at what the point
    before left) and takes it back at this point's partial sum; at a point that does not store into the output's
    buffer that buffer comes back as it was found, at the others it comes back at the thresholded accumulator; what
    the core owes and the other scoped buffers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [leaves0_0, leaves0_1, Phi0_castSucc]
  have hN : t.val < 64 := lt_of_lt_of_eq t.isLt (show cfg0.N = 64 from N_0)
  by_cases h0 : t.val % 4 = 0
  · -- the first contraction block: the accumulator is reset, then takes the product
    have h1 : ¬ t.val % 4 = 3 := by omega
    have hc1 : ¬ k0_cond2 (grid0.coords t) = 1#1 := fun h => h1 ((hcond0_1 t).mp h)
    rw [Dat.leavesExact_idle (dat0 V c) 2 t (idleAt0_2 t hc1) (noFlush0_2 t h1)]
    rw [accAt0_first V c t h0]
    by_cases hz : t.val = 0
    · rw [Phi0_zero V c _ _ hz, scopedRest0_split]
      iintro ⟨⟨⟨%s, HS⟩, HR⟩, Ho, ⟨%d0, H0⟩, ⟨%d1, H1⟩, ⟨%d2, H2⟩⟩
      iapply (kern0_first c Set.univ (grid0.coords t) _ _ _ _ _ _ _ _ ((hcond0_0 t).mpr h0) hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [Phi0_pos V c _ _ hz]
      iintro ⟨⟨HS, HR⟩, Ho, ⟨%d0, H0⟩, ⟨%d1, H1⟩, ⟨%d2, H2⟩⟩
      iapply (kern0_first c Set.univ (grid0.coords t) _ _ _ _ _ _ _ _ ((hcond0_0 t).mpr h0) hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    have hc0 : ¬ cond0_0 (grid0.coords t) := fun h => h0 ((hcond0_0 t).mp h)
    rw [accAt0_next V c t h0, Phi0_pos V c _ _ hz]
    by_cases h1 : t.val % 4 = 3
    · -- the last contraction block: the accumulator takes the product and is stored, thresholded
      have hc1 : k0_cond2 (grid0.coords t) = 1#1 := (hcond0_1 t).mpr h1
      rw [leaves0_2_live V c t hc1, accAt0_next V c t h0]
      iintro ⟨⟨HS, HR⟩, Ho, ⟨%d0, H0⟩, ⟨%d1, H1⟩, ⟨%d2, H2⟩⟩
      iapply (kern0_last c Set.univ (grid0.coords t) _ _ _ _ _ _ _ _ hc0 hc1 _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- a middle contraction block: the accumulator takes the product
      have hc1 : ¬ k0_cond2 (grid0.coords t) = 1#1 := fun h => h1 ((hcond0_1 t).mp h)
      rw [Dat.leavesExact_idle (dat0 V c) 2 t (idleAt0_2 t hc1) (noFlush0_2 t h1)]
      iintro ⟨⟨HS, HR⟩, Ho, ⟨%d0, H0⟩, ⟨%d1, H1⟩, ⟨%d2, H2⟩⟩
      iapply (kern0_mid c Set.univ (grid0.coords t) _ _ _ _ _ _ _ _ hc0 hc1 _ (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

end Oblig0

open Oblig0

/-- The body at every point of the grid, against the proof data. -/
theorem body_obligation0 (c : Dev nD) : BodyObligation (dat0 (F := F) V c) (defs₀ (F := F)) Variants.none () Set.univ := by
  intro t
  rw [bigSep_W0, bigSep_W0]
  exact sound_body0 V c t

/-- The invariant before the first point is the scoped rest as the region hands it over. -/
theorem Phi0_in (c : Dev nD) : (Pipeline.scopedRest spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- The invariant after the last point gives the scoped rest back. -/
theorem Phi0_out (c : Dev nD) : (dat0 V c).Φ (Fin.last cfg0.N) ⊢ (Pipeline.scopedRest spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), scopedRest0_split]
  iintro ⟨HS, HR⟩
  isplitl [HS]
  · iexists _; iexact HS
  iexact HR

end Cert.KernelIdeal.Hand

end
-- ==== Proof.Oblig1.lean ====
/-
  Region 1's body obligation.

  At a point of the 4 × 4 × 4 grid the body finds the two input windows' buffers at their blocks a and b (both are
  fetched at every point), the output window's buffer at what it held, and the accumulator: at anything before the
  first point (it is one of the core's scoped buffers), afterwards at the partial sum the point before left. By the
  contraction coordinate k (the point's number mod 4) the body does one of three things: k = 0, zero + a·b; k = 1 or
  2, acc + a·b; k = 3, acc + a·b and that, thresholded, stored into the output's buffer, which the pipeline writes back
  there and nowhere else (at k < 3 the output window is idle and its buffer is handed back untouched). Each of the
  three is proved once on any four whole buffers at named contents; the point's own buffers and blocks are then put
  in their places.
-/
import proofs.«156726_j25744033972455_1_alg».proof.Proof.Data
import Idealize.ShloMosaic.Lib.Tactic
import Idealize.ShloMosaic.Lib.Ring
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

namespace Oblig1

/-! ## The body's two conditions, in closed form over the grid -/

/-- The condition of the body's first branch (the reset of the accumulator), from the grid coordinates: the
    contraction coordinate is 0. -/
abbrev cond1_0 (i : grid1.Coords) : Prop :=
  (Scalar.cmpi .ne (Scalar.extui (Scalar.cmpi .eq (BitVec.ofNat 32 (i 2).val) 0#32)) 0#32) = 1#1

/-- It holds at the points ≡ 0 (mod 4): the contraction coordinate is the fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second branch (the store of the thresholded accumulator: the contraction coordinate is 3)
    holds at the points ≡ 3 (mod 4). -/
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## The body on any four whole buffers, one statement per control case

Every load and every store of the body is through the rectangle that is the whole 1024 × 1024 buffer at zero offsets:
a load through it reads the contents, a store through it, made last, leaves its payload whatever was stored before. -/

theorem hzero : (![0, 0] : Fin 2 → Nat) = fun _ => 0 := funext fun a => by fin_cases a <;> rfl

/-- The whole-buffer rectangle. -/
abbrev r0 : Rect S1024x1024 := Rect.unit (s := S1024x1024) ![0, 0] S1024x1024.size inb_S1024x1024_S1024x1024_0_0

/-- A list of stores whose last is through the whole-buffer rectangle covers the buffer. -/
theorem cover_cons (p : r0.shape.Idx → Elt F .f32) (L : List (View.Piece (Elt F) S1024x1024 .f32)) (y : S1024x1024.Idx) :
    ∃ pc ∈ ((⟨r0, p⟩ : View.Piece (Elt F) S1024x1024 .f32) :: L), y ∈ pc.1.set :=
  ⟨_, List.mem_cons_self, View.mem_set_unit_zero hzero inb_S1024x1024_S1024x1024_0_0 y⟩

set_option maxHeartbeats 1000000 in
/-- CONTRACTION COORDINATE 0. The input buffers hold `a` and `b`, the output's buffer `d`, the accumulator anything: the
    body stores zero into the accumulator, reads it back, and stores zero + a·b; the inputs and the output's buffer
    are handed back as they were. -/
theorem kern0_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond1_0 i) (hc1 : ¬ k1_cond2 i = 1#1)
    (a b d : Vec F S1024x1024 .f32) (K : PUnit → sProp 𝕄) :
    iprop(owns (c : Thread nD τ) arg3 fullShare a ∗ owns (c : Thread nD τ) arg4 fullShare b ∗ owns (c : Thread nD τ) arg5 fullShare d
        ∗ (∃ s, owns (c : Thread nD τ) arg6 fullShare s)
        ∗ (iprop(owns (c : Thread nD τ) arg3 fullShare a ∗ owns (c : Thread nD τ) arg4 fullShare b ∗ owns (c : Thread nD τ) arg5 fullShare d
            ∗ owns (c : Thread nD τ) arg6 fullShare (k1_pay2 (k1_pay1 (F := F)) a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%f5, %hf5, H5⟩, ⟨%s6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  sl_unfold_words
  rw [View.canon_cons_unit_zero (S := S1024x1024) hzero]
  simp only [View.readAt_eq_ld, harg3.read_unread, harg4.read_unread, View.ld_unit_zero (S := S1024x1024) hzero,
    View.readCov_unit_zero (S := S1024x1024) _ hzero]

set_option maxHeartbeats 1000000 in
/-- CONTRACTION COORDINATE 1 OR 2. The accumulator holds `acc`: the body stores acc + a·b into it; the inputs and
    the output's buffer are handed back as they were. -/
theorem kern0_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond1_0 i) (hc1 : ¬ k1_cond2 i = 1#1)
    (acc a b d : Vec F S1024x1024 .f32) (K : PUnit → sProp 𝕄) :
    iprop(owns (c : Thread nD τ) arg3 fullShare a ∗ owns (c : Thread nD τ) arg4 fullShare b ∗ owns (c : Thread nD τ) arg5 fullShare d
        ∗ owns (c : Thread nD τ) arg6 fullShare acc
        ∗ (iprop(owns (c : Thread nD τ) arg3 fullShare a ∗ owns (c : Thread nD τ) arg4 fullShare b ∗ owns (c : Thread nD τ) arg5 fullShare d
            ∗ owns (c : Thread nD τ) arg6 fullShare (k1_pay2 acc a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

set_option maxHeartbeats 1000000 in
/-- CONTRACTION COORDINATE 3. The accumulator holds `acc`, the output's buffer anything: the body stores acc + a·b
    into the accumulator, reads it back, and stores it thresholded into the output's buffer. -/
theorem kern0_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond1_0 i) (hc1 : k1_cond2 i = 1#1)
    (acc a b : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare acc
        ∗ (iprop(owns (c : Thread nD τ) arg3 fullShare a ∗ owns (c : Thread nD τ) arg4 fullShare b ∗ owns (c : Thread nD τ) arg5 fullShare (k1_pay3 (k1_pay2 acc a b))
            ∗ owns (c : Thread nD τ) arg6 fullShare (k1_pay2 acc a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_cons _ _)]
    sl_unfold_words
    rw [View.canon_cons_unit_zero (S := S1024x1024) hzero]
    simp only [View.readAt_eq_ld, harg3.read_unread, harg4.read_unread, harg6.read_unread, View.ld_unit_zero (S := S1024x1024) hzero,
      View.readCov_unit_zero (S := S1024x1024) _ hzero]
  iexists _; isplitr
  swap; · iexact H6
  ipureintro
  sl_unfold_words
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

/-! ## Where the windows are live and where the output is idle -/

/-- The input windows are never idle. -/
theorem liveAt0_0 : ∀ t : Fin cfg1.N, cfg1.idle 0 (grid1.coords t) = false := fun _ => rfl
theorem liveAt0_1 : ∀ t : Fin cfg1.N, cfg1.idle 1 (grid1.coords t) = false := fun _ => rfl
/-- The output window is idle exactly where the body does not store into it: off the contraction coordinate 3. -/
theorem idleAt0_2 : ∀ t : Fin cfg1.N, ¬ k1_cond2 (grid1.coords t) = 1#1 → cfg1.idle 2 (grid1.coords t) = true := by decide +kernel
theorem liveAt0_2 : ∀ t : Fin cfg1.N, k1_cond2 (grid1.coords t) = 1#1 → cfg1.idle 2 (grid1.coords t) = false := by decide +kernel
/-- Off the points ≡ 3 (mod 4) the output's block is not written back. -/
theorem noFlush0_2 (t : Fin cfg1.N) (h : ¬ t.val % 4 = 3) : (cfg1.win 2).flush t = false := by
  cases hf : (cfg1.win 2).flush t with
  | false => rfl
  | true => exact absurd ((flush1_2 t).mp hf) h

/-! ## The accumulator, point by point -/

/-- At a point ≡ 0 (mod 4) the accumulator ends at zero + a·b of the point's blocks. -/
theorem accAt1_first (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

/-- At any other point it ends at what the point before left, + a·b of the point's blocks. -/
theorem accAt1_next (c : Dev nD) (t : Fin cfg1.N) (h : ¬ t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The invariant, point by point -/

/-- Before the first point: the scoped rest. -/
theorem Phi1_zero (c : Dev nD) (n : ℕ) (h : n ≤ cfg1.N) (hz : n = 0) : Phi1 V c n h = Pipeline.scopedRest spec1 c := by
  subst hz; rfl

/-- After point `n`: the accumulator at that point's partial sum, beside the other scoped buffers. -/
theorem Phi1_succ (c : Dev nD) (n : ℕ) (hn : n < cfg1.N) :
    Phi1 V c (n + 1) hn = iprop(owns (c : Thread nD τ) (Memref.whole cc1_scratch0) fullShare (accAt1 V c n hn)
      ∗ Pipeline.scopedRestBut spec1 c [cc1_scratch0]) := rfl

/-- Before a point that is not the first: the accumulator at what the point before left. -/
theorem Phi1_pos (c : Dev nD) (n : ℕ) (h : n ≤ cfg1.N) (hz : n ≠ 0) :
    Phi1 V c n h = iprop(owns (c : Thread nD τ) (Memref.whole cc1_scratch0) fullShare (accAt1 V c (n - 1) (by omega))
      ∗ Pipeline.scopedRestBut spec1 c [cc1_scratch0]) := by
  cases n with
  | zero => exact absurd rfl hz
  | succ n => rfl

/-- The scoped rest with the accumulator's buffer split out of it, as a whole memref owned at some contents. -/
theorem scopedRest1_split (c : Dev nD) :
    (Pipeline.scopedRest spec1 c : sProp 𝕄)
      = iprop((∃ s, owns (c : Thread nD τ) (Memref.whole cc1_scratch0) fullShare s) ∗ Pipeline.scopedRestBut spec1 c [cc1_scratch0]) := by
  rw [Pipeline.scopedRest_split_of_list spec1 c [cc1_scratch0] (by decide) (by decide)]
  simp only [bigSepL_singleton, owns_whole]
  rfl

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-! ## The proof data, window by window -/

theorem after0_0 (c : Dev nD) (t : Fin cfg1.N) : (dat1 V c).after 0 t = iblk1 V c 0 t := by dsimp only [dat1]
theorem after0_1 (c : Dev nD) (t : Fin cfg1.N) : (dat1 V c).after 1 t = iblk1 V c 1 t := by dsimp only [dat1]
theorem after0_2 (c : Dev nD) (t : Fin cfg1.N) : (dat1 V c).after 2 t = k1_pay3 (accAt1 V c t.val t.isLt) := by dsimp only [dat1]

/-- Each input window is fetched at every point, so its current buffer holds its block there. -/
theorem before0_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before0_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-- What the obligation asks of each window's buffer after the body: the inputs' at their blocks; the output's, at
    a point that stores into it, at the thresholded accumulator. -/
theorem leaves0_0 (c : Dev nD) (t : Fin cfg1.N) :
    (dat1 V c).leavesExact 0 t = owns (c : Thread nD τ) (st1_0 t) fullShare (iblk1 V c 0 t) := by
  unfold Dat.leavesExact; rw [liveAt0_0 t, after0_0]
theorem leaves0_1 (c : Dev nD) (t : Fin cfg1.N) :
    (dat1 V c).leavesExact 1 t = owns (c : Thread nD τ) (st1_1 t) fullShare (iblk1 V c 1 t) := by
  unfold Dat.leavesExact; rw [liveAt0_1 t, after0_1]
theorem leaves0_2_live (c : Dev nD) (t : Fin cfg1.N) (h : k1_cond2 (grid1.coords t) = 1#1) :
    (dat1 V c).leavesExact 2 t = owns (c : Thread nD τ) (st1_2 t) fullShare (k1_pay3 (accAt1 V c t.val t.isLt)) := by
  unfold Dat.leavesExact; rw [liveAt0_2 t h, after0_2]

/-! ## The body obligation, at a generic point -/

/-- What the body is called with at point `t` (the windows one by one), -/
def bodyPre0 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost0 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks; the point's number mod 4 says which of the three
    cases it is in; the invariant hands over the accumulator (at anything at the first point, else at what the point
    before left) and takes it back at this point's partial sum; at a point that does not store into the output's
    buffer that buffer comes back as it was found, at the others it comes back at the thresholded accumulator; what
    the core owes and the other scoped buffers pass through unread. -/
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1]
  rw [show (dat1 V c).owesAt () t.succ = (dat1 V c).owesAt () t.castSucc from rfl]
  rw [show (dat1 V c).Φ t.succ = Phi1 V c (t.val + 1) t.isLt from rfl, Phi1_succ]
  rw [leaves0_0, leaves0_1, Phi1_castSucc]
  have hN : t.val < 64 := lt_of_lt_of_eq t.isLt (show cfg1.N = 64 from N_1)
  by_cases h0 : t.val % 4 = 0
  · -- the first contraction block: the accumulator is reset, then takes the product
    have h1 : ¬ t.val % 4 = 3 := by omega
    have hc1 : ¬ k1_cond2 (grid1.coords t) = 1#1 := fun h => h1 ((hcond1_1 t).mp h)
    rw [Dat.leavesExact_idle (dat1 V c) 2 t (idleAt0_2 t hc1) (noFlush0_2 t h1)]
    rw [accAt1_first V c t h0]
    by_cases hz : t.val = 0
    · rw [Phi1_zero V c _ _ hz, scopedRest1_split]
      iintro ⟨⟨⟨%s, HS⟩, HR⟩, Ho, ⟨%d0, H0⟩, ⟨%d1, H1⟩, ⟨%d2, H2⟩⟩
      iapply (kern0_first c Set.univ (grid1.coords t) _ _ _ _ _ _ _ _ ((hcond1_0 t).mpr h0) hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [Phi1_pos V c _ _ hz]
      iintro ⟨⟨HS, HR⟩, Ho, ⟨%d0, H0⟩, ⟨%d1, H1⟩, ⟨%d2, H2⟩⟩
      iapply (kern0_first c Set.univ (grid1.coords t) _ _ _ _ _ _ _ _ ((hcond1_0 t).mpr h0) hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    have hc0 : ¬ cond1_0 (grid1.coords t) := fun h => h0 ((hcond1_0 t).mp h)
    rw [accAt1_next V c t h0, Phi1_pos V c _ _ hz]
    by_cases h1 : t.val % 4 = 3
    · -- the last contraction block: the accumulator takes the product and is stored, thresholded
      have hc1 : k1_cond2 (grid1.coords t) = 1#1 := (hcond1_1 t).mpr h1
      rw [leaves0_2_live V c t hc1, accAt1_next V c t h0]
      iintro ⟨⟨HS, HR⟩, Ho, ⟨%d0, H0⟩, ⟨%d1, H1⟩, ⟨%d2, H2⟩⟩
      iapply (kern0_last c Set.univ (grid1.coords t) _ _ _ _ _ _ _ _ hc0 hc1 _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- a middle contraction block: the accumulator takes the product
      have hc1 : ¬ k1_cond2 (grid1.coords t) = 1#1 := fun h => h1 ((hcond1_1 t).mp h)
      rw [Dat.leavesExact_idle (dat1 V c) 2 t (idleAt0_2 t hc1) (noFlush0_2 t h1)]
      iintro ⟨⟨HS, HR⟩, Ho, ⟨%d0, H0⟩, ⟨%d1, H1⟩, ⟨%d2, H2⟩⟩
      iapply (kern0_mid c Set.univ (grid1.coords t) _ _ _ _ _ _ _ _ hc0 hc1 _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

end Oblig1

open Oblig1

/-- The body at every point of the grid, against the proof data. -/
theorem body_obligation1 (c : Dev nD) : BodyObligation (dat1 (F := F) V c) (defs₀ (F := F)) Variants.none () Set.univ := by
  intro t
  rw [bigSep_W1, bigSep_W1]
  exact sound_body0 V c t

/-- The invariant before the first point is the scoped rest as the region hands it over. -/
theorem Phi1_in (c : Dev nD) : (Pipeline.scopedRest spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- The invariant after the last point gives the scoped rest back. -/
theorem Phi1_out (c : Dev nD) : (dat1 V c).Φ (Fin.last cfg1.N) ⊢ (Pipeline.scopedRest spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), scopedRest1_split]
  iintro ⟨HS, HR⟩
  isplitl [HS]
  · iexists _; iexact HS
  iexact HR

end Cert.KernelIdeal.Hand

end
-- ==== Proof.Oblig2.lean ====
/-
  Region 2's body obligation: the pointwise weighted sum of four matrices.

  Every input window is fetched at every point, so the body finds each input's staging buffer at that window's block;
  the body loads the four blocks whole, and stores ONE whole-buffer payload of them into the output's staging buffer,
  which therefore reads back as the payload itself. The region invariant is the scoped rest alone, untouched.
-/
import proofs.«156726_j25744033972455_1_alg».proof.Proof.Data
import Idealize.ShloMosaic.Lib.Tactic
import Idealize.ShloMosaic.Lib.Ring
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

namespace Oblig2

/-! ## What the body leaves, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-! ## What the body finds: every input is fetched at every point, and the fetch of an uncut window fills the whole
    buffer with the array's block -/

theorem before2_0 (c : Dev nD) (t : Fin cfg2.N) (d) : (dat2 V c).before 0 t d = iblk2 V c 0 t := by
  rw [Dat.before_fetched _ _ _ (fetch2_0 t)]; unfold Dat.fetched Dat.blockOf iblk2; dsimp only [dat2]; rfl
theorem before2_1 (c : Dev nD) (t : Fin cfg2.N) (d) : (dat2 V c).before 1 t d = iblk2 V c 1 t := by
  rw [Dat.before_fetched _ _ _ (fetch2_1 t)]; unfold Dat.fetched Dat.blockOf iblk2; dsimp only [dat2]; rfl
theorem before2_2 (c : Dev nD) (t : Fin cfg2.N) (d) : (dat2 V c).before 2 t d = iblk2 V c 2 t := by
  rw [Dat.before_fetched _ _ _ (fetch2_2 t)]; unfold Dat.fetched Dat.blockOf iblk2; dsimp only [dat2]; rfl
theorem before2_3 (c : Dev nD) (t : Fin cfg2.N) (d) : (dat2 V c).before 3 t d = iblk2 V c 3 t := by
  rw [Dat.before_fetched _ _ _ (fetch2_3 t)]; unfold Dat.fetched Dat.blockOf iblk2; dsimp only [dat2]; rfl

/-! ## The body's triple -/

/-- The zero offsets of a whole rank-2 access, as the constant function. -/
theorem zeroOff2 : (![0, 0] : Fin 2 → ℕ) = fun _ => 0 := by
  funext a; fin_cases a <;> rfl

/-- What a view reads after ONE whole-buffer store over any contents is the store's payload. -/
theorem read_store_whole {sig' : RefSig} {κ : Kind} {sp : Space} (v : View sig' κ sp S512x1024 .f32) (f : v.ty.Contents (Elt F))
    (inb : ∀ a, (![0, 0] : Fin 2 → ℕ) a + S512x1024.size a ≤ S512x1024.size a) (w : S512x1024.Idx → Elt F .f32) :
    v.read (Elt F) (v.writes (Elt F) f [⟨Rect.unit (s := S512x1024) ![0, 0] S512x1024.size inb, w⟩]) = w := by
  have hcov : ∀ y, ∃ p ∈ ([⟨Rect.unit (s := S512x1024) ![0, 0] S512x1024.size inb, w⟩] : List (View.Piece (Elt F) S512x1024 .f32)), y ∈ p.1.set :=
    fun y => ⟨_, List.mem_singleton_self _, View.mem_set_unit_zero (S := S512x1024) zeroOff2 inb y⟩
  rw [View.read_writes_eq_canon v f _ hcov, View.canon_unit_zero (S := S512x1024) zeroOff2 inb w]

/-- A whole-buffer load reads the contents. -/
theorem readAt_whole_buf {sig' : RefSig} {κ : Kind} {sp : Space} (v : View sig' κ sp S512x1024 .f32) (f : v.ty.Contents (Elt F))
    (inb : ∀ a, (![0, 0] : Fin 2 → ℕ) a + S512x1024.size a ≤ S512x1024.size a) :
    View.readAt (Elt F) v (Rect.unit (s := S512x1024) ![0, 0] S512x1024.size inb).toLoadRect f = v.read (Elt F) f := by
  rw [View.readAt_eq_ld, View.ld_unit_zero (S := S512x1024) zeroOff2 inb]

set_option maxHeartbeats 1000000 in
/-- The kernel body on whole staging memrefs, the four inputs' at read contents x0 … x3 and the output's at anything,
    runs to the continuation holding the inputs' as they were and the output's at the payload of the four: a whole-buffer
    load reads the contents, and one whole-buffer store leaves its payload. -/
theorem sound_kernel2 (c : Dev nD) (E : Set ℕ) (i : grid2.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .f32) (harg5 : arg5.IsWhole)
    (arg6 : Memref sig .tc .vmem S512x1024 .f32) (harg6 : arg6.IsWhole)
    (x0 x1 x2 x3 : Vec F S512x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__combine_kernel i arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_store_whole, readAt_whole_buf, readAt_whole_buf, readAt_whole_buf, readAt_whole_buf]

/-! ## The body obligation, at a generic point -/

/-- What the body is called with at point t: the invariant, the core's debts, and each window's current staging
    buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the kernel's triple applies at the four blocks; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Oblig2

/-- The body at every point of the grid, against the proof data. -/
theorem body_obligation2 (c : Dev nD) : BodyObligation (dat2 (F := F) V c) (defs₀ (F := F)) Variants.none () Set.univ := fun t => by
  rw [bigSep_W2, bigSep_W2]
  exact Oblig2.sound_body2 V c t

/-- The invariant before the first point is the scoped rest as the region hands it over. -/
theorem Phi2_in (c : Dev nD) : (Pipeline.scopedRest spec2 c : sProp 𝕄) ⊢ (dat2 V c).Φ 0 := by
  dsimp only [dat2]; exact .rfl

/-- The invariant after the last point gives the scoped rest back. -/
theorem Phi2_out (c : Dev nD) : (dat2 V c).Φ (Fin.last cfg2.N) ⊢ (Pipeline.scopedRest spec2 c : sProp 𝕄) := by
  dsimp only [dat2]; exact .rfl

end Cert.KernelIdeal.Hand

end
-- ==== Proof.Regs.lean ====
/-
  The three regions of @main as segments over the thread states of Bound.lean: region K is entered
  from every unscoped buffer at W(K+1) beside R, and left at W(K+2) beside R. Region 0's two input windows read ONE array,
  which enters the pipeline as two half shares and is joined again at the exit.

  In each region the core's `owes` goes through the pipeline's tallies (nothing is owed at any point, so it comes back
  as it went in), while the generator register and every unscoped buffer that is no window's array bypass the region;
  the invariant takes only the scoped buffers no window stages.
-/
import proofs.«156726_j25744033972455_1_alg».proof.Proof.Bound
import proofs.«156726_j25744033972455_1_alg».proof.Proof.Oblig0
import proofs.«156726_j25744033972455_1_alg».proof.Proof.Oblig1
import proofs.«156726_j25744033972455_1_alg».proof.Proof.Oblig2
import Idealize.ShloMosaic.Lib.Pipeline.RegionsLoop
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

namespace Regs

/-- The two distinct buffers behind region 0's three windows. -/
theorem image0 : Finset.univ.image (Pipeline.arrRef spec0) = {main_v18, main_v35} := by decide

/-- A core's unscoped buffers are the two buffers behind region 0's windows and the rest. -/
theorem split0 (c : Dev nD) (V : (b : Ref sig .tc) → Buf (Elt F) ((c : Thread nD τ).loc b)) :
    (unscopedBufs c V : sProp 𝕄)
      = iprop(((((c : Thread nD τ).loc main_v18) ↦{fullShare} V main_v18) ∗ (((c : Thread nD τ).loc main_v35) ↦{fullShare} V main_v35))
          ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]; unfold Pipeline.arrBufs
  rw [image0, bigSep_insert (by decide), bigSep_singleton]
  rfl

/-- Region 0's arrays, window by window: the shared input array at its two half shares, the output whole. -/
theorem arrays0_eq (c : Dev nD) (G : (w : Fin cfg0.W) → Buf (Elt F) ((cfg0.win w).arr.view.loc (c : Thread nD τ))) :
    ((dat0 (Vv1 m) c).arrays G : sProp 𝕄)
      = iprop((((c : Thread nD τ).loc main_v18) ↦{(fullShare : PosShare TreeShare).left} G 0)
          ∗ (((c : Thread nD τ).loc main_v18) ↦{(fullShare : PosShare TreeShare).right} G 1)
          ∗ (((c : Thread nD τ).loc main_v35) ↦{fullShare} G 2)) := by
  unfold Dat.arrays
  rw [bigSep_W0, (arr_whole0 0).set_eq_univ, (arr_whole0 2).set_eq_univ]
  rfl

/-- ENTRY: the shared array's buffer is dealt to the two input windows by halves. -/
theorem entry0 (c : Dev nD) :
    (unscopedBufs c (Vv1 m c) : sProp 𝕄)
      ⊢ iprop((pdats m 0 c).arrays ((pdats m 0 c).arrAt · 0) ∗ Pipeline.unscopedRest spec0 c (Vv1 m c)) := by
  show _ ⊢ iprop((dat0 (Vv1 m) c).arrays ((dat0 (Vv1 m) c).arrAt · 0) ∗ _)
  rw [split0, arrays0_eq]
  refine BIBase.Entails.trans (sep_mono (sep_mono (pointsTo_share (PosShare.mem_left_op_right fullShare)).1 .rfl) .rfl) ?_
  iintro ⟨⟨⟨H0, H1⟩, H2⟩, Hr⟩
  isplitl [H0 H1 H2]
  · isplitl [H0]; · iexact H0
    isplitl [H1]; · iexact H1
    iexact H2
  iexact Hr

/-- EXIT: the two halves, still at the entry contents (an input array is never written), join again; the output
    array holds what the write-backs left, which is the next valuation there; no other buffer has changed. -/
theorem exit0 (c : Dev nD) :
    iprop((pdats m 0 c).arrays ((pdats m 0 c).arrAt · (Pipeline.pin (pcfgs (F := F)) Gen.adm 0).N) ∗ Pipeline.unscopedRest spec0 c (Vv1 m c))
      ⊢ (unscopedBufs c (Vv2 m c) : sProp 𝕄) := by
  show iprop((dat0 (Vv1 m) c).arrays ((dat0 (Vv1 m) c).arrAt · cfg0.N) ∗ _) ⊢ _
  have h18 : Vv2 m c main_v18 = Vv1 m c main_v18 :=
    show Function.update (W1 m c) (Proc.devRef .tc main_v35) (X35 m c) (Proc.devRef .tc main_v18) = W1 m c (Proc.devRef .tc main_v18) from Function.update_of_ne (StableHlo.devRef_ne_of_ne (by decide) : (Proc.devRef .tc main_v18 : DevRef τ sig) ≠ Proc.devRef .tc main_v35) _ _
  have h35 : Vv2 m c main_v35 = X35 m c :=
    show Function.update (W1 m c) (Proc.devRef .tc main_v35) (X35 m c) (Proc.devRef .tc main_v35) = X35 m c from Function.update_self _ _ _
  have hrest : (Pipeline.unscopedRest spec0 c (Vv2 m c) : sProp 𝕄) = Pipeline.unscopedRest spec0 c (Vv1 m c) := by
    unfold Pipeline.unscopedRest
    exact bigSep_congr fun b hb => by
      rw [show Vv2 m c b = Vv1 m c b from Function.update_of_ne (StableHlo.devRef_ne_of_ne fun e =>
        (Finset.mem_sdiff.mp hb).2 (Finset.mem_image.mpr ⟨2, Finset.mem_univ _, e.symm⟩)) _ _]
  rw [split0, arrays0_eq, hrest, h18, h35, (dat0 (Vv1 m) c).arrAt_in 0 rfl, (dat0 (Vv1 m) c).arrAt_in 1 rfl]
  iintro ⟨⟨H0, H1, H2⟩, Hr⟩
  isplitl [H0 H1 H2]
  · isplitl [H0 H1]
    · iapply (pointsTo_share (PosShare.mem_left_op_right fullShare)).2
      isplitl [H0]; · iexact H0
      iexact H1
    iexact H2
  iexact Hr

end Regs

set_option backward.isDefEq.respectTransparency.types false in
/-- REGION 0 (A · A thresholded into `main_v35`). -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vv1 m) c).loose
  hwaits := Pipeline.hwaits_of_owed_zero _ _ _ _ L lv 0 fun _ _ => rfl
  pre c := T (W1 m) c
  post c := T (W2 m) c
  X c := iprop(emp)
  Y c := iprop(emp)
  Z c := iprop(Pipeline.unscopedRest (Ix := Unit) (Name := ℕ) (U := UR sig nD τ) (Lvl := ℕ) spec0 c (Vv1 m c) ∗ ∃ r, prngReg c r)
  hentry c := by
    rw [Pipeline.ownSems0_none]
    have hsplit := Regs.entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi0_in (Vv1 m) c)
    iintro ⟨-, -, Hr⟩
    iexact Hr
  hout c := by
    rw [Pipeline.ownSems0_none]
    refine BIBase.Entails.trans (Phi0_out (Vv1 m) c) ?_
    iintro H
    isplitr; · iempintro
    isplitr; · iempintro
    iexact H
  hexit c := by
    have hjoin := Regs.exit0 m c
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

namespace Regs

/-- Region 1's arrays after the region: the inputs as entered, the output at what the write-backs leave, which is
    the next valuation at each array. -/
theorem hF1 (c : Dev nD) (w : Fin cfg1.W) : (pdats m 1 c).arrAt w cfg1.N = Vv3 m c (Pipeline.arrRef spec1 w) :=
  match w with
  | ⟨0, _⟩ => ((dat1 (Vv2 m) c).arrAt_in 0 rfl _).trans ((A_eq1 (Vv2 m) c 0).trans
      (Function.update_of_ne (StableHlo.devRef_ne_of_ne (by decide) : (Proc.devRef .tc main_v18 : DevRef τ sig) ≠ Proc.devRef .tc main_v36) _ _).symm)
  | ⟨1, _⟩ => ((dat1 (Vv2 m) c).arrAt_in 1 rfl _).trans ((A_eq1 (Vv2 m) c 1).trans
      (Function.update_of_ne (StableHlo.devRef_ne_of_ne (by decide) : (Proc.devRef .tc main_v35 : DevRef τ sig) ≠ Proc.devRef .tc main_v36) _ _).symm)
  | ⟨2, _⟩ => (Function.update_self (Proc.devRef .tc main_v36 : DevRef τ sig) (X36 m c) (W2 m c)).symm

/-- Region 1 changes no buffer but its output array. -/
theorem hrest1 (c : Dev nD) : ∀ b, b ∉ Finset.univ.image (Pipeline.arrRef spec1) → Vv3 m c b = Vv2 m c b :=
  fun b hb => Function.update_of_ne (StableHlo.devRef_ne_of_ne fun e => hb (Finset.mem_image.mpr ⟨2, Finset.mem_univ _, e.symm⟩)) _ _

end Regs

set_option backward.isDefEq.respectTransparency.types false in
/-- REGION 1 (A · M2 thresholded into `main_v36`). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv2 m) c).loose
  hwaits := Pipeline.hwaits_of_owed_zero _ _ _ _ L lv 1 fun _ _ => rfl
  pre c := T (W2 m) c
  post c := T (W3 m) c
  X c := iprop(emp)
  Y c := iprop(emp)
  Z c := iprop(Pipeline.unscopedRest (Ix := Unit) (Name := ℕ) (U := UR sig nD τ) (Lvl := ℕ) spec1 c (Vv2 m c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vv2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi1_in (Vv2 m) c)
    iintro ⟨-, -, Hr⟩
    iexact Hr
  hout c := by
    rw [Pipeline.ownSems0_none]
    refine BIBase.Entails.trans (Phi1_out (Vv2 m) c) ?_
    iintro H
    isplitr; · iempintro
    isplitr; · iempintro
    iexact H
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vv2 m c) (Vv3 m c) ((pdats m 1 c).arrAt · cfg1.N) (Regs.hF1 m c) (Regs.hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

namespace Regs

/-- The last valuation read at the TensorCore's references. -/
abbrev Vv4 : (c : Dev nD) → (b : Ref sig .tc) → Buf (Elt F) ((c : Thread nD τ).loc b) := fun c b => W4 m c b

/-- Region 2's arrays after the region: the inputs as entered, the output at what the write-backs leave, which is
    the next valuation at each array. -/
theorem hF2 (c : Dev nD) (w : Fin cfg2.W) : (pdats m 2 c).arrAt w cfg2.N = Vv4 m c (Pipeline.arrRef spec2 w) :=
  match w with
  | ⟨0, _⟩ => ((dat2 (Vv3 m) c).arrAt_in 0 rfl _).trans ((A_eq2 (Vv3 m) c 0).trans
      (Function.update_of_ne (StableHlo.devRef_ne_of_ne (by decide) : (Proc.devRef .tc main_v34 : DevRef τ sig) ≠ Proc.devRef .tc main_v37) _ _).symm)
  | ⟨1, _⟩ => ((dat2 (Vv3 m) c).arrAt_in 1 rfl _).trans ((A_eq2 (Vv3 m) c 1).trans
      (Function.update_of_ne (StableHlo.devRef_ne_of_ne (by decide) : (Proc.devRef .tc main_v18 : DevRef τ sig) ≠ Proc.devRef .tc main_v37) _ _).symm)
  | ⟨2, _⟩ => ((dat2 (Vv3 m) c).arrAt_in 2 rfl _).trans ((A_eq2 (Vv3 m) c 2).trans
      (Function.update_of_ne (StableHlo.devRef_ne_of_ne (by decide) : (Proc.devRef .tc main_v35 : DevRef τ sig) ≠ Proc.devRef .tc main_v37) _ _).symm)
  | ⟨3, _⟩ => ((dat2 (Vv3 m) c).arrAt_in 3 rfl _).trans ((A_eq2 (Vv3 m) c 3).trans
      (Function.update_of_ne (StableHlo.devRef_ne_of_ne (by decide) : (Proc.devRef .tc main_v36 : DevRef τ sig) ≠ Proc.devRef .tc main_v37) _ _).symm)
  | ⟨4, _⟩ => (Function.update_self (Proc.devRef .tc main_v37 : DevRef τ sig) (X37 m c) (W3 m c)).symm

/-- Region 2 changes no buffer but its output array. -/
theorem hrest2 (c : Dev nD) : ∀ b, b ∉ Finset.univ.image (Pipeline.arrRef spec2) → Vv4 m c b = Vv3 m c b :=
  fun b hb => Function.update_of_ne (StableHlo.devRef_ne_of_ne fun e => hb (Finset.mem_image.mpr ⟨4, Finset.mem_univ _, e.symm⟩)) _ _

end Regs

set_option backward.isDefEq.respectTransparency.types false in
/-- REGION 2 (the weighted sum into `main_v37`). -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vv3 m) c).loose
  hwaits := Pipeline.hwaits_of_owed_zero _ _ _ _ L lv 2 fun _ _ => rfl
  pre c := T (W3 m) c
  post c := T (W4 m) c
  X c := iprop(emp)
  Y c := iprop(emp)
  Z c := iprop(Pipeline.unscopedRest (Ix := Unit) (Name := ℕ) (U := UR sig nD τ) (Lvl := ℕ) spec2 c (Vv3 m c) ∗ ∃ r, prngReg c r)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi2_in (Vv3 m) c)
    iintro ⟨-, -, Hr⟩
    iexact Hr
  hout c := by
    rw [Pipeline.ownSems0_none]
    refine BIBase.Entails.trans (Phi2_out (Vv3 m) c) ?_
    iintro H
    isplitr; · iempintro
    isplitr; · iempintro
    iexact H
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vv3 m c) (Regs.Vv4 m c) ((pdats m 2 c).arrAt · cfg2.N) (Regs.hF2 m c) (Regs.hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Run.lean ====
/-
  The run of the kernel program: every weakly fair execution of @main terminates, nothing faulting, with
  the result array at X37 (what region 2's write-backs leave) and the three argument arrays as launched.

  @main is one stretch of host operations followed by the three regions. Each item is a segment between two thread
  states: core `c` holds every unscoped buffer whole at the boundary's contents (W0 at launch, W1 after the host
  stretch, then W2, W3, W4 after the regions) beside its generator register and its dues, at nothing. The segments
  chain because each is left at the very state the next is entered from; the launch makes the first state, and the last
  one, read against a final memory, says that memory holds W4 at every unscoped buffer. W4 is X37 at the result array,
  and at an argument array it is the launch contents: no region changes an argument, no host operation writes one.
-/
import proofs.«156726_j25744033972455_1_alg».proof.Proof.Regs
import Idealize.ShloMosaic.Lib.Pipeline.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The host stretch as a segment -/

/-- A line of host operations over the unscoped buffers from the contents `W`, `R` riding along: it is left with those
    buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the dues: every unscoped buffer at W4, the generator register at some state. -/
abbrev Tₙ (c : Dev nD) : sProp 𝕄 :=
  iprop(StableHlo.held (c : Thread nD τ) (Pipeline.ucRefs τ sig) (W4 m c) ∗ ∃ r, prngReg c r)

/-! ## @main as segments -/

/-- @main's four segments in order: the host stretch from the launch contents, then the three regions. -/
abbrev segs : List (Pipeline.Seg (pcfgs (F := F)) Gen.adm (pdats m) () defs₀ 𝒱₀ L lv) :=
  [ .host (hseg hostOps0 hostOps0_sub hostOps0_fresh (W0 m)),
    .region (reg0 m),
    .region (reg1 m),
    .region (reg2 m) ]

/-- @main is the run of the segments: it is the chain of its items, and the segments' run is the same chain. -/
theorem main_run (c : Dev nD) : main (F := F) c = Pipeline.Seg.run (Run.segs m) := (main_chain c).trans (by chain_rfl)

/-! ## The last contents, read at the result and at the arguments -/

/-- W4 at the result array is X37: the last update is at that very reference. -/
theorem W4_v37 (c : Dev nD) : W4 m c main_v37 = X37 m c := by
  unfold W4; exact Function.update_self _ _ _

/-- W4 away from the three arrays the regions change is W1: each update is at another reference. -/
theorem W4_of (c : Dev nD) (r : Ref sig .tc) (h35 : r ≠ main_v35) (h36 : r ≠ main_v36) (h37 : r ≠ main_v37) :
    W4 m c r = W1 m c r := by
  unfold W4 W3 W2
  rw [Function.update_of_ne (StableHlo.devRef_ne_of_ne h37 : (Proc.devRef .tc r : DevRef τ sig) ≠ Proc.devRef .tc main_v37),
    Function.update_of_ne (StableHlo.devRef_ne_of_ne h36 : (Proc.devRef .tc r : DevRef τ sig) ≠ Proc.devRef .tc main_v36),
    Function.update_of_ne (StableHlo.devRef_ne_of_ne h35 : (Proc.devRef .tc r : DevRef τ sig) ≠ Proc.devRef .tc main_v35)]

/-- An argument array reaches the end as launched: no region changes it, no host operation writes it. -/
theorem W4_main_arg0 (c : Dev nD) : W4 m c main_arg0 = m ((c : Thread nD τ).loc main_arg0) :=
  (W4_of m c main_arg0 (by decide) (by decide) (by decide)).trans ((Gen.V1_of m c main_arg0 (by decide)).trans rfl)
theorem W4_main_arg1 (c : Dev nD) : W4 m c main_arg1 = m ((c : Thread nD τ).loc main_arg1) :=
  (W4_of m c main_arg1 (by decide) (by decide) (by decide)).trans ((Gen.V1_of m c main_arg1 (by decide)).trans rfl)
theorem W4_main_arg2 (c : Dev nD) : W4 m c main_arg2 = m ((c : Thread nD τ).loc main_arg2) :=
  (W4_of m c main_arg2 (by decide) (by decide) (by decide)).trans ((Gen.V1_of m c main_arg2 (by decide)).trans rfl)

end Run

open Run in
set_option backward.isDefEq.respectTransparency.types false in
theorem run : θ_run defs (onTc (τ := τ) (main (F := F))) ⟨m, fun _ => 0, ρ⟩ (fun r => ∀ c : Dev nD,
      r.2.mem ((c.tc : Thread nD τ).loc main_v37) = X37 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) Gen.adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core gets a ghost resource beside it
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    -- each segment is left at the state the next is entered from; the last regroups the dues off the rest
    (hch := ⟨fun _ => .rfl, fun _ => .rfl, fun _ => .rfl, fun _ => .rfl, fun _ => sep_assoc'⟩)
    -- the launch deals the unscoped buffers at the launch memory, the register and the dues at nothing
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    -- holding a buffer at contents beside the state interpretation says the memory holds those contents
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v37 (by decide))).trans (W4_v37 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Hand

end
-- ==== Proof.KernelBits.Data.lean ====
/-
  The proof data of the three pipelines of the idealized kernel program, at a PARAMETER `V`: the contents of the
  TensorCore's buffers when a region is entered.

  Regions 0 and 1 run one kernel on a 4 × 4 × 4 grid (row block i, column block j, contraction block k, k fastest):
  at k = 0 the scratch accumulator is reset to zero, at every k the product of the two input blocks is added to it,
  and at k = 3 the accumulator, thresholded, is stored into the output block, which the pipeline writes back there.
  So the scratch after point n holds the partial sum of the block products of the points n - n % 4 … n
  (`accAt0`, `accAt1`), it is carried from point to point in the region invariant (`Phi0`, `Phi1`), and the output
  window is idle at k < 3. Region 2 is pointwise: its output block is one payload of its four input blocks.
-/
import proofs.«156726_j25744033972455_1_alg».proof.Proof.Gen.Kernel.Launch
import proofs.«156726_j25744033972455_1_alg».proof.Proof.Gen.Kernel.Skeleton
import proofs.«156726_j25744033972455_1_alg».proof.Proof.Gen.Kernel.Points
import Idealize.ShloMosaic.Lib.Pipeline.FrameBody
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: A · A, thresholded -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch accumulator after point `n`: at a point with k = 0 the product of the two blocks added to zero,
    else added to what the point before left. -/
def accAt0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 4 = 0 then k0_pay2 (k0_pay1 (F := F)) (iblk0 V c 0 ⟨n + 1, hn⟩) (iblk0 V c 1 ⟨n + 1, hn⟩)
    else k0_pay2 (accAt0 c n (Nat.lt_of_succ_lt hn)) (iblk0 V c 0 ⟨n + 1, hn⟩) (iblk0 V c 1 ⟨n + 1, hn⟩)

/-- The region invariant before point `n`: before the first point the core's scoped buffers that are no staging
    buffer of this pipeline, each at anything; afterwards the accumulator at what the point before left in it, and
    the others unopened. -/
def Phi0 (c : Dev nD) : (n : ℕ) → n ≤ cfg0.N → sProp 𝕄
  | 0, _ => Pipeline.scopedRest spec0 c
  | n + 1, hn => iprop(owns (c : Thread nD τ) (Memref.whole cc0_scratch0) fullShare (accAt0 V c n hn)
      ∗ Pipeline.scopedRestBut spec0 c [cc0_scratch0])

/-- The proof data of pipeline 0: the arrays as the region finds them; the inputs' buffers at their blocks; the
    output's at the thresholded accumulator (consulted only where k = 3: elsewhere the window is idle); the two input
    windows read ONE array, each holding half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := Phi0 V c t.val (Nat.le_of_lt_succ t.isLt)
  q w := match w with
    | ⟨0, _⟩ => (fullShare : PosShare TreeShare).left
    | ⟨1, _⟩ => (fullShare : PosShare TreeShare).right
    | ⟨2, _⟩ => fullShare
  owed _ := 0

/-! ## Region 1: A · M2, thresholded -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S1024x1024 .f32
  | 0, hn => k1_pay2 (k1_pay1 (F := F)) (iblk1 V c 0 ⟨0, hn⟩) (iblk1 V c 1 ⟨0, hn⟩)
  | n + 1, hn =>
    if (n + 1) % 4 = 0 then k1_pay2 (k1_pay1 (F := F)) (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

def Phi1 (c : Dev nD) : (n : ℕ) → n ≤ cfg1.N → sProp 𝕄
  | 0, _ => Pipeline.scopedRest spec1 c
  | n + 1, hn => iprop(owns (c : Thread nD τ) (Memref.whole cc1_scratch0) fullShare (accAt1 V c n hn)
      ∗ Pipeline.scopedRestBut spec1 c [cc1_scratch0])

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := Phi1 V c t.val (Nat.le_of_lt_succ t.isLt)
  q _ := fullShare
  owed _ := 0

/-! ## Region 2: the weighted sum of the four matrices -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.scopedRest spec2 c
  q _ := fullShare
  owed _ := 0

end Cert.Kernel.Hand

end
-- ==== Proof.KernelBits.Bound.lean ====
/-
  The contents of the TensorCore's unscoped buffers between the items of @main, and the family of proof data.

  @main is one stretch of host operations (the two scattered matrices A = `main_v18` and P = `main_v34`), then the
  three regions. Region 0 changes `main_v35` only (to M2, what its write-backs leave), region 1 `main_v36` only
  (M3), region 2 `main_v37` only (the result); every other buffer keeps what the host stretch left.
-/
import proofs.«156726_j25744033972455_1_alg».proof.Proof.KernelBits.Data
import proofs.«156726_j25744033972455_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch, and after the host stretch (region 0's entry). -/
abbrev W0 (c : Dev nD) : Valuation τ sig (Elt F) := Gen.V0 m c
abbrev W1 (c : Dev nD) : Valuation τ sig (Elt F) := Gen.V1 m c
/-- The same read at the TensorCore's references: what region 0's proof data take. -/
abbrev Vv1 : (c : Dev nD) → (b : Ref sig .tc) → Buf (Elt F) ((c : Thread nD τ).loc b) := fun c b => W1 m c b

/-- M2: what region 0's write-backs leave in `main_v35`. -/
def X35 (c : Dev nD) : Buf (Elt F) ((c : Thread nD τ).loc main_v35) := (dat0 (Vv1 m) c).arrAt 2 cfg0.N
/-- After region 0 (region 1's entry). -/
def W2 (c : Dev nD) : Valuation τ sig (Elt F) := Function.update (W1 m c) main_v35 (X35 m c)
abbrev Vv2 : (c : Dev nD) → (b : Ref sig .tc) → Buf (Elt F) ((c : Thread nD τ).loc b) := fun c b => W2 m c b

/-- M3: what region 1's write-backs leave in `main_v36`. -/
def X36 (c : Dev nD) : Buf (Elt F) ((c : Thread nD τ).loc main_v36) := (dat1 (Vv2 m) c).arrAt 2 cfg1.N
/-- After region 1 (region 2's entry). -/
def W3 (c : Dev nD) : Valuation τ sig (Elt F) := Function.update (W2 m c) main_v36 (X36 m c)
abbrev Vv3 : (c : Dev nD) → (b : Ref sig .tc) → Buf (Elt F) ((c : Thread nD τ).loc b) := fun c b => W3 m c b

/-- The result: what region 2's write-backs leave in `main_v37`. -/
def X37 (c : Dev nD) : Buf (Elt F) ((c : Thread nD τ).loc main_v37) := (dat2 (Vv3 m) c).arrAt 4 cfg2.N
/-- After region 2 (the end of @main). -/
def W4 (c : Dev nD) : Valuation τ sig (Elt F) := Function.update (W3 m c) main_v37 (X37 m c)

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (Vv1 m) c
  | ⟨1, _⟩ => fun c => dat1 (Vv2 m) c
  | ⟨2, _⟩ => fun c => dat2 (Vv3 m) c

/-- No core owes another anything; no level is assigned. -/
abbrev 𝒱₀ : Variants := Variants.none
abbrev L : GSem nD τ sig → Finset Unit := fun _ => ∅
abbrev lv : GSem nD τ sig → Unit → ℕ := fun _ _ => 0

/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)

/-- The thread state at boundary `W`: every unscoped buffer at `W c`, and `R c`. -/
abbrev T (W : Dev nD → Valuation τ sig (Elt F)) (c : Dev nD) : sProp 𝕄 :=
  iprop(StableHlo.held (c : Thread nD τ) (Pipeline.ucRefs τ sig) (W c) ∗ R c)

end Cert.Kernel.Hand

end
-- ==== Proof.KernelBits.Oblig0.lean ====
/-
  Region 0's body obligation.

  At a point of the 4 × 4 × 4 grid the body finds the two input windows' buffers at their blocks a and b (both are
  fetched at every point), the output window's buffer at what it held, and the accumulator: at anything before the
  first point (it is one of the core's scoped buffers), afterwards at the partial sum the point before left. By the
  contraction coordinate k (the point's number mod 4) the body does one of three things: k = 0, zero + a·b; k = 1 or
  2, acc + a·b; k = 3, acc + a·b and that, thresholded, stored into the output's buffer, which the pipeline writes back
  there and nowhere else (at k < 3 the output window is idle and its buffer is handed back untouched). Each of the
  three is proved once on any four whole buffers at named contents; the point's own buffers and blocks are then put
  in their places.
-/
import proofs.«156726_j25744033972455_1_alg».proof.Proof.KernelBits.Data
import Idealize.ShloMosaic.Lib.Tactic
import Idealize.ShloMosaic.Lib.Ring
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq0 (c : Dev nD) (w : Fin cfg0.W) : (dat0 V c).A w = V c (Pipeline.arrRef spec0 w) := by
  dsimp only [dat0]

namespace Oblig0

/-! ## The body's two conditions, in closed form over the grid -/

/-- The condition of the body's first branch (the reset of the accumulator), from the grid coordinates: the
    contraction coordinate is 0. -/
abbrev cond0_0 (i : grid0.Coords) : Prop :=
  (Scalar.cmpi .ne (Scalar.extui (Scalar.cmpi .eq (BitVec.ofNat 32 (i 2).val) 0#32)) 0#32) = 1#1

/-- It holds at the points ≡ 0 (mod 4): the contraction coordinate is the fastest. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the second branch (the store of the thresholded accumulator: the contraction coordinate is 3)
    holds at the points ≡ 3 (mod 4). -/
theorem hcond0_1 : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## The body on any four whole buffers, one statement per control case

Every load and every store of the body is through the rectangle that is the whole 1024 × 1024 buffer at zero offsets:
a load through it reads the contents, a store through it, made last, leaves its payload whatever was stored before. -/

theorem hzero : (![0, 0] : Fin 2 → Nat) = fun _ => 0 := funext fun a => by fin_cases a <;> rfl

/-- The whole-buffer rectangle. -/
abbrev r0 : Rect S1024x1024 := Rect.unit (s := S1024x1024) ![0, 0] S1024x1024.size inb_S1024x1024_S1024x1024_0_0

/-- A list of stores whose last is through the whole-buffer rectangle covers the buffer. -/
theorem cover_cons (p : r0.shape.Idx → Elt F .f32) (L : List (View.Piece (Elt F) S1024x1024 .f32)) (y : S1024x1024.Idx) :
    ∃ pc ∈ ((⟨r0, p⟩ : View.Piece (Elt F) S1024x1024 .f32) :: L), y ∈ pc.1.set :=
  ⟨_, List.mem_cons_self, View.mem_set_unit_zero hzero inb_S1024x1024_S1024x1024_0_0 y⟩

set_option maxHeartbeats 1000000 in
/-- CONTRACTION COORDINATE 0. The input buffers hold `a` and `b`, the output's buffer `d`, the accumulator anything: the
    body stores zero into the accumulator, reads it back, and stores zero + a·b; the inputs and the output's buffer
    are handed back as they were. -/
theorem kern0_first (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond0_0 i) (hc1 : ¬ k0_cond2 i = 1#1)
    (a b d : Vec F S1024x1024 .f32) (K : PUnit → sProp 𝕄) :
    iprop(owns (c : Thread nD τ) arg3 fullShare a ∗ owns (c : Thread nD τ) arg4 fullShare b ∗ owns (c : Thread nD τ) arg5 fullShare d
        ∗ (∃ s, owns (c : Thread nD τ) arg6 fullShare s)
        ∗ (iprop(owns (c : Thread nD τ) arg3 fullShare a ∗ owns (c : Thread nD τ) arg4 fullShare b ∗ owns (c : Thread nD τ) arg5 fullShare d
            ∗ owns (c : Thread nD τ) arg6 fullShare (k0_pay2 (k0_pay1 (F := F)) a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%f5, %hf5, H5⟩, ⟨%s6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  sl_unfold_words
  rw [View.canon_cons_unit_zero (S := S1024x1024) hzero]
  simp only [View.readAt_eq_ld, harg3.read_unread, harg4.read_unread, View.ld_unit_zero (S := S1024x1024) hzero,
    View.readCov_unit_zero (S := S1024x1024) _ hzero]

set_option maxHeartbeats 1000000 in
/-- CONTRACTION COORDINATE 1 OR 2. The accumulator holds `acc`: the body stores acc + a·b into it; the inputs and
    the output's buffer are handed back as they were. -/
theorem kern0_mid (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond0_0 i) (hc1 : ¬ k0_cond2 i = 1#1)
    (acc a b d : Vec F S1024x1024 .f32) (K : PUnit → sProp 𝕄) :
    iprop(owns (c : Thread nD τ) arg3 fullShare a ∗ owns (c : Thread nD τ) arg4 fullShare b ∗ owns (c : Thread nD τ) arg5 fullShare d
        ∗ owns (c : Thread nD τ) arg6 fullShare acc
        ∗ (iprop(owns (c : Thread nD τ) arg3 fullShare a ∗ owns (c : Thread nD τ) arg4 fullShare b ∗ owns (c : Thread nD τ) arg5 fullShare d
            ∗ owns (c : Thread nD τ) arg6 fullShare (k0_pay2 acc a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

set_option maxHeartbeats 1000000 in
/-- CONTRACTION COORDINATE 3. The accumulator holds `acc`, the output's buffer anything: the body stores acc + a·b
    into the accumulator, reads it back, and stores it thresholded into the output's buffer. -/
theorem kern0_last (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond0_0 i) (hc1 : k0_cond2 i = 1#1)
    (acc a b : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare acc
        ∗ (iprop(owns (c : Thread nD τ) arg3 fullShare a ∗ owns (c : Thread nD τ) arg4 fullShare b ∗ owns (c : Thread nD τ) arg5 fullShare (k0_pay3 (k0_pay2 acc a b))
            ∗ owns (c : Thread nD τ) arg6 fullShare (k0_pay2 acc a b)) -∗ K ⟨⟩))
      ⊢ wp frame (wpE (defs₀ (F := F)) Variants.none c none) E (cc0__matmul_thresh_kernel i arg3 harg3 arg4 harg4 arg5 harg5 arg6 harg6) K := by
  simp only [cc0__matmul_thresh_kernel_eq_skeleton]; unfold cc0__matmul_thresh_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_cons _ _)]
    sl_unfold_words
    rw [View.canon_cons_unit_zero (S := S1024x1024) hzero]
    simp only [View.readAt_eq_ld, harg3.read_unread, harg4.read_unread, harg6.read_unread, View.ld_unit_zero (S := S1024x1024) hzero,
      View.readCov_unit_zero (S := S1024x1024) _ hzero]
  iexists _; isplitr
  swap; · iexact H6
  ipureintro
  sl_unfold_words
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

/-! ## Where the windows are live and where the output is idle -/

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- The output window is idle exactly where the body does not store into it: off the contraction coordinate 3. -/
theorem idleAt0_2 : ∀ t : Fin cfg0.N, ¬ k0_cond2 (grid0.coords t) = 1#1 → cfg0.idle 2 (grid0.coords t) = true := by decide +kernel
theorem liveAt0_2 : ∀ t : Fin cfg0.N, k0_cond2 (grid0.coords t) = 1#1 → cfg0.idle 2 (grid0.coords t) = false := by decide +kernel
/-- Off the points ≡ 3 (mod 4) the output's block is not written back. -/
theorem noFlush0_2 (t : Fin cfg0.N) (h : ¬ t.val % 4 = 3) : (cfg0.win 2).flush t = false := by
  cases hf : (cfg0.win 2).flush t with
  | false => rfl
  | true => exact absurd ((flush0_2 t).mp hf) h

/-! ## The accumulator, point by point -/

/-- At a point ≡ 0 (mod 4) the accumulator ends at zero + a·b of the point's blocks. -/
theorem accAt0_first (c : Dev nD) (t : Fin cfg0.N) (h : t.val % 4 = 0) :
    accAt0 V c t.val t.isLt = k0_pay2 (k0_pay1 (F := F)) (iblk0 V c 0 t) (iblk0 V c 1 t) := by
  obtain ⟨n, hn⟩ := t
  cases n with
  | zero => rfl
  | succ n => exact if_pos h

/-- At any other point it ends at what the point before left, + a·b of the point's blocks. -/
theorem accAt0_next (c : Dev nD) (t : Fin cfg0.N) (h : ¬ t.val % 4 = 0) :
    accAt0 V c t.val t.isLt
      = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact if_neg h

/-! ## The invariant, point by point -/

/-- Before the first point: the scoped rest. -/
theorem Phi0_zero (c : Dev nD) (n : ℕ) (h : n ≤ cfg0.N) (hz : n = 0) : Phi0 V c n h = Pipeline.scopedRest spec0 c := by
  subst hz; rfl

/-- After point `n`: the accumulator at that point's partial sum, beside the other scoped buffers. -/
theorem Phi0_succ (c : Dev nD) (n : ℕ) (hn : n < cfg0.N) :
    Phi0 V c (n + 1) hn = iprop(owns (c : Thread nD τ) (Memref.whole cc0_scratch0) fullShare (accAt0 V c n hn)
      ∗ Pipeline.scopedRestBut spec0 c [cc0_scratch0]) := rfl

/-- Before a point that is not the first: the accumulator at what the point before left. -/
theorem Phi0_pos (c : Dev nD) (n : ℕ) (h : n ≤ cfg0.N) (hz : n ≠ 0) :
    Phi0 V c n h = iprop(owns (c : Thread nD τ) (Memref.whole cc0_scratch0) fullShare (accAt0 V c (n - 1) (by omega))
      ∗ Pipeline.scopedRestBut spec0 c [cc0_scratch0]) := by
  cases n with
  | zero => exact absurd rfl hz
  | succ n => rfl

/-- The scoped rest with the accumulator's buffer split out of it, as a whole memref owned at some contents. -/
theorem scopedRest0_split (c : Dev nD) :
    (Pipeline.scopedRest spec0 c : sProp 𝕄)
      = iprop((∃ s, owns (c : Thread nD τ) (Memref.whole cc0_scratch0) fullShare s) ∗ Pipeline.scopedRestBut spec0 c [cc0_scratch0]) := by
  rw [Pipeline.scopedRest_split_of_list spec0 c [cc0_scratch0] (by decide) (by decide)]
  simp only [bigSepL_singleton, owns_whole]
  rfl

/-- The invariant at a point's start, restated at the point's number. -/
theorem Phi0_castSucc (c : Dev nD) (t : Fin cfg0.N) :
    (dat0 V c).Φ t.castSucc = Phi0 V c t.val (Nat.le_of_lt t.isLt) := by
  dsimp only [dat0]; simp only [Fin.coe_castSucc]

/-! ## The proof data, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

/-- Each input window is fetched at every point, so its current buffer holds its block there. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- What the obligation asks of each window's buffer after the body: the inputs' at their blocks; the output's, at
    a point that stores into it, at the thresholded accumulator. -/
theorem leaves0_0 (c : Dev nD) (t : Fin cfg0.N) :
    (dat0 V c).leavesExact 0 t = owns (c : Thread nD τ) (st0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (st0_1 t) fullShare (iblk0 V c 1 t) := by
  unfold Dat.leavesExact; rw [liveAt0_1 t, after0_1]
theorem leaves0_2_live (c : Dev nD) (t : Fin cfg0.N) (h : k0_cond2 (grid0.coords t) = 1#1) :
    (dat0 V c).leavesExact 2 t = owns (c : Thread nD τ) (st0_2 t) fullShare (k0_pay3 (accAt0 V c t.val t.isLt)) := by
  unfold Dat.leavesExact; rw [liveAt0_2 t h, after0_2]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks; the point's number mod 4 says which of the three
    cases it is in; the invariant hands over the accumulator (at anything at the first point, else at what the point
    before left) and takes it back at this point's partial sum; at a point that does not store into the output's
    buffer that buffer comes back as it was found, at the others it comes back at the thresholded accumulator; what
    the core owes and the other scoped buffers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [leaves0_0, leaves0_1, Phi0_castSucc]
  have hN : t.val < 64 := lt_of_lt_of_eq t.isLt (show cfg0.N = 64 from N_0)
  by_cases h0 : t.val % 4 = 0
  · -- the first contraction block: the accumulator is reset, then takes the product
    have h1 : ¬ t.val % 4 = 3 := by omega
    have hc1 : ¬ k0_cond2 (grid0.coords t) = 1#1 := fun h => h1 ((hcond0_1 t).mp h)
    rw [Dat.leavesExact_idle (dat0 V c) 2 t (idleAt0_2 t hc1) (noFlush0_2 t h1)]
    rw [accAt0_first V c t h0]
    by_cases hz : t.val = 0
    · rw [Phi0_zero V c _ _ hz, scopedRest0_split]
      iintro ⟨⟨⟨%s, HS⟩, HR⟩, Ho, ⟨%d0, H0⟩, ⟨%d1, H1⟩, ⟨%d2, H2⟩⟩
      iapply (kern0_first c Set.univ (grid0.coords t) _ _ _ _ _ _ _ _ ((hcond0_0 t).mpr h0) hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [Phi0_pos V c _ _ hz]
      iintro ⟨⟨HS, HR⟩, Ho, ⟨%d0, H0⟩, ⟨%d1, H1⟩, ⟨%d2, H2⟩⟩
      iapply (kern0_first c Set.univ (grid0.coords t) _ _ _ _ _ _ _ _ ((hcond0_0 t).mpr h0) hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    have hc0 : ¬ cond0_0 (grid0.coords t) := fun h => h0 ((hcond0_0 t).mp h)
    rw [accAt0_next V c t h0, Phi0_pos V c _ _ hz]
    by_cases h1 : t.val % 4 = 3
    · -- the last contraction block: the accumulator takes the product and is stored, thresholded
      have hc1 : k0_cond2 (grid0.coords t) = 1#1 := (hcond0_1 t).mpr h1
      rw [leaves0_2_live V c t hc1, accAt0_next V c t h0]
      iintro ⟨⟨HS, HR⟩, Ho, ⟨%d0, H0⟩, ⟨%d1, H1⟩, ⟨%d2, H2⟩⟩
      iapply (kern0_last c Set.univ (grid0.coords t) _ _ _ _ _ _ _ _ hc0 hc1 _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- a middle contraction block: the accumulator takes the product
      have hc1 : ¬ k0_cond2 (grid0.coords t) = 1#1 := fun h => h1 ((hcond0_1 t).mp h)
      rw [Dat.leavesExact_idle (dat0 V c) 2 t (idleAt0_2 t hc1) (noFlush0_2 t h1)]
      iintro ⟨⟨HS, HR⟩, Ho, ⟨%d0, H0⟩, ⟨%d1, H1⟩, ⟨%d2, H2⟩⟩
      iapply (kern0_mid c Set.univ (grid0.coords t) _ _ _ _ _ _ _ _ hc0 hc1 _ (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

end Oblig0

open Oblig0

/-- The body at every point of the grid, against the proof data. -/
theorem body_obligation0 (c : Dev nD) : BodyObligation (dat0 (F := F) V c) (defs₀ (F := F)) Variants.none () Set.univ := by
  intro t
  rw [bigSep_W0, bigSep_W0]
  exact sound_body0 V c t

/-- The invariant before the first point is the scoped rest as the region hands it over. -/
theorem Phi0_in (c : Dev nD) : (Pipeline.scopedRest spec0 c : sProp 𝕄) ⊢ (dat0 V c).Φ 0 := by
  rw [show (dat0 V c).Φ 0 = Phi0 V c 0 (Nat.zero_le _) from rfl, Phi0_zero V c 0 _ rfl]
  try exact Idealize.SL.BI.Entails.refl _

/-- The invariant after the last point gives the scoped rest back. -/
theorem Phi0_out (c : Dev nD) : (dat0 V c).Φ (Fin.last cfg0.N) ⊢ (Pipeline.scopedRest spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), scopedRest0_split]
  iintro ⟨HS, HR⟩
  isplitl [HS]
  · iexists _; iexact HS
  iexact HR

end Cert.Kernel.Hand

end
-- ==== Proof.KernelBits.Oblig1.lean ====
/-
  Region 1's body obligation.

  At a point of the 4 × 4 × 4 grid the body finds the two input windows' buffers at their blocks a and b (both are
  fetched at every point), the output window's buffer at what it held, and the accumulator: at anything before the
  first point (it is one of the core's scoped buffers), afterwards at the partial sum the point before left. By the
  contraction coordinate k (the point's number mod 4) the body does one of three things: k = 0, zero + a·b; k = 1 or
  2, acc + a·b; k = 3, acc + a·b and that, thresholded, stored into the output's buffer, which the pipeline writes back
  there and nowhere else (at k < 3 the output window is idle and its buffer is handed back untouched). Each of the
  three is proved once on any four whole buffers at named contents; the point's own buffers and blocks are then put
  in their places.
-/
import proofs.«156726_j25744033972455_1_alg».proof.Proof.KernelBits.Data
import Idealize.ShloMosaic.Lib.Tactic
import Idealize.ShloMosaic.Lib.Ring
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq1 (c : Dev nD) (w : Fin cfg1.W) : (dat1 V c).A w = V c (Pipeline.arrRef spec1 w) := by
  dsimp only [dat1]

namespace Oblig1

/-! ## The body's two conditions, in closed form over the grid -/

/-- The condition of the body's first branch (the reset of the accumulator), from the grid coordinates: the
    contraction coordinate is 0. -/
abbrev cond1_0 (i : grid1.Coords) : Prop :=
  (Scalar.cmpi .ne (Scalar.extui (Scalar.cmpi .eq (BitVec.ofNat 32 (i 2).val) 0#32)) 0#32) = 1#1

/-- It holds at the points ≡ 0 (mod 4): the contraction coordinate is the fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second branch (the store of the thresholded accumulator: the contraction coordinate is 3)
    holds at the points ≡ 3 (mod 4). -/
theorem hcond1_1 : ∀ t : Fin cfg1.N, k1_cond2 (grid1.coords t) = 1#1 ↔ t.val % 4 = 3 :=
  (by decide +kernel : ∀ t : Fin grid1.N, k1_cond2 (grid1.coords t) = 1#1 ↔ t.val % 4 = 3)

/-! ## The body on any four whole buffers, one statement per control case

Every load and every store of the body is through the rectangle that is the whole 1024 × 1024 buffer at zero offsets:
a load through it reads the contents, a store through it, made last, leaves its payload whatever was stored before. -/

theorem hzero : (![0, 0] : Fin 2 → Nat) = fun _ => 0 := funext fun a => by fin_cases a <;> rfl

/-- The whole-buffer rectangle. -/
abbrev r0 : Rect S1024x1024 := Rect.unit (s := S1024x1024) ![0, 0] S1024x1024.size inb_S1024x1024_S1024x1024_0_0

/-- A list of stores whose last is through the whole-buffer rectangle covers the buffer. -/
theorem cover_cons (p : r0.shape.Idx → Elt F .f32) (L : List (View.Piece (Elt F) S1024x1024 .f32)) (y : S1024x1024.Idx) :
    ∃ pc ∈ ((⟨r0, p⟩ : View.Piece (Elt F) S1024x1024 .f32) :: L), y ∈ pc.1.set :=
  ⟨_, List.mem_cons_self, View.mem_set_unit_zero hzero inb_S1024x1024_S1024x1024_0_0 y⟩

set_option maxHeartbeats 1000000 in
/-- CONTRACTION COORDINATE 0. The input buffers hold `a` and `b`, the output's buffer `d`, the accumulator anything: the
    body stores zero into the accumulator, reads it back, and stores zero + a·b; the inputs and the output's buffer
    are handed back as they were. -/
theorem kern0_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond1_0 i) (hc1 : ¬ k1_cond2 i = 1#1)
    (a b d : Vec F S1024x1024 .f32) (K : PUnit → sProp 𝕄) :
    iprop(owns (c : Thread nD τ) arg3 fullShare a ∗ owns (c : Thread nD τ) arg4 fullShare b ∗ owns (c : Thread nD τ) arg5 fullShare d
        ∗ (∃ s, owns (c : Thread nD τ) arg6 fullShare s)
        ∗ (iprop(owns (c : Thread nD τ) arg3 fullShare a ∗ owns (c : Thread nD τ) arg4 fullShare b ∗ owns (c : Thread nD τ) arg5 fullShare d
            ∗ owns (c : Thread nD τ) arg6 fullShare (k1_pay2 (k1_pay1 (F := F)) a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%f5, %hf5, H5⟩, ⟨%s6, %f6, -, H6⟩, Hk⟩
  obtain rfl := harg3.eq_unread hf3; obtain rfl := harg4.eq_unread hf4
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  sl_unfold_words
  rw [View.canon_cons_unit_zero (S := S1024x1024) hzero]
  simp only [View.readAt_eq_ld, harg3.read_unread, harg4.read_unread, View.ld_unit_zero (S := S1024x1024) hzero,
    View.readCov_unit_zero (S := S1024x1024) _ hzero]

set_option maxHeartbeats 1000000 in
/-- CONTRACTION COORDINATE 1 OR 2. The accumulator holds `acc`: the body stores acc + a·b into it; the inputs and
    the output's buffer are handed back as they were. -/
theorem kern0_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond1_0 i) (hc1 : ¬ k1_cond2 i = 1#1)
    (acc a b d : Vec F S1024x1024 .f32) (K : PUnit → sProp 𝕄) :
    iprop(owns (c : Thread nD τ) arg3 fullShare a ∗ owns (c : Thread nD τ) arg4 fullShare b ∗ owns (c : Thread nD τ) arg5 fullShare d
        ∗ owns (c : Thread nD τ) arg6 fullShare acc
        ∗ (iprop(owns (c : Thread nD τ) arg3 fullShare a ∗ owns (c : Thread nD τ) arg4 fullShare b ∗ owns (c : Thread nD τ) arg5 fullShare d
            ∗ owns (c : Thread nD τ) arg6 fullShare (k1_pay2 acc a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%f5, %hf5, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hf5
    iexact H5
  iexists _; isplitr
  swap; · iexact H6
  ipureintro
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

set_option maxHeartbeats 1000000 in
/-- CONTRACTION COORDINATE 3. The accumulator holds `acc`, the output's buffer anything: the body stores acc + a·b
    into the accumulator, reads it back, and stores it thresholded into the output's buffer. -/
theorem kern0_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬ cond1_0 i) (hc1 : k1_cond2 i = 1#1)
    (acc a b : Vec F S1024x1024 .f32) (K : PUnit → sProp 𝕄) :
    iprop(owns (c : Thread nD τ) arg3 fullShare a ∗ owns (c : Thread nD τ) arg4 fullShare b ∗ (∃ d, owns (c : Thread nD τ) arg5 fullShare d)
        ∗ owns (c : Thread nD τ) arg6 fullShare acc
        ∗ (iprop(owns (c : Thread nD τ) arg3 fullShare a ∗ owns (c : Thread nD τ) arg4 fullShare b ∗ owns (c : Thread nD τ) arg5 fullShare (k1_pay3 (k1_pay2 acc a b))
            ∗ owns (c : Thread nD τ) arg6 fullShare (k1_pay2 acc a b)) -∗ K ⟨⟩))
      ⊢ wp frame (wpE (defs₀ (F := F)) Variants.none c none) E (cc1__matmul_thresh_kernel i arg3 harg3 arg4 harg4 arg5 harg5 arg6 harg6) K := by
  simp only [cc1__matmul_thresh_kernel_eq_skeleton]; unfold cc1__matmul_thresh_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    rw [View.read_writes_eq_canon _ _ _ (cover_cons _ _)]
    sl_unfold_words
    rw [View.canon_cons_unit_zero (S := S1024x1024) hzero]
    simp only [View.readAt_eq_ld, harg3.read_unread, harg4.read_unread, harg6.read_unread, View.ld_unit_zero (S := S1024x1024) hzero,
      View.readCov_unit_zero (S := S1024x1024) _ hzero]
  iexists _; isplitr
  swap; · iexact H6
  ipureintro
  sl_unfold_words
  rw [View.read_writes_eq_canon _ _ _ (cover_cons _ _)]
  rw [View.canon_cons_unit_zero (S := S1024x1024) hzero]
  simp only [View.readAt_eq_ld, harg3.read_unread, harg4.read_unread, harg6.read_unread, View.ld_unit_zero (S := S1024x1024) hzero]

/-! ## Where the windows are live and where the output is idle -/

/-- The input windows are never idle. -/
theorem liveAt0_0 : ∀ t : Fin cfg1.N, cfg1.idle 0 (grid1.coords t) = false := fun _ => rfl
theorem liveAt0_1 : ∀ t : Fin cfg1.N, cfg1.idle 1 (grid1.coords t) = false := fun _ => rfl
/-- The output window is idle exactly where the body does not store into it: off the contraction coordinate 3. -/
theorem idleAt0_2 : ∀ t : Fin cfg1.N, ¬ k1_cond2 (grid1.coords t) = 1#1 → cfg1.idle 2 (grid1.coords t) = true := by decide +kernel
theorem liveAt0_2 : ∀ t : Fin cfg1.N, k1_cond2 (grid1.coords t) = 1#1 → cfg1.idle 2 (grid1.coords t) = false := by decide +kernel
/-- Off the points ≡ 3 (mod 4) the output's block is not written back. -/
theorem noFlush0_2 (t : Fin cfg1.N) (h : ¬ t.val % 4 = 3) : (cfg1.win 2).flush t = false := by
  cases hf : (cfg1.win 2).flush t with
  | false => rfl
  | true => exact absurd ((flush1_2 t).mp hf) h

/-! ## The accumulator, point by point -/

/-- At a point ≡ 0 (mod 4) the accumulator ends at zero + a·b of the point's blocks. -/
theorem accAt1_first (c : Dev nD) (t : Fin cfg1.N) (h : t.val % 4 = 0) :
    accAt1 V c t.val t.isLt = k1_pay2 (k1_pay1 (F := F)) (iblk1 V c 0 t) (iblk1 V c 1 t) := by
  obtain ⟨n, hn⟩ := t
  cases n with
  | zero => rfl
  | succ n => exact if_pos h

/-- At any other point it ends at what the point before left, + a·b of the point's blocks. -/
theorem accAt1_next (c : Dev nD) (t : Fin cfg1.N) (h : ¬ t.val % 4 = 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The invariant, point by point -/

/-- Before the first point: the scoped rest. -/
theorem Phi1_zero (c : Dev nD) (n : ℕ) (h : n ≤ cfg1.N) (hz : n = 0) : Phi1 V c n h = Pipeline.scopedRest spec1 c := by
  subst hz; rfl

/-- After point `n`: the accumulator at that point's partial sum, beside the other scoped buffers. -/
theorem Phi1_succ (c : Dev nD) (n : ℕ) (hn : n < cfg1.N) :
    Phi1 V c (n + 1) hn = iprop(owns (c : Thread nD τ) (Memref.whole cc1_scratch0) fullShare (accAt1 V c n hn)
      ∗ Pipeline.scopedRestBut spec1 c [cc1_scratch0]) := rfl

/-- Before a point that is not the first: the accumulator at what the point before left. -/
theorem Phi1_pos (c : Dev nD) (n : ℕ) (h : n ≤ cfg1.N) (hz : n ≠ 0) :
    Phi1 V c n h = iprop(owns (c : Thread nD τ) (Memref.whole cc1_scratch0) fullShare (accAt1 V c (n - 1) (by omega))
      ∗ Pipeline.scopedRestBut spec1 c [cc1_scratch0]) := by
  cases n with
  | zero => exact absurd rfl hz
  | succ n => rfl

/-- The scoped rest with the accumulator's buffer split out of it, as a whole memref owned at some contents. -/
theorem scopedRest1_split (c : Dev nD) :
    (Pipeline.scopedRest spec1 c : sProp 𝕄)
      = iprop((∃ s, owns (c : Thread nD τ) (Memref.whole cc1_scratch0) fullShare s) ∗ Pipeline.scopedRestBut spec1 c [cc1_scratch0]) := by
  rw [Pipeline.scopedRest_split_of_list spec1 c [cc1_scratch0] (by decide) (by decide)]
  simp only [bigSepL_singleton, owns_whole]
  rfl

/-- The invariant at a point's start, restated at the point's number. -/
theorem Phi1_castSucc (c : Dev nD) (t : Fin cfg1.N) :
    (dat1 V c).Φ t.castSucc = Phi1 V c t.val (Nat.le_of_lt t.isLt) := by
  dsimp only [dat1]; simp only [Fin.coe_castSucc]

/-! ## The proof data, window by window -/

theorem after0_0 (c : Dev nD) (t : Fin cfg1.N) : (dat1 V c).after 0 t = iblk1 V c 0 t := by dsimp only [dat1]
theorem after0_1 (c : Dev nD) (t : Fin cfg1.N) : (dat1 V c).after 1 t = iblk1 V c 1 t := by dsimp only [dat1]
theorem after0_2 (c : Dev nD) (t : Fin cfg1.N) : (dat1 V c).after 2 t = k1_pay3 (accAt1 V c t.val t.isLt) := by dsimp only [dat1]

/-- Each input window is fetched at every point, so its current buffer holds its block there. -/
theorem before0_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)
theorem before0_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-- What the obligation asks of each window's buffer after the body: the inputs' at their blocks; the output's, at
    a point that stores into it, at the thresholded accumulator. -/
theorem leaves0_0 (c : Dev nD) (t : Fin cfg1.N) :
    (dat1 V c).leavesExact 0 t = owns (c : Thread nD τ) (st1_0 t) fullShare (iblk1 V c 0 t) := by
  unfold Dat.leavesExact; rw [liveAt0_0 t, after0_0]
theorem leaves0_1 (c : Dev nD) (t : Fin cfg1.N) :
    (dat1 V c).leavesExact 1 t = owns (c : Thread nD τ) (st1_1 t) fullShare (iblk1 V c 1 t) := by
  unfold Dat.leavesExact; rw [liveAt0_1 t, after0_1]
theorem leaves0_2_live (c : Dev nD) (t : Fin cfg1.N) (h : k1_cond2 (grid1.coords t) = 1#1) :
    (dat1 V c).leavesExact 2 t = owns (c : Thread nD τ) (st1_2 t) fullShare (k1_pay3 (accAt1 V c t.val t.isLt)) := by
  unfold Dat.leavesExact; rw [liveAt0_2 t h, after0_2]

/-! ## The body obligation, at a generic point -/

/-- What the body is called with at point `t` (the windows one by one), -/
def bodyPre0 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost0 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks; the point's number mod 4 says which of the three
    cases it is in; the invariant hands over the accumulator (at anything at the first point, else at what the point
    before left) and takes it back at this point's partial sum; at a point that does not store into the output's
    buffer that buffer comes back as it was found, at the others it comes back at the thresholded accumulator; what
    the core owes and the other scoped buffers pass through unread. -/
theorem sound_body0 (c : Dev nD) (t : Fin cfg1.N) :
    bodyPre0 V c t ⊢ wp frame (wpE (defs₀ (F := F)) Variants.none c none) Set.univ (bodyAt1 t) (fun _ => bodyPost0 V c t) := by
  unfold bodyPre0 bodyPost0 bodyAt1
  simp only [before0_0, before0_1]
  rw [show (dat1 V c).owesAt () t.succ = (dat1 V c).owesAt () t.castSucc from rfl]
  rw [show (dat1 V c).Φ t.succ = Phi1 V c (t.val + 1) t.isLt from rfl, Phi1_succ]
  rw [leaves0_0, leaves0_1, Phi1_castSucc]
  have hN : t.val < 64 := lt_of_lt_of_eq t.isLt (show cfg1.N = 64 from N_1)
  by_cases h0 : t.val % 4 = 0
  · -- the first contraction block: the accumulator is reset, then takes the product
    have h1 : ¬ t.val % 4 = 3 := by omega
    have hc1 : ¬ k1_cond2 (grid1.coords t) = 1#1 := fun h => h1 ((hcond1_1 t).mp h)
    rw [Dat.leavesExact_idle (dat1 V c) 2 t (idleAt0_2 t hc1) (noFlush0_2 t h1)]
    rw [accAt1_first V c t h0]
    by_cases hz : t.val = 0
    · rw [Phi1_zero V c _ _ hz, scopedRest1_split]
      iintro ⟨⟨⟨%s, HS⟩, HR⟩, Ho, ⟨%d0, H0⟩, ⟨%d1, H1⟩, ⟨%d2, H2⟩⟩
      iapply (kern0_first c Set.univ (grid1.coords t) _ _ _ _ _ _ _ _ ((hcond1_0 t).mpr h0) hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [Phi1_pos V c _ _ hz]
      iintro ⟨⟨HS, HR⟩, Ho, ⟨%d0, H0⟩, ⟨%d1, H1⟩, ⟨%d2, H2⟩⟩
      iapply (kern0_first c Set.univ (grid1.coords t) _ _ _ _ _ _ _ _ ((hcond1_0 t).mpr h0) hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    have hc0 : ¬ cond1_0 (grid1.coords t) := fun h => h0 ((hcond1_0 t).mp h)
    rw [accAt1_next V c t h0, Phi1_pos V c _ _ hz]
    by_cases h1 : t.val % 4 = 3
    · -- the last contraction block: the accumulator takes the product and is stored, thresholded
      have hc1 : k1_cond2 (grid1.coords t) = 1#1 := (hcond1_1 t).mpr h1
      rw [leaves0_2_live V c t hc1, accAt1_next V c t h0]
      iintro ⟨⟨HS, HR⟩, Ho, ⟨%d0, H0⟩, ⟨%d1, H1⟩, ⟨%d2, H2⟩⟩
      iapply (kern0_last c Set.univ (grid1.coords t) _ _ _ _ _ _ _ _ hc0 hc1 _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · -- a middle contraction block: the accumulator takes the product
      have hc1 : ¬ k1_cond2 (grid1.coords t) = 1#1 := fun h => h1 ((hcond1_1 t).mp h)
      rw [Dat.leavesExact_idle (dat1 V c) 2 t (idleAt0_2 t hc1) (noFlush0_2 t h1)]
      iintro ⟨⟨HS, HR⟩, Ho, ⟨%d0, H0⟩, ⟨%d1, H1⟩, ⟨%d2, H2⟩⟩
      iapply (kern0_mid c Set.univ (grid1.coords t) _ _ _ _ _ _ _ _ hc0 hc1 _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

end Oblig1

open Oblig1

/-- The body at every point of the grid, against the proof data. -/
theorem body_obligation1 (c : Dev nD) : BodyObligation (dat1 (F := F) V c) (defs₀ (F := F)) Variants.none () Set.univ := by
  intro t
  rw [bigSep_W1, bigSep_W1]
  exact sound_body0 V c t

/-- The invariant before the first point is the scoped rest as the region hands it over. -/
theorem Phi1_in (c : Dev nD) : (Pipeline.scopedRest spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

/-- The invariant after the last point gives the scoped rest back. -/
theorem Phi1_out (c : Dev nD) : (dat1 V c).Φ (Fin.last cfg1.N) ⊢ (Pipeline.scopedRest spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), scopedRest1_split]
  iintro ⟨HS, HR⟩
  isplitl [HS]
  · iexists _; iexact HS
  iexact HR

end Cert.Kernel.Hand

end
-- ==== Proof.KernelBits.Oblig2.lean ====
/-
  Region 2's body obligation: the pointwise weighted sum of four matrices.

  Every input window is fetched at every point, so the body finds each input's staging buffer at that window's block;
  the body loads the four blocks whole, and stores ONE whole-buffer payload of them into the output's staging buffer,
  which therefore reads back as the payload itself. The region invariant is the scoped rest alone, untouched.
-/
import proofs.«156726_j25744033972455_1_alg».proof.Proof.KernelBits.Data
import Idealize.ShloMosaic.Lib.Tactic
import Idealize.ShloMosaic.Lib.Ring
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq2 (c : Dev nD) (w : Fin cfg2.W) : (dat2 V c).A w = V c (Pipeline.arrRef spec2 w) := by
  dsimp only [dat2]

namespace Oblig2

/-! ## What the body leaves, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-! ## What the body finds: every input is fetched at every point, and the fetch of an uncut window fills the whole
    buffer with the array's block -/

theorem before2_0 (c : Dev nD) (t : Fin cfg2.N) (d) : (dat2 V c).before 0 t d = iblk2 V c 0 t := by
  rw [Dat.before_fetched _ _ _ (fetch2_0 t)]; unfold Dat.fetched Dat.blockOf iblk2; dsimp only [dat2]; rfl
theorem before2_1 (c : Dev nD) (t : Fin cfg2.N) (d) : (dat2 V c).before 1 t d = iblk2 V c 1 t := by
  rw [Dat.before_fetched _ _ _ (fetch2_1 t)]; unfold Dat.fetched Dat.blockOf iblk2; dsimp only [dat2]; rfl
theorem before2_2 (c : Dev nD) (t : Fin cfg2.N) (d) : (dat2 V c).before 2 t d = iblk2 V c 2 t := by
  rw [Dat.before_fetched _ _ _ (fetch2_2 t)]; unfold Dat.fetched Dat.blockOf iblk2; dsimp only [dat2]; rfl
theorem before2_3 (c : Dev nD) (t : Fin cfg2.N) (d) : (dat2 V c).before 3 t d = iblk2 V c 3 t := by
  rw [Dat.before_fetched _ _ _ (fetch2_3 t)]; unfold Dat.fetched Dat.blockOf iblk2; dsimp only [dat2]; rfl

/-! ## The body's triple -/

/-- The zero offsets of a whole rank-2 access, as the constant function. -/
theorem zeroOff2 : (![0, 0] : Fin 2 → ℕ) = fun _ => 0 := by
  funext a; fin_cases a <;> rfl

/-- What a view reads after ONE whole-buffer store over any contents is the store's payload. -/
theorem read_store_whole {sig' : RefSig} {κ : Kind} {sp : Space} (v : View sig' κ sp S512x1024 .f32) (f : v.ty.Contents (Elt F))
    (inb : ∀ a, (![0, 0] : Fin 2 → ℕ) a + S512x1024.size a ≤ S512x1024.size a) (w : S512x1024.Idx → Elt F .f32) :
    v.read (Elt F) (v.writes (Elt F) f [⟨Rect.unit (s := S512x1024) ![0, 0] S512x1024.size inb, w⟩]) = w := by
  have hcov : ∀ y, ∃ p ∈ ([⟨Rect.unit (s := S512x1024) ![0, 0] S512x1024.size inb, w⟩] : List (View.Piece (Elt F) S512x1024 .f32)), y ∈ p.1.set :=
    fun y => ⟨_, List.mem_singleton_self _, View.mem_set_unit_zero (S := S512x1024) zeroOff2 inb y⟩
  rw [View.read_writes_eq_canon v f _ hcov, View.canon_unit_zero (S := S512x1024) zeroOff2 inb w]

/-- A whole-buffer load reads the contents. -/
theorem readAt_whole_buf {sig' : RefSig} {κ : Kind} {sp : Space} (v : View sig' κ sp S512x1024 .f32) (f : v.ty.Contents (Elt F))
    (inb : ∀ a, (![0, 0] : Fin 2 → ℕ) a + S512x1024.size a ≤ S512x1024.size a) :
    View.readAt (Elt F) v (Rect.unit (s := S512x1024) ![0, 0] S512x1024.size inb).toLoadRect f = v.read (Elt F) f := by
  rw [View.readAt_eq_ld, View.ld_unit_zero (S := S512x1024) zeroOff2 inb]

set_option maxHeartbeats 1000000 in
/-- The kernel body on whole staging memrefs, the four inputs' at read contents x0 … x3 and the output's at anything,
    runs to the continuation holding the inputs' as they were and the output's at the payload of the four: a whole-buffer
    load reads the contents, and one whole-buffer store leaves its payload. -/
theorem sound_kernel2 (c : Dev nD) (E : Set ℕ) (i : grid2.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S512x1024 .f32) (harg5 : arg5.IsWhole)
    (arg6 : Memref sig .tc .vmem S512x1024 .f32) (harg6 : arg6.IsWhole)
    (x0 x1 x2 x3 : Vec F S512x1024 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay1 x0 x1 x2 x3)) -∗ K ⟨⟩))
      ⊢ wp frame (wpE (defs₀ (F := F)) Variants.none c none) E
          (cc2__combine_kernel i arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [read_store_whole, readAt_whole_buf, readAt_whole_buf, readAt_whole_buf, readAt_whole_buf]

/-! ## The body obligation, at a generic point -/

/-- What the body is called with at point t: the invariant, the core's debts, and each window's current staging
    buffer at what it holds there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the kernel's triple applies at the four blocks; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Oblig2

/-- The body at every point of the grid, against the proof data. -/
theorem body_obligation2 (c : Dev nD) : BodyObligation (dat2 (F := F) V c) (defs₀ (F := F)) Variants.none () Set.univ := fun t => by
  rw [bigSep_W2, bigSep_W2]
  exact Oblig2.sound_body2 V c t

/-- The invariant before the first point is the scoped rest as the region hands it over. -/
theorem Phi2_in (c : Dev nD) : (Pipeline.scopedRest spec2 c : sProp 𝕄) ⊢ (dat2 V c).Φ 0 := by
  dsimp only [dat2]; exact .rfl

/-- The invariant after the last point gives the scoped rest back. -/
theorem Phi2_out (c : Dev nD) : (dat2 V c).Φ (Fin.last cfg2.N) ⊢ (Pipeline.scopedRest spec2 c : sProp 𝕄) := by
  dsimp only [dat2]; exact .rfl

end Cert.Kernel.Hand

end
-- ==== Proof.KernelBits.Regs.lean ====
/-
  The three regions of @main as segments over the thread states of Bound.lean: region K is entered
  from every unscoped buffer at W(K+1) beside R, and left at W(K+2) beside R. Region 0's two input windows read ONE array,
  which enters the pipeline as two half shares and is joined again at the exit.

  In each region the core's `owes` goes through the pipeline's tallies (nothing is owed at any point, so it comes back
  as it went in), while the generator register and every unscoped buffer that is no window's array bypass the region;
  the invariant takes only the scoped buffers no window stages.
-/
import proofs.«156726_j25744033972455_1_alg».proof.Proof.KernelBits.Bound
import proofs.«156726_j25744033972455_1_alg».proof.Proof.KernelBits.Oblig0
import proofs.«156726_j25744033972455_1_alg».proof.Proof.KernelBits.Oblig1
import proofs.«156726_j25744033972455_1_alg».proof.Proof.KernelBits.Oblig2
import Idealize.ShloMosaic.Lib.Pipeline.RegionsLoop
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

namespace Regs

/-- The two distinct buffers behind region 0's three windows. -/
theorem image0 : Finset.univ.image (Pipeline.arrRef spec0) = {main_v18, main_v35} := by decide

/-- A core's unscoped buffers are the two buffers behind region 0's windows and the rest. -/
theorem split0 (c : Dev nD) (V : (b : Ref sig .tc) → Buf (Elt F) ((c : Thread nD τ).loc b)) :
    (unscopedBufs c V : sProp 𝕄)
      = iprop(((((c : Thread nD τ).loc main_v18) ↦{fullShare} V main_v18) ∗ (((c : Thread nD τ).loc main_v35) ↦{fullShare} V main_v35))
          ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]; unfold Pipeline.arrBufs
  rw [image0, bigSep_insert (by decide), bigSep_singleton]
  rfl

/-- Region 0's arrays, window by window: the shared input array at its two half shares, the output whole. -/
theorem arrays0_eq (c : Dev nD) (G : (w : Fin cfg0.W) → Buf (Elt F) ((cfg0.win w).arr.view.loc (c : Thread nD τ))) :
    ((dat0 (Vv1 m) c).arrays G : sProp 𝕄)
      = iprop((((c : Thread nD τ).loc main_v18) ↦{(fullShare : PosShare TreeShare).left} G 0)
          ∗ (((c : Thread nD τ).loc main_v18) ↦{(fullShare : PosShare TreeShare).right} G 1)
          ∗ (((c : Thread nD τ).loc main_v35) ↦{fullShare} G 2)) := by
  unfold Dat.arrays
  rw [bigSep_W0, (arr_whole0 0).set_eq_univ, (arr_whole0 2).set_eq_univ]
  rfl

/-- ENTRY: the shared array's buffer is dealt to the two input windows by halves. -/
theorem entry0 (c : Dev nD) :
    (unscopedBufs c (Vv1 m c) : sProp 𝕄)
      ⊢ iprop((pdats m 0 c).arrays ((pdats m 0 c).arrAt · 0) ∗ Pipeline.unscopedRest spec0 c (Vv1 m c)) := by
  show _ ⊢ iprop((dat0 (Vv1 m) c).arrays ((dat0 (Vv1 m) c).arrAt · 0) ∗ _)
  rw [split0, arrays0_eq]
  refine BIBase.Entails.trans (sep_mono (sep_mono (pointsTo_share (PosShare.mem_left_op_right fullShare)).1 .rfl) .rfl) ?_
  iintro ⟨⟨⟨H0, H1⟩, H2⟩, Hr⟩
  isplitl [H0 H1 H2]
  · isplitl [H0]; · iexact H0
    isplitl [H1]; · iexact H1
    iexact H2
  iexact Hr

/-- EXIT: the two halves, still at the entry contents (an input array is never written), join again; the output
    array holds what the write-backs left, which is the next valuation there; no other buffer has changed. -/
theorem exit0 (c : Dev nD) :
    iprop((pdats m 0 c).arrays ((pdats m 0 c).arrAt · (Pipeline.pin (pcfgs (F := F)) Gen.adm 0).N) ∗ Pipeline.unscopedRest spec0 c (Vv1 m c))
      ⊢ (unscopedBufs c (Vv2 m c) : sProp 𝕄) := by
  show iprop((dat0 (Vv1 m) c).arrays ((dat0 (Vv1 m) c).arrAt · cfg0.N) ∗ _) ⊢ _
  have h18 : Vv2 m c main_v18 = Vv1 m c main_v18 :=
    show Function.update (W1 m c) (Proc.devRef .tc main_v35) (X35 m c) (Proc.devRef .tc main_v18) = W1 m c (Proc.devRef .tc main_v18) from Function.update_of_ne (StableHlo.devRef_ne_of_ne (by decide) : (Proc.devRef .tc main_v18 : DevRef τ sig) ≠ Proc.devRef .tc main_v35) _ _
  have h35 : Vv2 m c main_v35 = X35 m c :=
    show Function.update (W1 m c) (Proc.devRef .tc main_v35) (X35 m c) (Proc.devRef .tc main_v35) = X35 m c from Function.update_self _ _ _
  have hrest : (Pipeline.unscopedRest spec0 c (Vv2 m c) : sProp 𝕄) = Pipeline.unscopedRest spec0 c (Vv1 m c) := by
    unfold Pipeline.unscopedRest
    exact bigSep_congr fun b hb => by
      rw [show Vv2 m c b = Vv1 m c b from Function.update_of_ne (StableHlo.devRef_ne_of_ne fun e =>
        (Finset.mem_sdiff.mp hb).2 (Finset.mem_image.mpr ⟨2, Finset.mem_univ _, e.symm⟩)) _ _]
  rw [split0, arrays0_eq, hrest, h18, h35, (dat0 (Vv1 m) c).arrAt_in 0 rfl, (dat0 (Vv1 m) c).arrAt_in 1 rfl]
  iintro ⟨⟨H0, H1, H2⟩, Hr⟩
  isplitl [H0 H1 H2]
  · isplitl [H0 H1]
    · iapply (pointsTo_share (PosShare.mem_left_op_right fullShare)).2
      isplitl [H0]; · iexact H0
      iexact H1
    iexact H2
  iexact Hr

end Regs

set_option backward.isDefEq.respectTransparency.types false in
/-- REGION 0 (A · A thresholded into `main_v35`). -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vv1 m) c).loose
  hwaits := Pipeline.hwaits_of_owed_zero _ _ _ _ L lv 0 fun _ _ => rfl
  pre c := T (W1 m) c
  post c := T (W2 m) c
  X c := iprop(emp)
  Y c := iprop(emp)
  Z c := iprop(Pipeline.unscopedRest (Ix := Unit) (Name := ℕ) (U := UR sig nD τ) (Lvl := ℕ) spec0 c (Vv1 m c) ∗ ∃ r, prngReg c r)
  hentry c := by
    rw [Pipeline.ownSems0_none]
    have hsplit := Regs.entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi0_in (Vv1 m) c)
    iintro ⟨-, -, Hr⟩
    iexact Hr
  hout c := by
    rw [Pipeline.ownSems0_none]
    refine BIBase.Entails.trans (Phi0_out (Vv1 m) c) ?_
    iintro H
    isplitr; · iempintro
    isplitr; · iempintro
    iexact H
  hexit c := by
    have hjoin := Regs.exit0 m c
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

namespace Regs

/-- Region 1's arrays after the region: the inputs as entered, the output at what the write-backs leave, which is
    the next valuation at each array. -/
theorem hF1 (c : Dev nD) (w : Fin cfg1.W) : (pdats m 1 c).arrAt w cfg1.N = Vv3 m c (Pipeline.arrRef spec1 w) :=
  match w with
  | ⟨0, _⟩ => ((dat1 (Vv2 m) c).arrAt_in 0 rfl _).trans ((A_eq1 (Vv2 m) c 0).trans
      (Function.update_of_ne (StableHlo.devRef_ne_of_ne (by decide) : (Proc.devRef .tc main_v18 : DevRef τ sig) ≠ Proc.devRef .tc main_v36) _ _).symm)
  | ⟨1, _⟩ => ((dat1 (Vv2 m) c).arrAt_in 1 rfl _).trans ((A_eq1 (Vv2 m) c 1).trans
      (Function.update_of_ne (StableHlo.devRef_ne_of_ne (by decide) : (Proc.devRef .tc main_v35 : DevRef τ sig) ≠ Proc.devRef .tc main_v36) _ _).symm)
  | ⟨2, _⟩ => (Function.update_self (Proc.devRef .tc main_v36 : DevRef τ sig) (X36 m c) (W2 m c)).symm

/-- Region 1 changes no buffer but its output array. -/
theorem hrest1 (c : Dev nD) : ∀ b, b ∉ Finset.univ.image (Pipeline.arrRef spec1) → Vv3 m c b = Vv2 m c b :=
  fun b hb => Function.update_of_ne (StableHlo.devRef_ne_of_ne fun e => hb (Finset.mem_image.mpr ⟨2, Finset.mem_univ _, e.symm⟩)) _ _

end Regs

set_option backward.isDefEq.respectTransparency.types false in
/-- REGION 1 (A · M2 thresholded into `main_v36`). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vv2 m) c).loose
  hwaits := Pipeline.hwaits_of_owed_zero _ _ _ _ L lv 1 fun _ _ => rfl
  pre c := T (W2 m) c
  post c := T (W3 m) c
  X c := iprop(emp)
  Y c := iprop(emp)
  Z c := iprop(Pipeline.unscopedRest (Ix := Unit) (Name := ℕ) (U := UR sig nD τ) (Lvl := ℕ) spec1 c (Vv2 m c) ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vv2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi1_in (Vv2 m) c)
    iintro ⟨-, -, Hr⟩
    iexact Hr
  hout c := by
    rw [Pipeline.ownSems0_none]
    refine BIBase.Entails.trans (Phi1_out (Vv2 m) c) ?_
    iintro H
    isplitr; · iempintro
    isplitr; · iempintro
    iexact H
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vv2 m c) (Vv3 m c) ((pdats m 1 c).arrAt · cfg1.N) (Regs.hF1 m c) (Regs.hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

namespace Regs

/-- The last valuation read at the TensorCore's references. -/
abbrev Vv4 : (c : Dev nD) → (b : Ref sig .tc) → Buf (Elt F) ((c : Thread nD τ).loc b) := fun c b => W4 m c b

/-- Region 2's arrays after the region: the inputs as entered, the output at what the write-backs leave, which is
    the next valuation at each array. -/
theorem hF2 (c : Dev nD) (w : Fin cfg2.W) : (pdats m 2 c).arrAt w cfg2.N = Vv4 m c (Pipeline.arrRef spec2 w) :=
  match w with
  | ⟨0, _⟩ => ((dat2 (Vv3 m) c).arrAt_in 0 rfl _).trans ((A_eq2 (Vv3 m) c 0).trans
      (Function.update_of_ne (StableHlo.devRef_ne_of_ne (by decide) : (Proc.devRef .tc main_v34 : DevRef τ sig) ≠ Proc.devRef .tc main_v37) _ _).symm)
  | ⟨1, _⟩ => ((dat2 (Vv3 m) c).arrAt_in 1 rfl _).trans ((A_eq2 (Vv3 m) c 1).trans
      (Function.update_of_ne (StableHlo.devRef_ne_of_ne (by decide) : (Proc.devRef .tc main_v18 : DevRef τ sig) ≠ Proc.devRef .tc main_v37) _ _).symm)
  | ⟨2, _⟩ => ((dat2 (Vv3 m) c).arrAt_in 2 rfl _).trans ((A_eq2 (Vv3 m) c 2).trans
      (Function.update_of_ne (StableHlo.devRef_ne_of_ne (by decide) : (Proc.devRef .tc main_v35 : DevRef τ sig) ≠ Proc.devRef .tc main_v37) _ _).symm)
  | ⟨3, _⟩ => ((dat2 (Vv3 m) c).arrAt_in 3 rfl _).trans ((A_eq2 (Vv3 m) c 3).trans
      (Function.update_of_ne (StableHlo.devRef_ne_of_ne (by decide) : (Proc.devRef .tc main_v36 : DevRef τ sig) ≠ Proc.devRef .tc main_v37) _ _).symm)
  | ⟨4, _⟩ => (Function.update_self (Proc.devRef .tc main_v37 : DevRef τ sig) (X37 m c) (W3 m c)).symm

/-- Region 2 changes no buffer but its output array. -/
theorem hrest2 (c : Dev nD) : ∀ b, b ∉ Finset.univ.image (Pipeline.arrRef spec2) → Vv4 m c b = Vv3 m c b :=
  fun b hb => Function.update_of_ne (StableHlo.devRef_ne_of_ne fun e => hb (Finset.mem_image.mpr ⟨4, Finset.mem_univ _, e.symm⟩)) _ _

end Regs

set_option backward.isDefEq.respectTransparency.types false in
/-- REGION 2 (the weighted sum into `main_v37`). -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vv3 m) c).loose
  hwaits := Pipeline.hwaits_of_owed_zero _ _ _ _ L lv 2 fun _ _ => rfl
  pre c := T (W3 m) c
  post c := T (W4 m) c
  X c := iprop(emp)
  Y c := iprop(emp)
  Z c := iprop(Pipeline.unscopedRest (Ix := Unit) (Name := ℕ) (U := UR sig nD τ) (Lvl := ℕ) spec2 c (Vv3 m c) ∗ ∃ r, prngReg c r)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vv3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Phi2_in (Vv3 m) c)
    iintro ⟨-, -, Hr⟩
    iexact Hr
  hout c := by
    rw [Pipeline.ownSems0_none]
    refine BIBase.Entails.trans (Phi2_out (Vv3 m) c) ?_
    iintro H
    isplitr; · iempintro
    isplitr; · iempintro
    iexact H
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vv3 m c) (Regs.Vv4 m c) ((pdats m 2 c).arrAt · cfg2.N) (Regs.hF2 m c) (Regs.hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.KernelBits.Run.lean ====
/-
  The run of the kernel program: every weakly fair execution of @main terminates, nothing faulting, with
  the result array at X37 (what region 2's write-backs leave) and the three argument arrays as launched.

  @main is one stretch of host operations followed by the three regions. Each item is a segment between two thread
  states: core `c` holds every unscoped buffer whole at the boundary's contents (W0 at launch, W1 after the host
  stretch, then W2, W3, W4 after the regions) beside its generator register and its dues, at nothing. The segments
  chain because each is left at the very state the next is entered from; the launch makes the first state, and the last
  one, read against a final memory, says that memory holds W4 at every unscoped buffer. W4 is X37 at the result array,
  and at an argument array it is the launch contents: no region changes an argument, no host operation writes one.
-/
import proofs.«156726_j25744033972455_1_alg».proof.Proof.KernelBits.Regs
import Idealize.ShloMosaic.Lib.Pipeline.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## The host stretch as a segment -/

/-- A line of host operations over the unscoped buffers from the contents `W`, `R` riding along: it is left with those
    buffers at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The last thread state without the dues: every unscoped buffer at W4, the generator register at some state. -/
abbrev Tₙ (c : Dev nD) : sProp 𝕄 :=
  iprop(StableHlo.held (c : Thread nD τ) (Pipeline.ucRefs τ sig) (W4 m c) ∗ ∃ r, prngReg c r)

/-! ## @main as segments -/

/-- @main's four segments in order: the host stretch from the launch contents, then the three regions. -/
abbrev segs : List (Pipeline.Seg (pcfgs (F := F)) Gen.adm (pdats m) () defs₀ 𝒱₀ L lv) :=
  [ .host (hseg hostOps0 hostOps0_sub hostOps0_fresh (W0 m)),
    .region (reg0 m),
    .region (reg1 m),
    .region (reg2 m) ]

/-- @main is the run of the segments: it is the chain of its items, and the segments' run is the same chain. -/
theorem main_run (c : Dev nD) : main (F := F) c = Pipeline.Seg.run (Run.segs m) := (main_chain c).trans (by chain_rfl)

/-! ## The last contents, read at the result and at the arguments -/

/-- W4 at the result array is X37: the last update is at that very reference. -/
theorem W4_v37 (c : Dev nD) : W4 m c main_v37 = X37 m c := by
  unfold W4; exact Function.update_self _ _ _

/-- W4 away from the three arrays the regions change is W1: each update is at another reference. -/
theorem W4_of (c : Dev nD) (r : Ref sig .tc) (h35 : r ≠ main_v35) (h36 : r ≠ main_v36) (h37 : r ≠ main_v37) :
    W4 m c r = W1 m c r := by
  unfold W4 W3 W2
  rw [Function.update_of_ne (StableHlo.devRef_ne_of_ne h37 : (Proc.devRef .tc r : DevRef τ sig) ≠ Proc.devRef .tc main_v37),
    Function.update_of_ne (StableHlo.devRef_ne_of_ne h36 : (Proc.devRef .tc r : DevRef τ sig) ≠ Proc.devRef .tc main_v36),
    Function.update_of_ne (StableHlo.devRef_ne_of_ne h35 : (Proc.devRef .tc r : DevRef τ sig) ≠ Proc.devRef .tc main_v35)]

/-- An argument array reaches the end as launched: no region changes it, no host operation writes it. -/
theorem W4_main_arg0 (c : Dev nD) : W4 m c main_arg0 = m ((c : Thread nD τ).loc main_arg0) :=
  (W4_of m c main_arg0 (by decide) (by decide) (by decide)).trans ((Gen.V1_of m c main_arg0 (by decide)).trans rfl)
theorem W4_main_arg1 (c : Dev nD) : W4 m c main_arg1 = m ((c : Thread nD τ).loc main_arg1) :=
  (W4_of m c main_arg1 (by decide) (by decide) (by decide)).trans ((Gen.V1_of m c main_arg1 (by decide)).trans rfl)
theorem W4_main_arg2 (c : Dev nD) : W4 m c main_arg2 = m ((c : Thread nD τ).loc main_arg2) :=
  (W4_of m c main_arg2 (by decide) (by decide) (by decide)).trans ((Gen.V1_of m c main_arg2 (by decide)).trans rfl)

end Run

open Run in
set_option backward.isDefEq.respectTransparency.types false in
theorem run : θ_run defs (onTc (τ := τ) (main (F := F))) ⟨m, fun _ => 0, ρ⟩ (fun r => ∀ c : Dev nD,
      r.2.mem ((c.tc : Thread nD τ).loc main_v37) = X37 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) Gen.adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core gets a ghost resource beside it
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    -- each segment is left at the state the next is entered from; the last regroups the dues off the rest
    (hch := ⟨fun _ => .rfl, fun _ => .rfl, fun _ => .rfl, fun _ => .rfl, fun _ => sep_assoc'⟩)
    -- the launch deals the unscoped buffers at the launch memory, the register and the dues at nothing
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    -- holding a buffer at contents beside the state interpretation says the memory holds those contents
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v37 (by decide))).trans (W4_v37 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Hand

end
-- ==== Proof.Spec.lean ====
/-
  What the program computes, on the extended reals, as functions of 4096 × 4096 matrices.

  `thr x` keeps `x` where `x ≥ ε` and is zero elsewhere (ε the binary value of the float 0.005).
  `MT X Y` is the matrix product of `X` and `Y`, thresholded entry by entry:
  `MT X Y (r, s) = thr (∑ k, X (r, k) · Y (k, s))`.
  `comb P A M2 M3 = ((θ₀ · P + θ₁ · A) + θ₂ · M2) + θ₃ · M3`, entry by entry, the weights the binary values of the
  floats 0.4, 0.24, 0.144, 0.0864.
  The program's result is `comb P A (MT A A) (MT A (MT A A))` of the two scattered matrices `P` and `A`.
-/
import Idealize.ShloMosaic.PureOps.Ideal
import Idealize.ShloMosaic.Lib.ValueIdx

noncomputable section

namespace Cert.PprSpec

open Idealize.ShloMosaic Idealize.ShloMosaic.ValueIdx

/-- The square matrices' index type. -/
abbrev Sq : Shape := ⟨2, ![4096, 4096]⟩

/-- An entry kept if it is at least ε = f32 0.005, else zero: the compare-and-select both programs apply. -/
def thr (x : EReal) : EReal :=
  Scalar.select (FloatOps.cmpf (F := Ideal) (φ := .f32) .oge x (Ideal.ofBits .f32 0x3BA3D70A#32)) x (Ideal.ofBits .f32 0x00000000#32)

/-- The thresholded matrix product. -/
def MT (X Y : Sq.Idx → EReal) : Sq.Idx → EReal :=
  fun i => thr (∑ k : Fin 4096, X (ix2 (i 0) k) * Y (ix2 k (i 1)))

/-- The weighted sum of the four matrices, summed in the programs' order. -/
def comb (P A M2 M3 : Sq.Idx → EReal) : Sq.Idx → EReal :=
  fun i => ((Ideal.ofBits .f32 0x3ECCCCCD#32 * P i + Ideal.ofBits .f32 0x3E75C28F#32 * A i)
    + Ideal.ofBits .f32 0x3E1374BC#32 * M2 i) + Ideal.ofBits .f32 0x3DB0F27C#32 * M3 i

/-- The whole computation from the two scattered matrices. -/
def result (P A : Sq.Idx → EReal) : Sq.Idx → EReal :=
  comb P A (MT A A) (MT A (MT A A))

end Cert.PprSpec

end
-- ==== Proof.LibBlockSum.lean ====
/-
  A finite sum cut into four consecutive runs of equal length.

  For `f` on `Fin (4 * n)`, with values in any commutative additive monoid, the sum of `f` is the sum over the
  first `n` indices, plus the sum over the next `n`, plus the next, plus the last, the four added in that order onto
  zero:  `∑ k, f k = (((0 + ∑ j, f j) + ∑ j, f (n + j)) + ∑ j, f (2n + j)) + ∑ j, f (3n + j)`.
  The index set `Fin (4 * n)` is the product `Fin 4 × Fin n` (run, place in the run), the sum over a product is the
  iterated sum, and the outer sum over four runs is written out. No finiteness of the values is asked, so the law
  holds on the extended reals. `sum_4096_by_1024` is the instance with four runs of 1024.
-/
import Mathlib.Algebra.BigOperators.Fin
import Mathlib.Logic.Equiv.Fin.Basic

open scoped BigOperators

namespace BlockSum

/-- The sum over `Fin (4 * n)` is the four runs' sums added in order onto zero. -/
theorem sum_four_runs {M : Type*} [AddCommMonoid M] (n : ℕ) (f : Fin (4 * n) → M) :
    ∑ k : Fin (4 * n), f k
      = (((0 + ∑ j : Fin n, f ⟨j.val, by have := j.isLt; omega⟩)
            + ∑ j : Fin n, f ⟨n + j.val, by have := j.isLt; omega⟩)
          + ∑ j : Fin n, f ⟨2 * n + j.val, by have := j.isLt; omega⟩)
        + ∑ j : Fin n, f ⟨3 * n + j.val, by have := j.isLt; omega⟩ := by
  -- the index set as (run, place in the run); the sum over the product as the iterated sum; the four runs written out
  rw [← Equiv.sum_comp finProdFinEquiv f, Fintype.sum_prod_type, Fin.sum_univ_four, zero_add]
  -- run `a`, place `j` is the index `j + n * a`
  have e : ∀ (a : Fin 4) (j : Fin n) (h : a.val * n + j.val < 4 * n),
      f (finProdFinEquiv (a, j)) = f ⟨a.val * n + j.val, h⟩ := fun a j h =>
    congrArg f (Fin.ext (by show j.val + n * a.val = a.val * n + j.val; rw [Nat.mul_comm, Nat.add_comm]))
  refine congrArg₂ (· + ·) (congrArg₂ (· + ·) (congrArg₂ (· + ·) ?_ ?_) ?_) ?_ <;>
    refine Finset.sum_congr rfl fun j _ => ?_
  · exact (e 0 j (by have := j.isLt; show 0 * n + j.val < 4 * n; omega)).trans (congrArg f (Fin.ext (by show 0 * n + j.val = j.val; omega)))
  · exact (e 1 j (by have := j.isLt; show 1 * n + j.val < 4 * n; omega)).trans (congrArg f (Fin.ext (by show 1 * n + j.val = n + j.val; omega)))
  · exact e 2 j (by have := j.isLt; show 2 * n + j.val < 4 * n; omega)
  · exact e 3 j (by have := j.isLt; show 3 * n + j.val < 4 * n; omega)

/-- Four runs of 1024: the sum over `Fin 4096`. -/
theorem sum_4096_by_1024 {M : Type*} [AddCommMonoid M] (f : Fin 4096 → M) :
    ∑ k : Fin 4096, f k
      = (((0 + ∑ j : Fin 1024, f ⟨j.val, by have := j.isLt; omega⟩)
            + ∑ j : Fin 1024, f ⟨1024 + j.val, by have := j.isLt; omega⟩)
          + ∑ j : Fin 1024, f ⟨2048 + j.val, by have := j.isLt; omega⟩)
        + ∑ j : Fin 1024, f ⟨3072 + j.val, by have := j.isLt; omega⟩ :=
  sum_four_runs 1024 f

end BlockSum
-- ==== Proof.KVal0.lean ====
/-
  What region 0's write-backs leave in its output array, on the extended reals: the thresholded product of its two
  input arrays.

  The grid is 4 × 4 × 4 and point t is (i, j, k) = (t / 16, t / 4 % 4, t % 4). At t the left window holds block (i, k)
  of its array X, the right window block (k, j) of its array Y, each 1024 × 1024, and the output block is (i, j),
  written back at the points with k = 3. Along the run of four points with i and j fixed the accumulator is reset to
  zero and takes the four block products in order, so at k = 3 its entry (p, q) is
  (((0 + S 0) + S 1) + S 2) + S 3 with S k' = ∑ kk < 1024, X (1024 i + p, 1024 k' + kk) · Y (1024 k' + kk, 1024 j + q):
  the whole contraction ∑ k < 4096, X (1024 i + p, k) · Y (k, 1024 j + q) cut into its four runs of 1024. Thresholded,
  that is entry (1024 i + p, 1024 j + q) of `MT X Y`; so every write-back writes its block of `MT X Y`, the sixteen
  written-back blocks tile the array, and the array ends holding `MT X Y`.
-/
import proofs.«156726_j25744033972455_1_alg».proof.Proof.Data
import proofs.«156726_j25744033972455_1_alg».proof.Proof.Spec
import proofs.«156726_j25744033972455_1_alg».proof.Proof.LibBlockSum
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen
open Idealize.ShloMosaic.ValueIdx
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace KVal0

/-! ### The blocks the three windows name at a point -/

/-- The block indices at point `t`: the left window's is (t / 16, t % 4), the right window's (t % 4, t / 4 % 4), the
    output's (t / 16, t / 4 % 4). -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4)

/-- The left window's array as the region finds it, as a matrix of extended reals. -/
abbrev lhsArr (c : Dev nD) : Cert.PprSpec.Sq.Idx → EReal := V c (Pipeline.arrRef spec0 0)
/-- The right window's array as the region finds it, as a matrix of extended reals. -/
abbrev rhsArr (c : Dev nD) : Cert.PprSpec.Sq.Idx → EReal := V c (Pipeline.arrRef spec0 1)

/-- Window 0's block at point `t`: rows `1024 · (t / 16) …`, columns `1024 · (t % 4) …` of its array. -/
theorem blkA_apply (c : Dev nD) (t : Fin cfg0.N) (p kk : Fin 1024) (r k : Fin 4096)
    (hr : r.val = 1024 * (t.val / 16) + p.val) (hk : k.val = 1024 * (t.val % 4) + kk.val) :
    (iblk0 V c 0 t : Vec Ideal S1024x1024 .f32) (ix2 p kk)
      = lhsArr V c (ix2 r k) := by
  unfold iblk0
  rw [View.read_apply]
  show lhsArr V c _ = _
  refine congrArg _ (funext fun a => Fin.ext ?_)
  match a with
  | ⟨0, _⟩ =>
    show win0_0.index t 0 * 1024 + 1 * p.val = r.val
    rw [(idx_facts t).1, hr]; omega
  | ⟨1, _⟩ =>
    show win0_0.index t 1 * 1024 + 1 * kk.val = k.val
    rw [(idx_facts t).2.1, hk]; omega

/-- Window 1's block at point `t`: rows `1024 · (t % 4) …`, columns `1024 · (t / 4 % 4) …` of its array. -/
theorem blkB_apply (c : Dev nD) (t : Fin cfg0.N) (kk q : Fin 1024) (k s : Fin 4096)
    (hk : k.val = 1024 * (t.val % 4) + kk.val) (hs : s.val = 1024 * (t.val / 4 % 4) + q.val) :
    (iblk0 V c 1 t : Vec Ideal S1024x1024 .f32) (ix2 kk q)
      = rhsArr V c (ix2 k s) := by
  unfold iblk0
  rw [View.read_apply]
  show rhsArr V c _ = _
  refine congrArg _ (funext fun a => Fin.ext ?_)
  match a with
  | ⟨0, _⟩ =>
    show win0_1.index t 0 * 1024 + 1 * kk.val = k.val
    rw [(idx_facts t).2.2.1, hk]; omega
  | ⟨1, _⟩ =>
    show win0_1.index t 1 * 1024 + 1 * q.val = s.val
    rw [(idx_facts t).2.2.2.1, hs]; omega

/-! ### The kernel's three payloads at an entry -/

/-- The product contracts the left operand's columns with the right operand's rows. At output entry `i` and
    contraction position `q` the left operand is read at row `i 0`. -/
theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- At output entry `i` and contraction position `q` the left operand is read at column `q`. -/
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- At output entry `i` and contraction position `q` the right operand is read at row `q`. -/
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- At output entry `i` and contraction position `q` the right operand is read at column `i 1`. -/
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The reset payload is the zero block. -/
theorem pay1_apply (i : S1024x1024.Idx) : (k0_pay1 (F := Ideal)) i = 0 := by
  unfold k0_pay1
  simp only [shapeCast_self]
  show Ideal.ofBits .f32 0x00000000#32 = 0
  exact Ideal.ofBits_zero_f32

/-- The accumulation payload at entry (p, q): the accumulator's entry plus row p of the left block times column q of the
    right block. -/
theorem pay2_apply (acc a b : Vec Ideal S1024x1024 .f32) (p q : Fin 1024) :
    k0_pay2 acc a b (ix2 p q) = acc (ix2 p q) + ∑ kk : Fin 1024, a (ix2 p kk) * b (ix2 kk q) := by
  unfold k0_pay2
  simp only [shapeCast_self]
  show acc (ix2 p q) + FloatOps.matmul (F := Ideal) dot_S1024x1024_S1024x1024_S1024x1024_1_0_0_1_n_n (some .fp32) a b (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine congrArg _ (Finset.sum_congr rfl fun kk _ => ?_)
  have hk := contrEquiv1_symm_val dot_S1024x1024_S1024x1024_S1024x1024_1_0_0_1_n_n 1024 rfl rfl kk
  have el : dot_S1024x1024_S1024x1024_S1024x1024_1_0_0_1_n_n.lhsIdx (ix2 p q) ((contrEquiv1 dot_S1024x1024_S1024x1024_S1024x1024_1_0_0_1_n_n 1024 rfl rfl).symm kk) = ix2 p kk := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm kk) = ix2 kk q := funext fun a => Fin.ext (by
    match a with
    | ⟨0, _⟩ => exact (rhs_dot_0 _ _).trans hk
    | ⟨1, _⟩ => exact rhs_dot_1 _ _)
  rw [el, er]

/-- The store payload at an entry: the accumulator's entry, thresholded. -/
theorem pay3_apply (acc : Vec Ideal S1024x1024 .f32) (i : S1024x1024.Idx) :
    k0_pay3 acc i = Cert.PprSpec.thr (acc i) := rfl

/-! ### The accumulator along a run of four points -/

/-- At a point with k = 0 the accumulator restarts: the blocks' product added to the zero block. -/
theorem accAt0_restart (c : Dev nD) (n : ℕ) (hn : n < cfg0.N) (h0 : n % 4 = 0) :
    accAt0 V c n hn = k0_pay2 (k0_pay1 (F := Ideal)) (iblk0 V c 0 ⟨n, hn⟩) (iblk0 V c 1 ⟨n, hn⟩) := by
  cases n with
  | zero => rw [accAt0]
  | succ m => rw [accAt0, if_pos h0]

/-- At a point with k ≠ 0 the blocks' product is added to what the point before left. -/
theorem accAt0_step (c : Dev nD) (n : ℕ) (hn : n + 1 < cfg0.N) (h0 : (n + 1) % 4 ≠ 0) :
    accAt0 V c (n + 1) hn
      = k0_pay2 (accAt0 V c n (Nat.lt_of_succ_lt hn)) (iblk0 V c 0 ⟨n + 1, hn⟩) (iblk0 V c 1 ⟨n + 1, hn⟩) := by
  rw [accAt0, if_neg h0]

/-- So at the last point of a run the accumulator is the four products added in order onto the zero block. -/
theorem accAt0_run (c : Dev nD) (n : ℕ) (h : n + 3 < cfg0.N) (h0 : n % 4 = 0) :
    accAt0 V c (n + 3) h
      = k0_pay2 (k0_pay2 (k0_pay2 (k0_pay2 (k0_pay1 (F := Ideal))
          (iblk0 V c 0 ⟨n, by omega⟩) (iblk0 V c 1 ⟨n, by omega⟩))
          (iblk0 V c 0 ⟨n + 1, by omega⟩) (iblk0 V c 1 ⟨n + 1, by omega⟩))
          (iblk0 V c 0 ⟨n + 2, by omega⟩) (iblk0 V c 1 ⟨n + 2, by omega⟩))
          (iblk0 V c 0 ⟨n + 3, h⟩) (iblk0 V c 1 ⟨n + 3, h⟩) := by
  rw [accAt0_step V c (n + 2) h (by omega), accAt0_step V c (n + 1) (by omega) (by omega),
    accAt0_step V c n (by omega) (by omega), accAt0_restart V c n (by omega) h0]

/-- Four accumulation steps from the zero block, at entry (p, q): the four row-times-column sums added in order onto
    zero. -/
theorem four_steps_apply (a0 b0 a1 b1 a2 b2 a3 b3 : Vec Ideal S1024x1024 .f32) (p q : Fin 1024) :
    k0_pay2 (k0_pay2 (k0_pay2 (k0_pay2 (k0_pay1 (F := Ideal)) a0 b0) a1 b1) a2 b2) a3 b3 (ix2 p q)
      = (((0 + ∑ kk : Fin 1024, a0 (ix2 p kk) * b0 (ix2 kk q)) + ∑ kk : Fin 1024, a1 (ix2 p kk) * b1 (ix2 kk q))
          + ∑ kk : Fin 1024, a2 (ix2 p kk) * b2 (ix2 kk q)) + ∑ kk : Fin 1024, a3 (ix2 p kk) * b3 (ix2 kk q) := by
  rw [pay2_apply, pay2_apply, pay2_apply, pay2_apply, pay1_apply]

/-- The accumulator's entry (p, q) at the last point of the run that starts at `n`: row `1024 · (n / 16) + p` of the
    left array times column `1024 · (n / 4 % 4) + q` of the right array, the whole contraction. -/
theorem acc_entry (c : Dev nD) (n : ℕ) (h : n + 3 < cfg0.N) (h0 : n % 4 = 0) (p q : Fin 1024) (r s : Fin 4096)
    (hr : r.val = 1024 * (n / 16) + p.val) (hs : s.val = 1024 * (n / 4 % 4) + q.val) :
    accAt0 V c (n + 3) h (ix2 p q)
      = ∑ k : Fin 4096, lhsArr V c (ix2 r k)
          * rhsArr V c (ix2 k s) := by
  have hN : cfg0.N = 64 := N_0
  rw [accAt0_run V c n h h0]
  refine (four_steps_apply _ _ _ _ _ _ _ _ p q).trans ?_
  rw [BlockSum.sum_4096_by_1024]
  refine congrArg₂ (· + ·) (congrArg₂ (· + ·) (congrArg₂ (· + ·) (congrArg₂ (· + ·) rfl ?_) ?_) ?_) ?_ <;>
    refine Finset.sum_congr rfl fun kk _ => ?_
  · rw [blkA_apply V c ⟨n, by omega⟩ p kk r ⟨kk.val, by have := kk.isLt; omega⟩
        (by show r.val = 1024 * (n / 16) + p.val; exact hr) (by show kk.val = 1024 * (n % 4) + kk.val; omega),
      blkB_apply V c ⟨n, by omega⟩ kk q ⟨kk.val, by have := kk.isLt; omega⟩ s
        (by show kk.val = 1024 * (n % 4) + kk.val; omega) (by show s.val = 1024 * (n / 4 % 4) + q.val; exact hs)]
  · rw [blkA_apply V c ⟨n + 1, by omega⟩ p kk r ⟨1024 + kk.val, by have := kk.isLt; omega⟩
        (by show r.val = 1024 * ((n + 1) / 16) + p.val; omega) (by show 1024 + kk.val = 1024 * ((n + 1) % 4) + kk.val; omega),
      blkB_apply V c ⟨n + 1, by omega⟩ kk q ⟨1024 + kk.val, by have := kk.isLt; omega⟩ s
        (by show 1024 + kk.val = 1024 * ((n + 1) % 4) + kk.val; omega) (by show s.val = 1024 * ((n + 1) / 4 % 4) + q.val; omega)]
  · rw [blkA_apply V c ⟨n + 2, by omega⟩ p kk r ⟨2048 + kk.val, by have := kk.isLt; omega⟩
        (by show r.val = 1024 * ((n + 2) / 16) + p.val; omega) (by show 2048 + kk.val = 1024 * ((n + 2) % 4) + kk.val; omega),
      blkB_apply V c ⟨n + 2, by omega⟩ kk q ⟨2048 + kk.val, by have := kk.isLt; omega⟩ s
        (by show 2048 + kk.val = 1024 * ((n + 2) % 4) + kk.val; omega) (by show s.val = 1024 * ((n + 2) / 4 % 4) + q.val; omega)]
  · rw [blkA_apply V c ⟨n + 3, h⟩ p kk r ⟨3072 + kk.val, by have := kk.isLt; omega⟩
        (by show r.val = 1024 * ((n + 3) / 16) + p.val; omega) (by show 3072 + kk.val = 1024 * ((n + 3) % 4) + kk.val; omega),
      blkB_apply V c ⟨n + 3, h⟩ kk q ⟨3072 + kk.val, by have := kk.isLt; omega⟩ s
        (by show 3072 + kk.val = 1024 * ((n + 3) % 4) + kk.val; omega) (by show s.val = 1024 * ((n + 3) / 4 % 4) + q.val; omega)]

/-! ### From the write-backs to the array -/

/-- The thresholded product of the two input arrays, as contents of the output array. -/
abbrev prod (c : Dev nD) : Buf (Elt Ideal) ((cfg0.win 2).arr.view.loc (c.tc : Thread nD τ)) :=
  Cert.PprSpec.MT (lhsArr V c) (rhsArr V c)

/-- What a write-back writes is its block of the thresholded product: the point is the last of a run of four, its
    output block is (n / 16, n / 4 % 4), and entry (p, q) of the thresholded accumulator is the product's entry
    (1024 · (n / 16) + p, 1024 · (n / 4 % 4) + q). -/
theorem flushed_eq (c : Dev nD) (t : Fin cfg0.N) (hf : (cfg0.win 2).flush t = true) :
    (dat0 V c).flushed 2 t = ((cfg0.win 2).blk t).view.read (Elt Ideal) (prod V c) := by
  have hN : cfg0.N = 64 := N_0
  have h3 : t.val % 4 = 3 := (flush0_2 t).mp hf
  obtain ⟨tv, ht⟩ := t
  obtain ⟨n, rfl⟩ : ∃ n, tv = n + 3 := ⟨tv - 3, by have : tv % 4 = 3 := h3; omega⟩
  have h0 : n % 4 = 0 := by have : (n + 3) % 4 = 3 := h3; omega
  funext y
  obtain ⟨p, q, rfl⟩ : ∃ (p q : Fin 1024), y = ix2 p q := ⟨y 0, y 1, eq_ix2 y⟩
  rw [View.read_apply]
  show k0_pay3 (accAt0 V c (n + 3) ht) (ix2 p q) = prod V c (((cfg0.win 2).blk ⟨n + 3, ht⟩).view.emb (ix2 p q))
  rw [pay3_apply]
  show Cert.PprSpec.thr _ = Cert.PprSpec.thr _
  refine congrArg Cert.PprSpec.thr (acc_entry V c n ht h0 p q _ _ ?_ ?_)
  · show win0_2.index ⟨n + 3, ht⟩ 0 * 1024 + 1 * p.val = 1024 * (n / 16) + p.val
    rw [(idx_facts ⟨n + 3, ht⟩).2.2.2.2.1]
    show (n + 3) / 16 * 1024 + 1 * p.val = _
    omega
  · show win0_2.index ⟨n + 3, ht⟩ 1 * 1024 + 1 * q.val = 1024 * (n / 4 % 4) + q.val
    rw [(idx_facts ⟨n + 3, ht⟩).2.2.2.2.2]
    show (n + 3) / 4 % 4 * 1024 + 1 * q.val = _
    omega

/-- Every entry (r, s) of the output array is in a written-back block: that of the point
    `16 · (r / 1024) + 4 · (s / 1024) + 3`. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 4096 := (i 1).isLt
  have hlt : 16 * ((i 0).val / 1024) + 4 * ((i 1).val / 1024) + 3 < cfg0.N := by omega
  refine ⟨⟨16 * ((i 0).val / 1024) + 4 * ((i 1).val / 1024) + 3, hlt⟩, (flush0_2 _).mpr ?_, ?_⟩
  · show (16 * ((i 0).val / 1024) + 4 * ((i 1).val / 1024) + 3) % 4 = 3
    omega
  show i ∈ ((View.whole (Pipeline.arrRef spec0 2)).slice (win0_2.rect ⟨_, hlt⟩)).set
  rw [View.set_slice_whole, Rect.mem_set_unit]
  intro a
  match a with
  | ⟨0, _⟩ =>
    show win0_2.index ⟨_, hlt⟩ 0 * 1024 ≤ (i 0).val ∧ (i 0).val < win0_2.index ⟨_, hlt⟩ 0 * 1024 + 1024
    rw [(idx_facts ⟨_, hlt⟩).2.2.2.2.1]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_2.index ⟨_, hlt⟩ 1 * 1024 ≤ (i 1).val ∧ (i 1).val < win0_2.index ⟨_, hlt⟩ 1 * 1024 + 1024
    rw [(idx_facts ⟨_, hlt⟩).2.2.2.2.2]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

end KVal0

/-- Region 0's output array after its write-backs is the thresholded product of its two input arrays. -/
theorem arr0_eq (c : Dev nD) :
    ((dat0 (F := Ideal) V c).arrAt 2 cfg0.N : Cert.PprSpec.Sq.Idx → EReal)
      = Cert.PprSpec.MT (V c (Pipeline.arrRef spec0 0) : Cert.PprSpec.Sq.Idx → EReal) (V c (Pipeline.arrRef spec0 1) : Cert.PprSpec.Sq.Idx → EReal) :=
  (dat0 V c).arrAt_eq_of_cover 2 (KVal0.prod V c) (KVal0.flushed_eq V c) (KVal0.cover c)

end Cert.KernelIdeal.Hand

end
-- ==== Proof.KVal1.lean ====
/-
  What region 1's write-backs leave in its output array, on the extended reals: the thresholded product of its two
  input arrays.

  The grid is 4 × 4 × 4 and point t is (i, j, k) = (t / 16, t / 4 % 4, t % 4). At t the left window holds block (i, k)
  of its array X, the right window block (k, j) of its array Y, each 1024 × 1024, and the output block is (i, j),
  written back at the points with k = 3. Along the run of four points with i and j fixed the accumulator is reset to
  zero and takes the four block products in order, so at k = 3 its entry (p, q) is
  (((0 + S 0) + S 1) + S 2) + S 3 with S k' = ∑ kk < 1024, X (1024 i + p, 1024 k' + kk) · Y (1024 k' + kk, 1024 j + q):
  the whole contraction ∑ k < 4096, X (1024 i + p, k) · Y (k, 1024 j + q) cut into its four runs of 1024. Thresholded,
  that is entry (1024 i + p, 1024 j + q) of `MT X Y`; so every write-back writes its block of `MT X Y`, the sixteen
  written-back blocks tile the array, and the array ends holding `MT X Y`.
-/
import proofs.«156726_j25744033972455_1_alg».proof.Proof.Data
import proofs.«156726_j25744033972455_1_alg».proof.Proof.Spec
import proofs.«156726_j25744033972455_1_alg».proof.Proof.LibBlockSum
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen
open Idealize.ShloMosaic.ValueIdx
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace KVal1

/-! ### The blocks the three windows name at a point -/

/-- The block indices at point `t`: the left window's is (t / 16, t % 4), the right window's (t % 4, t / 4 % 4), the
    output's (t / 16, t / 4 % 4). -/
theorem idx_facts : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4 :=
  (by decide +kernel : ∀ t : Fin grid1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = t.val / 4 % 4)

/-- The left window's array as the region finds it, as a matrix of extended reals. -/
abbrev lhsArr (c : Dev nD) : Cert.PprSpec.Sq.Idx → EReal := V c (Pipeline.arrRef spec1 0)
/-- The right window's array as the region finds it, as a matrix of extended reals. -/
abbrev rhsArr (c : Dev nD) : Cert.PprSpec.Sq.Idx → EReal := V c (Pipeline.arrRef spec1 1)

/-- Window 0's block at point `t`: rows `1024 · (t / 16) …`, columns `1024 · (t % 4) …` of its array. -/
theorem blkA_apply (c : Dev nD) (t : Fin cfg1.N) (p kk : Fin 1024) (r k : Fin 4096)
    (hr : r.val = 1024 * (t.val / 16) + p.val) (hk : k.val = 1024 * (t.val % 4) + kk.val) :
    (iblk1 V c 0 t : Vec Ideal S1024x1024 .f32) (ix2 p kk)
      = lhsArr V c (ix2 r k) := by
  unfold iblk1
  rw [View.read_apply]
  show lhsArr V c _ = _
  refine congrArg _ (funext fun a => Fin.ext ?_)
  match a with
  | ⟨0, _⟩ =>
    show win1_0.index t 0 * 1024 + 1 * p.val = r.val
    rw [(idx_facts t).1, hr]; omega
  | ⟨1, _⟩ =>
    show win1_0.index t 1 * 1024 + 1 * kk.val = k.val
    rw [(idx_facts t).2.1, hk]; omega

/-- Window 1's block at point `t`: rows `1024 · (t % 4) …`, columns `1024 · (t / 4 % 4) …` of its array. -/
theorem blkB_apply (c : Dev nD) (t : Fin cfg1.N) (kk q : Fin 1024) (k s : Fin 4096)
    (hk : k.val = 1024 * (t.val % 4) + kk.val) (hs : s.val = 1024 * (t.val / 4 % 4) + q.val) :
    (iblk1 V c 1 t : Vec Ideal S1024x1024 .f32) (ix2 kk q)
      = rhsArr V c (ix2 k s) := by
  unfold iblk1
  rw [View.read_apply]
  show rhsArr V c _ = _
  refine congrArg _ (funext fun a => Fin.ext ?_)
  match a with
  | ⟨0, _⟩ =>
    show win1_1.index t 0 * 1024 + 1 * kk.val = k.val
    rw [(idx_facts t).2.2.1, hk]; omega
  | ⟨1, _⟩ =>
    show win1_1.index t 1 * 1024 + 1 * q.val = s.val
    rw [(idx_facts t).2.2.2.1, hs]; omega

/-! ### The kernel's three payloads at an entry -/

/-- The product contracts the left operand's columns with the right operand's rows. At output entry `i` and
    contraction position `q` the left operand is read at row `i 0`. -/
theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- At output entry `i` and contraction position `q` the left operand is read at column `q`. -/
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- At output entry `i` and contraction position `q` the right operand is read at row `q`. -/
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- At output entry `i` and contraction position `q` the right operand is read at column `i 1`. -/
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The reset payload is the zero block. -/
theorem pay1_apply (i : S1024x1024.Idx) : (k1_pay1 (F := Ideal)) i = 0 := by
  unfold k1_pay1
  simp only [shapeCast_self]
  show Ideal.ofBits .f32 0x00000000#32 = 0
  exact Ideal.ofBits_zero_f32

/-- The accumulation payload at entry (p, q): the accumulator's entry plus row p of the left block times column q of the
    right block. -/
theorem pay2_apply (acc a b : Vec Ideal S1024x1024 .f32) (p q : Fin 1024) :
    k1_pay2 acc a b (ix2 p q) = acc (ix2 p q) + ∑ kk : Fin 1024, a (ix2 p kk) * b (ix2 kk q) := by
  unfold k1_pay2
  simp only [shapeCast_self]
  show acc (ix2 p q) + FloatOps.matmul (F := Ideal) dot_S1024x1024_S1024x1024_S1024x1024_1_0_0_1_n_n (some .fp32) a b (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine congrArg _ (Finset.sum_congr rfl fun kk _ => ?_)
  have hk := contrEquiv1_symm_val dot_S1024x1024_S1024x1024_S1024x1024_1_0_0_1_n_n 1024 rfl rfl kk
  have el : dot_S1024x1024_S1024x1024_S1024x1024_1_0_0_1_n_n.lhsIdx (ix2 p q) ((contrEquiv1 dot_S1024x1024_S1024x1024_S1024x1024_1_0_0_1_n_n 1024 rfl rfl).symm kk) = ix2 p kk := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm kk) = ix2 kk q := funext fun a => Fin.ext (by
    match a with
    | ⟨0, _⟩ => exact (rhs_dot_0 _ _).trans hk
    | ⟨1, _⟩ => exact rhs_dot_1 _ _)
  rw [el, er]

/-- The store payload at an entry: the accumulator's entry, thresholded. -/
theorem pay3_apply (acc : Vec Ideal S1024x1024 .f32) (i : S1024x1024.Idx) :
    k1_pay3 acc i = Cert.PprSpec.thr (acc i) := rfl

/-! ### The accumulator along a run of four points -/

/-- At a point with k = 0 the accumulator restarts: the blocks' product added to the zero block. -/
theorem accAt1_restart (c : Dev nD) (n : ℕ) (hn : n < cfg1.N) (h0 : n % 4 = 0) :
    accAt1 V c n hn = k1_pay2 (k1_pay1 (F := Ideal)) (iblk1 V c 0 ⟨n, hn⟩) (iblk1 V c 1 ⟨n, hn⟩) := by
  cases n with
  | zero => rw [accAt1]
  | succ m => rw [accAt1, if_pos h0]

/-- At a point with k ≠ 0 the blocks' product is added to what the point before left. -/
theorem accAt1_step (c : Dev nD) (n : ℕ) (hn : n + 1 < cfg1.N) (h0 : (n + 1) % 4 ≠ 0) :
    accAt1 V c (n + 1) hn
      = k1_pay2 (accAt1 V c n (Nat.lt_of_succ_lt hn)) (iblk1 V c 0 ⟨n + 1, hn⟩) (iblk1 V c 1 ⟨n + 1, hn⟩) := by
  rw [accAt1, if_neg h0]

/-- So at the last point of a run the accumulator is the four products added in order onto the zero block. -/
theorem accAt1_run (c : Dev nD) (n : ℕ) (h : n + 3 < cfg1.N) (h0 : n % 4 = 0) :
    accAt1 V c (n + 3) h
      = k1_pay2 (k1_pay2 (k1_pay2 (k1_pay2 (k1_pay1 (F := Ideal))
          (iblk1 V c 0 ⟨n, by omega⟩) (iblk1 V c 1 ⟨n, by omega⟩))
          (iblk1 V c 0 ⟨n + 1, by omega⟩) (iblk1 V c 1 ⟨n + 1, by omega⟩))
          (iblk1 V c 0 ⟨n + 2, by omega⟩) (iblk1 V c 1 ⟨n + 2, by omega⟩))
          (iblk1 V c 0 ⟨n + 3, h⟩) (iblk1 V c 1 ⟨n + 3, h⟩) := by
  rw [accAt1_step V c (n + 2) h (by omega), accAt1_step V c (n + 1) (by omega) (by omega),
    accAt1_step V c n (by omega) (by omega), accAt1_restart V c n (by omega) h0]

/-- Four accumulation steps from the zero block, at entry (p, q): the four row-times-column sums added in order onto
    zero. -/
theorem four_steps_apply (a0 b0 a1 b1 a2 b2 a3 b3 : Vec Ideal S1024x1024 .f32) (p q : Fin 1024) :
    k1_pay2 (k1_pay2 (k1_pay2 (k1_pay2 (k1_pay1 (F := Ideal)) a0 b0) a1 b1) a2 b2) a3 b3 (ix2 p q)
      = (((0 + ∑ kk : Fin 1024, a0 (ix2 p kk) * b0 (ix2 kk q)) + ∑ kk : Fin 1024, a1 (ix2 p kk) * b1 (ix2 kk q))
          + ∑ kk : Fin 1024, a2 (ix2 p kk) * b2 (ix2 kk q)) + ∑ kk : Fin 1024, a3 (ix2 p kk) * b3 (ix2 kk q) := by
  rw [pay2_apply, pay2_apply, pay2_apply, pay2_apply, pay1_apply]

/-- The accumulator's entry (p, q) at the last point of the run that starts at `n`: row `1024 · (n / 16) + p` of the
    left array times column `1024 · (n / 4 % 4) + q` of the right array, the whole contraction. -/
theorem acc_entry (c : Dev nD) (n : ℕ) (h : n + 3 < cfg1.N) (h0 : n % 4 = 0) (p q : Fin 1024) (r s : Fin 4096)
    (hr : r.val = 1024 * (n / 16) + p.val) (hs : s.val = 1024 * (n / 4 % 4) + q.val) :
    accAt1 V c (n + 3) h (ix2 p q)
      = ∑ k : Fin 4096, lhsArr V c (ix2 r k)
          * rhsArr V c (ix2 k s) := by
  have hN : cfg1.N = 64 := N_1
  rw [accAt1_run V c n h h0]
  refine (four_steps_apply _ _ _ _ _ _ _ _ p q).trans ?_
  rw [BlockSum.sum_4096_by_1024]
  refine congrArg₂ (· + ·) (congrArg₂ (· + ·) (congrArg₂ (· + ·) (congrArg₂ (· + ·) rfl ?_) ?_) ?_) ?_ <;>
    refine Finset.sum_congr rfl fun kk _ => ?_
  · rw [blkA_apply V c ⟨n, by omega⟩ p kk r ⟨kk.val, by have := kk.isLt; omega⟩
        (by show r.val = 1024 * (n / 16) + p.val; exact hr) (by show kk.val = 1024 * (n % 4) + kk.val; omega),
      blkB_apply V c ⟨n, by omega⟩ kk q ⟨kk.val, by have := kk.isLt; omega⟩ s
        (by show kk.val = 1024 * (n % 4) + kk.val; omega) (by show s.val = 1024 * (n / 4 % 4) + q.val; exact hs)]
  · rw [blkA_apply V c ⟨n + 1, by omega⟩ p kk r ⟨1024 + kk.val, by have := kk.isLt; omega⟩
        (by show r.val = 1024 * ((n + 1) / 16) + p.val; omega) (by show 1024 + kk.val = 1024 * ((n + 1) % 4) + kk.val; omega),
      blkB_apply V c ⟨n + 1, by omega⟩ kk q ⟨1024 + kk.val, by have := kk.isLt; omega⟩ s
        (by show 1024 + kk.val = 1024 * ((n + 1) % 4) + kk.val; omega) (by show s.val = 1024 * ((n + 1) / 4 % 4) + q.val; omega)]
  · rw [blkA_apply V c ⟨n + 2, by omega⟩ p kk r ⟨2048 + kk.val, by have := kk.isLt; omega⟩
        (by show r.val = 1024 * ((n + 2) / 16) + p.val; omega) (by show 2048 + kk.val = 1024 * ((n + 2) % 4) + kk.val; omega),
      blkB_apply V c ⟨n + 2, by omega⟩ kk q ⟨2048 + kk.val, by have := kk.isLt; omega⟩ s
        (by show 2048 + kk.val = 1024 * ((n + 2) % 4) + kk.val; omega) (by show s.val = 1024 * ((n + 2) / 4 % 4) + q.val; omega)]
  · rw [blkA_apply V c ⟨n + 3, h⟩ p kk r ⟨3072 + kk.val, by have := kk.isLt; omega⟩
        (by show r.val = 1024 * ((n + 3) / 16) + p.val; omega) (by show 3072 + kk.val = 1024 * ((n + 3) % 4) + kk.val; omega),
      blkB_apply V c ⟨n + 3, h⟩ kk q ⟨3072 + kk.val, by have := kk.isLt; omega⟩ s
        (by show 3072 + kk.val = 1024 * ((n + 3) % 4) + kk.val; omega) (by show s.val = 1024 * ((n + 3) / 4 % 4) + q.val; omega)]

/-! ### From the write-backs to the array -/

/-- The thresholded product of the two input arrays, as contents of the output array. -/
abbrev prod (c : Dev nD) : Buf (Elt Ideal) ((cfg1.win 2).arr.view.loc (c.tc : Thread nD τ)) :=
  Cert.PprSpec.MT (lhsArr V c) (rhsArr V c)

/-- What a write-back writes is its block of the thresholded product: the point is the last of a run of four, its
    output block is (n / 16, n / 4 % 4), and entry (p, q) of the thresholded accumulator is the product's entry
    (1024 · (n / 16) + p, 1024 · (n / 4 % 4) + q). -/
theorem flushed_eq (c : Dev nD) (t : Fin cfg1.N) (hf : (cfg1.win 2).flush t = true) :
    (dat1 V c).flushed 2 t = ((cfg1.win 2).blk t).view.read (Elt Ideal) (prod V c) := by
  have hN : cfg1.N = 64 := N_1
  have h3 : t.val % 4 = 3 := (flush1_2 t).mp hf
  obtain ⟨tv, ht⟩ := t
  obtain ⟨n, rfl⟩ : ∃ n, tv = n + 3 := ⟨tv - 3, by have : tv % 4 = 3 := h3; omega⟩
  have h0 : n % 4 = 0 := by have : (n + 3) % 4 = 3 := h3; omega
  funext y
  obtain ⟨p, q, rfl⟩ : ∃ (p q : Fin 1024), y = ix2 p q := ⟨y 0, y 1, eq_ix2 y⟩
  rw [View.read_apply]
  show k1_pay3 (accAt1 V c (n + 3) ht) (ix2 p q) = prod V c (((cfg1.win 2).blk ⟨n + 3, ht⟩).view.emb (ix2 p q))
  rw [pay3_apply]
  show Cert.PprSpec.thr _ = Cert.PprSpec.thr _
  refine congrArg Cert.PprSpec.thr (acc_entry V c n ht h0 p q _ _ ?_ ?_)
  · show win1_2.index ⟨n + 3, ht⟩ 0 * 1024 + 1 * p.val = 1024 * (n / 16) + p.val
    rw [(idx_facts ⟨n + 3, ht⟩).2.2.2.2.1]
    show (n + 3) / 16 * 1024 + 1 * p.val = _
    omega
  · show win1_2.index ⟨n + 3, ht⟩ 1 * 1024 + 1 * q.val = 1024 * (n / 4 % 4) + q.val
    rw [(idx_facts ⟨n + 3, ht⟩).2.2.2.2.2]
    show (n + 3) / 4 % 4 * 1024 + 1 * q.val = _
    omega

/-- Every entry (r, s) of the output array is in a written-back block: that of the point
    `16 · (r / 1024) + 4 · (s / 1024) + 3`. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 64 := N_1
  have h0 : (i 0).val < 4096 := (i 0).isLt
  have h1 : (i 1).val < 4096 := (i 1).isLt
  have hlt : 16 * ((i 0).val / 1024) + 4 * ((i 1).val / 1024) + 3 < cfg1.N := by omega
  refine ⟨⟨16 * ((i 0).val / 1024) + 4 * ((i 1).val / 1024) + 3, hlt⟩, (flush1_2 _).mpr ?_, ?_⟩
  · show (16 * ((i 0).val / 1024) + 4 * ((i 1).val / 1024) + 3) % 4 = 3
    omega
  show i ∈ ((View.whole (Pipeline.arrRef spec1 2)).slice (win1_2.rect ⟨_, hlt⟩)).set
  rw [View.set_slice_whole, Rect.mem_set_unit]
  intro a
  match a with
  | ⟨0, _⟩ =>
    show win1_2.index ⟨_, hlt⟩ 0 * 1024 ≤ (i 0).val ∧ (i 0).val < win1_2.index ⟨_, hlt⟩ 0 * 1024 + 1024
    rw [(idx_facts ⟨_, hlt⟩).2.2.2.2.1]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win1_2.index ⟨_, hlt⟩ 1 * 1024 ≤ (i 1).val ∧ (i 1).val < win1_2.index ⟨_, hlt⟩ 1 * 1024 + 1024
    rw [(idx_facts ⟨_, hlt⟩).2.2.2.2.2]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

end KVal1

/-- Region 1's output array after its write-backs is the thresholded product of its two input arrays. -/
theorem arr1_eq (c : Dev nD) :
    ((dat1 (F := Ideal) V c).arrAt 2 cfg1.N : Cert.PprSpec.Sq.Idx → EReal)
      = Cert.PprSpec.MT (V c (Pipeline.arrRef spec1 0) : Cert.PprSpec.Sq.Idx → EReal) (V c (Pipeline.arrRef spec1 1) : Cert.PprSpec.Sq.Idx → EReal) :=
  (dat1 V c).arrAt_eq_of_cover 2 (KVal1.prod V c) (KVal1.flushed_eq V c) (KVal1.cover c)

end Cert.KernelIdeal.Hand

end
-- ==== Proof.KVal2.lean ====
/-
  What region 2's write-backs leave in its output array, on the extended reals.

  Region 2 runs on an 8 × 4 grid, point t = 4·i + j. All five windows have 512 × 1024 blocks at block index (i, j);
  every input is fetched and the output written back at every point, and what point t writes back is the weighted sum,
  entry by entry, of the four input blocks there. So block t of the final array is the restriction of `comb` of the
  four arrays to rows 512·i …, columns 1024·j …, and the 32 blocks tile the 4096 × 4096 array.
-/
import proofs.«156726_j25744033972455_1_alg».proof.Proof.Data
import proofs.«156726_j25744033972455_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen
open Idealize.ShloMosaic.ValueIdx
variable {F : FTy → Type} [FloatOps F]

local notation "𝕄" => MT nD τ sig Unit (Elt F) ℕ (UR sig nD τ) ℕ

variable (V : (c : Dev nD) → (b : Ref sig .tc) → Buf (Elt Ideal) ((c : Thread nD τ).loc b))

namespace KVal2

/-- The payload at an entry: the four blocks' entries weighted and summed in the kernel's order. -/
theorem pay_apply (p a m2 m3 : Vec Ideal S512x1024 .f32) (j : S512x1024.Idx) :
    k2_pay1 p a m2 m3 j
      = ((Ideal.ofBits .f32 0x3ECCCCCD#32 * p j + Ideal.ofBits .f32 0x3E75C28F#32 * a j)
        + Ideal.ofBits .f32 0x3E1374BC#32 * m2 j) + Ideal.ofBits .f32 0x3DB0F27C#32 * m3 j := by
  unfold k2_pay1
  simp only [shapeCast_self, addf_apply, mulf_apply, broadcast_apply]
  rfl

/-- So where the four blocks' entries are the four matrices' entries at `i`, the payload's entry is the
    weighted sum's entry at `i`. -/
theorem pay_eq_comb (P A M2 M3 : Cert.PprSpec.Sq.Idx → EReal) (p a m2 m3 : Vec Ideal S512x1024 .f32)
    (j : S512x1024.Idx) (i : Cert.PprSpec.Sq.Idx)
    (hp : p j = P i) (ha : a j = A i) (hm2 : m2 j = M2 i) (hm3 : m3 j = M3 i) :
    k2_pay1 p a m2 m3 j = Cert.PprSpec.comb P A M2 M3 i := by
  rw [pay_apply, hp, ha, hm2, hm3]
  rfl

/-- The block indices over the grid: every input window sits where the output window does, at block
    (t / 4, t % 4). -/
theorem idx_facts : ∀ t : Fin cfg2.N,
    win2_0.index t (0 : Fin 2) = win2_4.index t (0 : Fin 2) ∧ win2_0.index t (1 : Fin 2) = win2_4.index t (1 : Fin 2)
    ∧ win2_1.index t (0 : Fin 2) = win2_4.index t (0 : Fin 2) ∧ win2_1.index t (1 : Fin 2) = win2_4.index t (1 : Fin 2)
    ∧ win2_2.index t (0 : Fin 2) = win2_4.index t (0 : Fin 2) ∧ win2_2.index t (1 : Fin 2) = win2_4.index t (1 : Fin 2)
    ∧ win2_3.index t (0 : Fin 2) = win2_4.index t (0 : Fin 2) ∧ win2_3.index t (1 : Fin 2) = win2_4.index t (1 : Fin 2)
    ∧ win2_4.index t (0 : Fin 2) = t.val / 4 ∧ win2_4.index t (1 : Fin 2) = t.val % 4 :=
  (by decide +kernel : ∀ t : Fin grid2.N, _)

/-- An entry of an input block sits in its matrix where the same entry of the output block sits in the result:
    row = block row × 512 + the row inside the block, column = block column × 1024 + the column inside. -/
theorem emb0_eq (t : Fin cfg2.N) (j : S512x1024.Idx) :
    ((cfg2.win 0).blk t).view.emb j = ((cfg2.win 4).blk t).view.emb j := by
  obtain ⟨e0, e1, -⟩ := idx_facts t
  funext a; apply Fin.ext
  match a with
  | ⟨0, _⟩ => show win2_0.index t (0 : Fin 2) * 512 + 1 * (j 0).val = win2_4.index t (0 : Fin 2) * 512 + 1 * (j 0).val; rw [e0]
  | ⟨1, _⟩ => show win2_0.index t (1 : Fin 2) * 1024 + 1 * (j 1).val = win2_4.index t (1 : Fin 2) * 1024 + 1 * (j 1).val; rw [e1]

theorem emb1_eq (t : Fin cfg2.N) (j : S512x1024.Idx) :
    ((cfg2.win 1).blk t).view.emb j = ((cfg2.win 4).blk t).view.emb j := by
  obtain ⟨-, -, e0, e1, -⟩ := idx_facts t
  funext a; apply Fin.ext
  match a with
  | ⟨0, _⟩ => show win2_1.index t (0 : Fin 2) * 512 + 1 * (j 0).val = win2_4.index t (0 : Fin 2) * 512 + 1 * (j 0).val; rw [e0]
  | ⟨1, _⟩ => show win2_1.index t (1 : Fin 2) * 1024 + 1 * (j 1).val = win2_4.index t (1 : Fin 2) * 1024 + 1 * (j 1).val; rw [e1]

theorem emb2_eq (t : Fin cfg2.N) (j : S512x1024.Idx) :
    ((cfg2.win 2).blk t).view.emb j = ((cfg2.win 4).blk t).view.emb j := by
  obtain ⟨-, -, -, -, e0, e1, -⟩ := idx_facts t
  funext a; apply Fin.ext
  match a with
  | ⟨0, _⟩ => show win2_2.index t (0 : Fin 2) * 512 + 1 * (j 0).val = win2_4.index t (0 : Fin 2) * 512 + 1 * (j 0).val; rw [e0]
  | ⟨1, _⟩ => show win2_2.index t (1 : Fin 2) * 1024 + 1 * (j 1).val = win2_4.index t (1 : Fin 2) * 1024 + 1 * (j 1).val; rw [e1]

theorem emb3_eq (t : Fin cfg2.N) (j : S512x1024.Idx) :
    ((cfg2.win 3).blk t).view.emb j = ((cfg2.win 4).blk t).view.emb j := by
  obtain ⟨-, -, -, -, -, -, e0, e1, -⟩ := idx_facts t
  funext a; apply Fin.ext
  match a with
  | ⟨0, _⟩ => show win2_3.index t (0 : Fin 2) * 512 + 1 * (j 0).val = win2_4.index t (0 : Fin 2) * 512 + 1 * (j 0).val; rw [e0]
  | ⟨1, _⟩ => show win2_3.index t (1 : Fin 2) * 1024 + 1 * (j 1).val = win2_4.index t (1 : Fin 2) * 1024 + 1 * (j 1).val; rw [e1]

/-- What point `t` writes back is block `t` of the weighted sum of the four arrays. -/
theorem flushed_eq (c : Dev nD) (t : Fin cfg2.N) :
    (dat2 (F := Ideal) V c).flushed 4 t
      = ((cfg2.win 4).blk t).view.read (Elt Ideal)
          (Cert.PprSpec.comb (V c (Pipeline.arrRef spec2 0)) (V c (Pipeline.arrRef spec2 1))
            (V c (Pipeline.arrRef spec2 2)) (V c (Pipeline.arrRef spec2 3))) := by
  show (cfg2.win 4).cut (grid2.coords t) ((dat2 (F := Ideal) V c).after 4 t) = _
  dsimp only [dat2]
  funext j
  show k2_pay1 (iblk2 V c 0 t) (iblk2 V c 1 t) (iblk2 V c 2 t) (iblk2 V c 3 t) j
    = Cert.PprSpec.comb (V c (Pipeline.arrRef spec2 0)) (V c (Pipeline.arrRef spec2 1))
        (V c (Pipeline.arrRef spec2 2)) (V c (Pipeline.arrRef spec2 3)) (((cfg2.win 4).blk t).view.emb j)
  refine pay_eq_comb _ _ _ _ _ _ _ _ j _ ?_ ?_ ?_ ?_
  · show V c (Pipeline.arrRef spec2 0) (((cfg2.win 0).blk t).view.emb j) = _
    rw [emb0_eq]
  · show V c (Pipeline.arrRef spec2 1) (((cfg2.win 1).blk t).view.emb j) = _
    rw [emb1_eq]
  · show V c (Pipeline.arrRef spec2 2) (((cfg2.win 2).blk t).view.emb j) = _
    rw [emb2_eq]
  · show V c (Pipeline.arrRef spec2 3) (((cfg2.win 3).blk t).view.emb j) = _
    rw [emb3_eq]

/-- An entry of the result array is in point `t`'s block iff each coordinate is in the block's range on its axis. -/
theorem mem_blk (t : Fin cfg2.N) (i : Cert.PprSpec.Sq.Idx) :
    i ∈ ((cfg2.win 4).blk t).view.set
      ↔ ∀ a : Fin 2, win2_4.index t a * S512x1024.size a ≤ (i a).val
          ∧ (i a).val < win2_4.index t a * S512x1024.size a + S512x1024.size a := by
  show i ∈ ((View.whole main_v37).slice (win2_4.rect t)).set ↔ _
  rw [View.set_slice_whole, Rect.mem_set_unit]
  exact Iff.rfl

/-- The blocks tile the array: row `r`, column `s` lies in the block of point 4 · (r / 512) + s / 1024. -/
theorem cover (i : Cert.PprSpec.Sq.Idx) :
    ∃ t : Fin cfg2.N, (cfg2.win 4).flush t = true ∧ i ∈ ((cfg2.win 4).blk t).view.set := by
  have hi0 : (i 0).val < 4096 := (i 0).isLt
  have hi1 : (i 1).val < 4096 := (i 1).isLt
  have hN : cfg2.N = 32 := N_2
  have ht : 4 * ((i 0).val / 512) + (i 1).val / 1024 < cfg2.N := by rw [hN]; omega
  refine ⟨⟨4 * ((i 0).val / 512) + (i 1).val / 1024, ht⟩, flush2_4 _, ?_⟩
  obtain ⟨-, -, -, -, -, -, -, -, q0, q1⟩ := idx_facts ⟨4 * ((i 0).val / 512) + (i 1).val / 1024, ht⟩
  have q0' : win2_4.index ⟨4 * ((i 0).val / 512) + (i 1).val / 1024, ht⟩ (0 : Fin 2) = (i 0).val / 512 := by
    rw [q0]; show (4 * ((i 0).val / 512) + (i 1).val / 1024) / 4 = _; omega
  have q1' : win2_4.index ⟨4 * ((i 0).val / 512) + (i 1).val / 1024, ht⟩ (1 : Fin 2) = (i 1).val / 1024 := by
    rw [q1]; show (4 * ((i 0).val / 512) + (i 1).val / 1024) % 4 = _; omega
  rw [mem_blk]
  intro a
  match a with
  | ⟨0, _⟩ =>
    show win2_4.index _ (0 : Fin 2) * 512 ≤ (i 0).val ∧ (i 0).val < win2_4.index _ (0 : Fin 2) * 512 + 512
    rw [q0']; omega
  | ⟨1, _⟩ =>
    show win2_4.index _ (1 : Fin 2) * 1024 ≤ (i 1).val ∧ (i 1).val < win2_4.index _ (1 : Fin 2) * 1024 + 1024
    rw [q1']; omega

end KVal2

/-- After region 2 its output array is the weighted sum of the four arrays it reads, entry by entry. -/
theorem arr2_eq (c : Dev nD) :
    ((dat2 (F := Ideal) V c).arrAt 4 cfg2.N : Cert.PprSpec.Sq.Idx → EReal)
      = Cert.PprSpec.comb (V c (Pipeline.arrRef spec2 0) : Cert.PprSpec.Sq.Idx → EReal) (V c (Pipeline.arrRef spec2 1) : Cert.PprSpec.Sq.Idx → EReal) (V c (Pipeline.arrRef spec2 2) : Cert.PprSpec.Sq.Idx → EReal) (V c (Pipeline.arrRef spec2 3) : Cert.PprSpec.Sq.Idx → EReal) :=
  (dat2 (F := Ideal) V c).arrAt_eq_of_cover 4 _ (fun t _ => KVal2.flushed_eq V c t) KVal2.cover

end Cert.KernelIdeal.Hand

end
-- ==== Proof.KVal.lean ====
/-
  The kernel program's result array, on the extended reals, as the specification's function of the two scattered
  matrices as the regions find them: region 0 leaves M2 = MT A A, region 1 leaves M3 = MT A M2 (it reads A and, in
  `main_v35`, what region 0 left), region 2 leaves comb P A M2 M3.
-/
import proofs.«156726_j25744033972455_1_alg».proof.Proof.Bound
import proofs.«156726_j25744033972455_1_alg».proof.Proof.KVal0
import proofs.«156726_j25744033972455_1_alg».proof.Proof.KVal1
import proofs.«156726_j25744033972455_1_alg».proof.Proof.KVal2

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

namespace KVal

variable (m : (ℓ : Loc nD τ sig) → Buf (Elt Ideal) ℓ)

/-- The two scattered matrices, as the host stretch leaves them. -/
abbrev Amat (c : Dev nD) : Cert.PprSpec.Sq.Idx → EReal := W1 m c main_v18
abbrev Pmat (c : Dev nD) : Cert.PprSpec.Sq.Idx → EReal := W1 m c main_v34

/-- A region changes its own output array only. -/
theorem W2_self (c : Dev nD) : W2 m c main_v35 = X35 m c := by
  unfold W2; exact Function.update_self _ _ _
theorem W2_of_ne (c : Dev nD) (r : Ref sig .tc) (h : r ≠ main_v35) : W2 m c r = W1 m c r := by
  unfold W2; exact Function.update_of_ne (StableHlo.devRef_ne_of_ne h) _ _
theorem W3_self (c : Dev nD) : W3 m c main_v36 = X36 m c := by
  unfold W3; exact Function.update_self _ _ _
theorem W3_of_ne (c : Dev nD) (r : Ref sig .tc) (h : r ≠ main_v36) : W3 m c r = W2 m c r := by
  unfold W3; exact Function.update_of_ne (StableHlo.devRef_ne_of_ne h) _ _

/-- Region 0 leaves the thresholded square of A. -/
theorem X35_eq (c : Dev nD) : (X35 m c : Cert.PprSpec.Sq.Idx → EReal) = Cert.PprSpec.MT (Amat m c) (Amat m c) :=
  arr0_eq (Vv1 m) c

/-- Region 1 leaves the thresholded product of A and what region 0 left. -/
theorem X36_eq (c : Dev nD) : (X36 m c : Cert.PprSpec.Sq.Idx → EReal) = Cert.PprSpec.MT (Amat m c) (X35 m c) := by
  have h := arr1_eq (Vv2 m) c
  have e0 : (Vv2 m c (Pipeline.arrRef spec1 0) : Cert.PprSpec.Sq.Idx → EReal) = Amat m c := W2_of_ne m c main_v18 (by decide)
  have e1 : (Vv2 m c (Pipeline.arrRef spec1 1) : Cert.PprSpec.Sq.Idx → EReal) = X35 m c := W2_self m c
  rw [e0, e1] at h
  exact h

/-- Region 2 leaves the weighted sum of the four matrices. -/
theorem X37_eq (c : Dev nD) :
    (X37 m c : Cert.PprSpec.Sq.Idx → EReal) = Cert.PprSpec.comb (Pmat m c) (Amat m c) (X35 m c) (X36 m c) := by
  have h := arr2_eq (Vv3 m) c
  have e0 : (Vv3 m c (Pipeline.arrRef spec2 0) : Cert.PprSpec.Sq.Idx → EReal) = Pmat m c :=
    (W3_of_ne m c main_v34 (by decide)).trans (W2_of_ne m c main_v34 (by decide))
  have e1 : (Vv3 m c (Pipeline.arrRef spec2 1) : Cert.PprSpec.Sq.Idx → EReal) = Amat m c :=
    (W3_of_ne m c main_v18 (by decide)).trans (W2_of_ne m c main_v18 (by decide))
  have e2 : (Vv3 m c (Pipeline.arrRef spec2 2) : Cert.PprSpec.Sq.Idx → EReal) = X35 m c :=
    (W3_of_ne m c main_v35 (by decide)).trans (W2_self m c)
  have e3 : (Vv3 m c (Pipeline.arrRef spec2 3) : Cert.PprSpec.Sq.Idx → EReal) = X36 m c := W3_self m c
  rw [e0, e1, e2, e3] at h
  exact h

/-- The result array is the specification's function of P and A. -/
theorem X37_result (c : Dev nD) :
    (X37 m c : Cert.PprSpec.Sq.Idx → EReal) = Cert.PprSpec.result (Pmat m c) (Amat m c) := by
  rw [X37_eq, X36_eq, X35_eq]; rfl

end KVal

end Cert.KernelIdeal.Hand

end
-- ==== Proof.RefVal.lean ====
/-
  The reference's result, on the extended reals, is the specification's function of its two scattered matrices.

  Read entry by entry, the reference's stages are: the product of A with itself, compared with ε and kept or zeroed
  (this is `MT A A`); the product of A with that matrix, thresholded the same way (`MT A (MT A A)`); and the
  weighted sum of P, A and the two thresholded products, added in the specification's order.
-/
import proofs.«156726_j25744033972455_1_alg».proof.Defs
import proofs.«156726_j25744033972455_1_alg».proof.Proof.Gen.ReferenceIdeal.Run
import proofs.«156726_j25744033972455_1_alg».proof.Proof.Gen.ReferenceIdeal.Read
import proofs.«156726_j25744033972455_1_alg».proof.Proof.Spec

noncomputable section

namespace Cert.ReferenceIdeal.RefValue

open Idealize.ShloMosaic Idealize.ShloMosaic.ValueIdx Idealize.SL.Sem
open Cert.ReferenceIdeal Cert.ReferenceIdeal.Gen

namespace RefVal

open Cert.PprSpec

/-- The left operand of a matrix product is read at row `i 0`, column `k`. -/
theorem lidx35 (i : S4096x4096.Idx) (k : Fin 4096) :
    Read.lidx_main_v35 i k = ix2 (n0 := 4096) (n1 := 4096) (i 0) k :=
  funext fun a => Fin.ext (by match a with | ⟨0, _⟩ => rfl | ⟨1, _⟩ => rfl)

/-- The right operand of a matrix product is read at row `k`, column `i 1`. -/
theorem ridx35 (i : S4096x4096.Idx) (k : Fin 4096) :
    Read.ridx_main_v35 i k = ix2 (n0 := 4096) (n1 := 4096) k (i 1) :=
  funext fun a => Fin.ext (by match a with | ⟨0, _⟩ => rfl | ⟨1, _⟩ => rfl)

/-- Likewise for the second product. -/
theorem lidx39 (i : S4096x4096.Idx) (k : Fin 4096) :
    Read.lidx_main_v39 i k = ix2 (n0 := 4096) (n1 := 4096) (i 0) k :=
  funext fun a => Fin.ext (by match a with | ⟨0, _⟩ => rfl | ⟨1, _⟩ => rfl)

theorem ridx39 (i : S4096x4096.Idx) (k : Fin 4096) :
    Read.ridx_main_v39 i k = ix2 (n0 := 4096) (n1 := 4096) k (i 1) :=
  funext fun a => Fin.ext (by match a with | ⟨0, _⟩ => rfl | ⟨1, _⟩ => rfl)

/-- The first thresholded product: the reference's A·A, compared with ε and selected against zero, is `MT A A`. -/
theorem m2_eq (x1 : (⟨S2x131072, .i32⟩ : BufTy).Contents (Elt Ideal)) (x2 : (⟨S131072, .f32⟩ : BufTy).Contents (Elt Ideal)) :
    Read.val_main_v38 (F := Ideal) x1 x2
      = MT (Read.val_main_v18 (F := Ideal) x1 x2) (Read.val_main_v18 (F := Ideal) x1 x2) := by
  funext i
  rw [Read.val_main_v38_apply, Read.val_main_v37_apply, Read.val_main_v35_apply, Read.val_main_v36_apply,
    Read.val_main_cst_9_apply, Read.val_main_call0_v0_apply, Read.val_main_cst_10_apply]
  simp only [lidx35, ridx35, Ideal.ofBits_def]
  rfl

/-- The second thresholded product: A times the first one, thresholded, is `MT A (MT A A)`. -/
theorem m3_eq (x1 : (⟨S2x131072, .i32⟩ : BufTy).Contents (Elt Ideal)) (x2 : (⟨S131072, .f32⟩ : BufTy).Contents (Elt Ideal)) :
    Read.val_main_v42 (F := Ideal) x1 x2
      = MT (Read.val_main_v18 (F := Ideal) x1 x2)
          (MT (Read.val_main_v18 (F := Ideal) x1 x2) (Read.val_main_v18 (F := Ideal) x1 x2)) := by
  funext i
  rw [Read.val_main_v42_apply, Read.val_main_v41_apply, Read.val_main_v39_apply, Read.val_main_v40_apply,
    Read.val_main_cst_11_apply, Read.val_main_call1_v0_apply, Read.val_main_cst_12_apply, m2_eq]
  simp only [lidx39, ridx39, Ideal.ofBits_def]
  rfl

end RefVal

/-- The reference's last stage is `comb P A (MT A A) (MT A (MT A A))` of its own scattered matrices
    `P = val_main_v34` and `A = val_main_v18`. -/
theorem ref_result (x1 : (⟨S2x131072, .i32⟩ : BufTy).Contents (Elt Ideal)) (x2 : (⟨S131072, .f32⟩ : BufTy).Contents (Elt Ideal)) :
    Read.val_main_v53 (F := Ideal) x1 x2
      = Cert.PprSpec.result (Read.val_main_v34 (F := Ideal) x1) (Read.val_main_v18 (F := Ideal) x1 x2) := by
  funext i
  rw [Read.val_main_v53_apply, Read.val_main_v50_apply, Read.val_main_v47_apply,
    Read.val_main_v44_apply, Read.val_main_v43_apply, Read.val_main_cst_13_apply,
    Read.val_main_v46_apply, Read.val_main_v45_apply, Read.val_main_cst_14_apply,
    Read.val_main_v49_apply, Read.val_main_v48_apply, Read.val_main_cst_15_apply,
    Read.val_main_v52_apply, Read.val_main_v51_apply, Read.val_main_cst_16_apply,
    RefVal.m2_eq, RefVal.m3_eq]
  simp only [Ideal.ofBits_def, Ideal.addf_def, Ideal.mulf_def]
  rfl

end Cert.ReferenceIdeal.RefValue

end
-- ==== Proof.HostEq.lean ====
/-
  The kernel program's host stretch computes the same two scattered matrices as the reference's:
  the two programs print the same StableHLO operations over the same arguments.

  Each matrix is a scatter-add into a zero matrix at the index pairs (row, column) read off the two rows of the
  integer argument (a negative coordinate wrapped by adding 4096), of the float argument for A and of ones for P.
  The kernel program's operations, composed, are term for term the reference's stages composed: the scatter-add of
  the same zero matrix, of a two-column index array whose columns agree, and of the same updates.
-/
import proofs.«156726_j25744033972455_1_alg».proof.Proof.Gen.KernelIdeal.Regions
import proofs.«156726_j25744033972455_1_alg».proof.Proof.Gen.ReferenceIdeal.Read
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

namespace HostEq

variable {F : FTy → Type} [FloatOps F]

/-- A two-piece concatenation depends on its pieces only through their contents. -/
theorem concat_pair_congr {α : Type} {t : Shape} {a : Fin t.rank} {S1 S2 : Shape} {x x' : S1.Idx → α} {y y' : S2.Idx → α}
    (h : Shape.Concatenates [S1, S2] t a) (hx : x = x') (hy : y = y') :
    concatenate t a [⟨S1, x⟩, ⟨S2, y⟩] h = concatenate t a [⟨S1, x'⟩, ⟨S2, y'⟩] h := by
  subst hx; subst hy; rfl

/-- A, for any float values: the host operations that end at `main_v18`, composed, are the reference's stages
    composed down to the two arguments. Both sides are the scatter-add of the zero matrix and the float argument at
    the two-column index array; the columns (row and column coordinates, each wrapped) are compared one by one. -/
theorem hostA (m : (ℓ : Loc nD τ sig) → Buf (Elt F) ℓ) (c : Dev nD) :
    Gen.V1 m c main_v18
      = Cert.ReferenceIdeal.Read.val_main_v18 (F := F) (m ((c : Thread nD τ).loc main_arg1)) (m ((c : Thread nD τ).loc main_arg2)) := by
  show StableHlo.after hostOps0 (Gen.V0 m c) (Proc.devRef .tc main_v18) = _
  after_results_simp
  refine congrArg (fun t => Host.scatterAdd _ _ t _) ?_
  refine concat_pair_congr _ ?_ ?_
  · after_results_simp
    rfl
  · after_results_simp
    rfl

/-- P, for any float values: likewise the operations that end at `main_v34`, the scatter-add of ones into the zero
    matrix at the same kind of index array. -/
theorem hostP (m : (ℓ : Loc nD τ sig) → Buf (Elt F) ℓ) (c : Dev nD) :
    Gen.V1 m c main_v34
      = Cert.ReferenceIdeal.Read.val_main_v34 (F := F) (m ((c : Thread nD τ).loc main_arg1)) := by
  show StableHlo.after hostOps0 (Gen.V0 m c) (Proc.devRef .tc main_v34) = _
  after_results_simp
  refine congrArg (fun t => Host.scatterAdd _ _ t _) ?_
  refine concat_pair_congr _ ?_ ?_
  · after_results_simp
    rfl
  · after_results_simp
    rfl

end HostEq

/-- A: the kernel program's `main_v18` after its host stretch is the reference's stage `val_main_v18` of the arguments. -/
theorem hostA_eq (m : (ℓ : Loc nD τ sig) → Buf (Elt Ideal) ℓ) (c : Dev nD) :
    Gen.V1 m c main_v18
      = Cert.ReferenceIdeal.Read.val_main_v18 (F := Ideal) (m ((c : Thread nD τ).loc main_arg1)) (m ((c : Thread nD τ).loc main_arg2)) := by
  exact HostEq.hostA m c

/-- P: likewise `main_v34` is the reference's stage `val_main_v34`. -/
theorem hostP_eq (m : (ℓ : Loc nD τ sig) → Buf (Elt Ideal) ℓ) (c : Dev nD) :
    Gen.V1 m c main_v34
      = Cert.ReferenceIdeal.Read.val_main_v34 (F := Ideal) (m ((c : Thread nD τ).loc main_arg1)) := by
  exact HostEq.hostP m c

end Cert.KernelIdeal.Hand

end
-- ==== Proof.lean ====
/-
  The certificate of the personalised-PageRank power series kernel against its jnp reference.

  Both programs scatter the edge list into two dense 4096 × 4096 matrices, A (edge weights) and P (unit weights), by the
  same host operations, and return  θ₀·P + θ₁·A + θ₂·M2 + θ₃·M3  with  M2 = thr(A·A),  M3 = thr(A·M2),  where thr keeps
  an entry that is at least ε and zeroes the others, and θ, ε are the same float words in both. The kernel program
  computes each product in a Pallas region, block by block: a 1024 × 1024 output block accumulates, over four grid
  points, the products of the matching row and column blocks in a scratch buffer, and is thresholded and written back
  at the fourth; a third, pointwise region forms the weighted sum. On the extended reals a sum over 4096 indices is the
  sum of its four consecutive quarters (addition is a commutative monoid there: no finiteness is needed), so each
  region's array is the specification's function of its operands (Proof/KVal*.lean), the reference's run is the same
  function of the same two matrices (Proof/RefVal.lean, Proof/HostEq.lean), and the two results agree.

  The frames: each kernel program is run region by region (Proof/Run.lean, and its copy for the word-level program,
  Proof/KernelBits/Run.lean), which also names the result array; the reference's frame is its generated run.
-/
import proofs.«156726_j25744033972455_1_alg».proof.Defs
import proofs.«156726_j25744033972455_1_alg».proof.Proof.Gen.Kernel
import proofs.«156726_j25744033972455_1_alg».proof.Proof.Gen.KernelIdeal
import proofs.«156726_j25744033972455_1_alg».proof.Proof.Gen.ReferenceIdeal
import proofs.«156726_j25744033972455_1_alg».proof.Proof.Gen.ReferenceIdeal.Run
import proofs.«156726_j25744033972455_1_alg».proof.Proof.Gen.ReferenceIdeal.Read
import proofs.«156726_j25744033972455_1_alg».proof.Proof.Gen.Pre_finite_inputs
import proofs.«156726_j25744033972455_1_alg».proof.Proof.Run
import proofs.«156726_j25744033972455_1_alg».proof.Proof.KernelBits.Run
import proofs.«156726_j25744033972455_1_alg».proof.Proof.KVal
import proofs.«156726_j25744033972455_1_alg».proof.Proof.RefVal
import proofs.«156726_j25744033972455_1_alg».proof.Proof.HostEq

noncomputable section

namespace Cert.Proof

open Idealize.ShloMosaic Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run (F := Bits) m ρ)

/-- So does the idealized kernel program. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run (F := Ideal) m ρ)

/-- And the reference: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel program's result array and the reference's are one function of the argument
    arrays: the specification's `result` of the two scattered matrices, which the two host stretches compute alike. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.X37 m c, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.ref_result, (hagree c).2.1, (hagree c).2.2]
  exact ((Cert.KernelIdeal.Hand.KVal.X37_result m c).trans
    (by rw [show Cert.KernelIdeal.Hand.KVal.Pmat m c = _ from Cert.KernelIdeal.Hand.hostP_eq m c,
            show Cert.KernelIdeal.Hand.KVal.Amat m c = _ from Cert.KernelIdeal.Hand.hostA_eq m c])).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
